-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x16384 : Shape := ⟨3, ![16, 256, 16384]⟩
abbrev S16x256 : Shape := ⟨2, ![16, 256]⟩
abbrev S16 : Shape := ⟨1, ![16]⟩
abbrev S_ : Shape := ⟨0, ![]⟩

class Facts : Prop where
  bcast_S_S16x256x16384 : S_.BroadcastsInDim S16x256x16384 (![] : Fin 0 → Fin S16x256x16384.rank)
  reducesTo_S16x256x16384_S_d0_1_2 : S16x256x16384.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S16x256x16384 .f32) (main_arg1 : FVec F S16x256 .f32) (main_arg2 : FVec F S16x256 .f32) (main_arg3 : IVec S16 32) : IVec S_ 1 :=
  let main_v0 : FVec F S16x256x16384 .f32 := Host.absf main_arg0
  let main_cst : FVec F S_ .f32 := constant S_ .f32 0x7F800000#32
  let main_v1 : FVec F S16x256x16384 .f32 := broadcastInDim S16x256x16384 ![] bcast_S_S16x256x16384 main_cst
  let main_v2 : IVec S16x256x16384 1 := cmpf .olt main_v0 main_v1
  let main_c : IVec S_ 1 := constantI S_ 1 1#1
  let main_v3 : IVec S_ 1 := (fun x v => Host.reduce IntOp.andi x v reducesTo_S16x256x16384_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S16x256x16384 : Shape := ⟨3, ![16, 256, 16384]⟩
abbrev S16x256 : Shape := ⟨2, ![16, 256]⟩
abbrev S16 : Shape := ⟨1, ![16]⟩
abbrev S16x256x1 : Shape := ⟨3, ![16, 256, 1]⟩
abbrev S1x256x16384 : Shape := ⟨3, ![1, 256, 16384]⟩
abbrev S1x256x1 : Shape := ⟨3, ![1, 256, 1]⟩
abbrev S1x256x2048 : Shape := ⟨3, ![1, 256, 2048]⟩
abbrev S1x256 : Shape := ⟨2, ![1, 256]⟩
abbrev S_ : Shape := ⟨0, ![]⟩
abbrev S256 : Shape := ⟨1, ![256]⟩
abbrev S16x256x4 : Shape := ⟨3, ![16, 256, 4]⟩
abbrev S1x256x4096 : Shape := ⟨3, ![1, 256, 4096]⟩
abbrev S1x256x4 : Shape := ⟨3, ![1, 256, 4]⟩
abbrev S1 : Shape := ⟨1, ![1]⟩
abbrev S1x1x4096 : Shape := ⟨3, ![1, 1, 4096]⟩

abbrev nBuf : Space → Nat
  | .hbm => 79
  | .vmem => 12
  | .smem => 1
  | _ => 0

abbrev bufTy : (tb : Table) → Fin (tcTables nBuf tb) → BufTy
  | .hbm, ⟨0, _⟩ => ⟨S16x256x16384, .f32⟩
  | .hbm, ⟨1, _⟩ => ⟨S16x256, .f32⟩
  | .hbm, ⟨2, _⟩ => ⟨S16x256, .f32⟩
  | .hbm, ⟨3, _⟩ => ⟨S16x256x1, .f32⟩
  | .hbm, ⟨4, _⟩ => ⟨S16x256x1, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .i32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .i32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S16x256, .f32⟩
  | .hbm, ⟨67, _⟩ => ⟨S16x256, .f32⟩
  | .hbm, ⟨68, _⟩ => ⟨S16x256, .f32⟩
  | .hbm, ⟨69, _⟩ => ⟨S1x256, .f32⟩
  | .hbm, ⟨70, _⟩ => ⟨S16x256, .f32⟩
  | .hbm, ⟨71, _⟩ => ⟨S16x256, .f32⟩
  | .hbm, ⟨72, _⟩ => ⟨S16x256, .f32⟩
  | .hbm, ⟨73, _⟩ => ⟨S16x256x1, .f32⟩
  | .hbm, ⟨74, _⟩ => ⟨S16x256x1, .f32⟩
  | .hbm, ⟨75, _⟩ => ⟨S16x256x1, .f32⟩
  | .hbm, ⟨76, _⟩ => ⟨S16x256x1, .f32⟩
  | .hbm, ⟨77, _⟩ => ⟨S16x256x4, .f32⟩
  | .hbm, ⟨78, _⟩ => ⟨S16x256x16384, .f32⟩
  | .local _ .vmem, ⟨0, _⟩ => ⟨S1x256x16384, .f32⟩
  | .local _ .vmem, ⟨1, _⟩ => ⟨S1x256x16384, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4, .f32⟩
  | .local _ .vmem, ⟨9, _⟩ => ⟨S1x256x4, .f32⟩
  | .local _ .vmem, ⟨10, _⟩ => ⟨S1x256x4096, .f32⟩
  | .local _ .vmem, ⟨11, _⟩ => ⟨S1x256x4096, .f32⟩
  | .local _ .smem, ⟨0, _⟩ => ⟨S16, .i32⟩
  | _, _ => ⟨S16x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_cst_3 : Ref sig .tc := ⟨.hbm, 55, rfl⟩
abbrev main_call1_v12 : Ref sig .tc := ⟨.hbm, 56, rfl⟩
abbrev main_call1_cst_4 : Ref sig .tc := ⟨.hbm, 57, rfl⟩
abbrev main_call1_call0_v0 : Ref sig .tc := ⟨.hbm, 58, rfl⟩
abbrev main_call1_call0_v1 : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 3 → Nat :=
  let c0 : Index := 0#32
  let c0_0 : Index := 0#32
  let c2048_i32 : BitVec 32 := 2048#32
  let v1 : BitVec 32 := Scalar.muli c0_i32 c2048_i32
  let v2 : BitVec 32 := v1
  let v3 : Index := Scalar.indexCast v2
  ![0, 0, v3.toNat]
def k0_mult2 : BitVec 32 :=
  let c1_i32 : BitVec 32 := 1#32
  let c2048_i32_2 : BitVec 32 := 2048#32
  let v8 : BitVec 32 := Scalar.muli c1_i32 c2048_i32_2
  v8
def k0_mult3 : BitVec 32 :=
  let c2_i32 : BitVec 32 := 2#32
  let c2048_i32_6 : BitVec 32 := 2048#32
  let v15 : BitVec 32 := Scalar.muli c2_i32 c2048_i32_6
  v15
def k0_mult4 : BitVec 32 :=
  let c3_i32 : BitVec 32 := 3#32
  let c2048_i32_10 : BitVec 32 := 2048#32
  let v22 : BitVec 32 := Scalar.muli c3_i32 c2048_i32_10
  v22
def k0_mult5 : BitVec 32 :=
  let c4_i32 : BitVec 32 := 4#32
  let c2048_i32_14 : BitVec 32 := 2048#32
  let v29 : BitVec 32 := Scalar.muli c4_i32 c2048_i32_14
  v29
def k0_mult6 : BitVec 32 :=
  let c5_i32 : BitVec 32 := 5#32
  let c2048_i32_18 : BitVec 32 := 2048#32
  let v36 : BitVec 32 := Scalar.muli c5_i32 c2048_i32_18
  v36
def k0_mult7 : BitVec 32 :=
  let c6_i32 : BitVec 32 := 6#32
  let c2048_i32_22 : BitVec 32 := 2048#32
  let v43 : BitVec 32 := Scalar.muli c6_i32 c2048_i32_22
  v43
def k0_mult8 : BitVec 32 :=
  let c7_i32 : BitVec 32 := 7#32
  let c2048_i32_26 : BitVec 32 := 2048#32
  let v50 : BitVec 32 := Scalar.muli c7_i32 c2048_i32_26
  v50
def k0_mult9 : BitVec 32 :=
  let c0_i32_31 : BitVec 32 := 0#32
  let c2048_i32_32 : BitVec 32 := 2048#32
  let v59 : BitVec 32 := Scalar.muli c0_i32_31 c2048_i32_32
  v59
def k0_mult10 : BitVec 32 :=
  let c1_i32_36 : BitVec 32 := 1#32
  let c2048_i32_37 : BitVec 32 := 2048#32
  let v69 : BitVec 32 := Scalar.muli c1_i32_36 c2048_i32_37
  v69
def k0_mult11 : BitVec 32 :=
  let c2_i32_41 : BitVec 32 := 2#32
  let c2048_i32_42 : BitVec 32 := 2048#32
  let v79 : BitVec 32 := Scalar.muli c2_i32_41 c2048_i32_42
  v79
def k0_mult12 : BitVec 32 :=
  let c3_i32_46 : BitVec 32 := 3#32
  let c2048_i32_47 : BitVec 32 := 2048#32
  let v89 : BitVec 32 := Scalar.muli c3_i32_46 c2048_i32_47
  v89
def k0_mult13 : BitVec 32 :=
  let c4_i32_51 : BitVec 32 := 4#32
  let c2048_i32_52 : BitVec 32 := 2048#32
  let v99 : BitVec 32 := Scalar.muli c4_i32_51 c2048_i32_52
  v99
def k0_mult14 : BitVec 32 :=
  let c5_i32_56 : BitVec 32 := 5#32
  let c2048_i32_57 : BitVec 32 := 2048#32
  let v109 : BitVec 32 := Scalar.muli c5_i32_56 c2048_i32_57
  v109
def k0_mult15 : BitVec 32 :=
  let c6_i32_61 : BitVec 32 := 6#32
  let c2048_i32_62 : BitVec 32 := 2048#32
  let v119 : BitVec 32 := Scalar.muli c6_i32_61 c2048_i32_62
  v119
def k0_mult16 : BitVec 32 :=
  let c7_i32_66 : BitVec 32 := 7#32
  let c2048_i32_67 : BitVec 32 := 2048#32
  let v129 : BitVec 32 := Scalar.muli c7_i32_66 c2048_i32_67
  v129
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v15 : Index := Scalar.indexCast arg0
  ![v15.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  h_S1x256x2048 : 0 < S1x256x2048.numel
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  inb_S1x256x1_S1x256x1_0_0_0 : ∀ a, (![0, 0, 0] : Fin 3 → Nat) a + S1x256x1.size a ≤ S1x256x1.size a
  h_S1x256x1 : 0 < S1x256x1.numel
  shapeCasts_S16x256x1_S16x256 : S16x256x1.ShapeCasts S16x256
  bcast_S_S16x256 : S_.BroadcastsInDim S16x256 (![] : Fin 0 → Fin S16x256.rank)
  reducesTo_S16x256_S256_d0 : S16x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S16x256_0_1 : S1x256.BroadcastsInDim S16x256 (![0, 1] : Fin 2 → Fin S16x256.rank)
  bcast_S_S256 : S_.BroadcastsInDim S256 (![] : Fin 0 → Fin S256.rank)
  bcast_S16x256_S16x256x1_0_1 : S16x256.BroadcastsInDim S16x256x1 (![0, 1] : Fin 2 → Fin S16x256x1.rank)
  concatenates_S16x256x1_S16x256x1_S16x256x1_S16x256x1_S16x256x4_d2 : Shape.Concatenates [S16x256x1, S16x256x1, S16x256x1, S16x256x1] S16x256x4 2
  inb_S1x256x4096_S1x256x4096_0_0_0 : ∀ a, (![0, 0, 0] : Fin 3 → Nat) a + S1x256x4096.size a ≤ S1x256x4096.size a
  h_S1x256x4096 : 0 < S1x256x4096.numel
  inb_S1x256x4_S1x256x4_0_0_0 : ∀ a, (![0, 0, 0] : Fin 3 → Nat) a + S1x256x4.size a ≤ S1x256x4.size a
  h_S1x256x4 : 0 < S1x256x4.numel
  shapeCasts_S1x256x4_S1x256x4 : S1x256x4.ShapeCasts S1x256x4
  slices_S1x256x4_o0_0_0_S1x256x1 : S1x256x4.Slices ![0, 0, 0] S1x256x1
  slices_S1x256x4_o0_0_1_S1x256x1 : S1x256x4.Slices ![0, 0, 1] S1x256x1
  slices_S1x256x4_o0_0_2_S1x256x1 : S1x256x4.Slices ![0, 0, 2] S1x256x1
  slices_S1x256x4_o0_0_3_S1x256x1 : S1x256x4.Slices ![0, 0, 3] S1x256x1
  broadcasts_S1x256x1_S1x256x4096 : S1x256x1.Broadcasts S1x256x4096
  numel1_S1 : S1.numel = 1
  iota_S1x1x4096_d2_w32 : S1x1x4096.Iotas .tc 32 [2]
  natLt_1_32 : 1 < 32
  broadcasts_S1x1x4096_S1x256x4096 : S1x1x4096.Broadcasts S1x256x4096
  hrank0 : 0 < grid0.rank
  k0_mult1_dvd : 2048 ∣ k0_mult1.toNat
  k0_off1_inb : ∀ (r : Fin 8), ∀ a, (k0_off1 (BitVec.ofNat 32 r.val)) a + S1x256x2048.size a ≤ S1x256x16384.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  k0_mult10_dvd : 2048 ∣ k0_mult10.toNat
  k0_mult11_dvd : 2048 ∣ k0_mult11.toNat
  k0_mult12_dvd : 2048 ∣ k0_mult12.toNat
  k0_mult13_dvd : 2048 ∣ k0_mult13.toNat
  k0_mult14_dvd : 2048 ∣ k0_mult14.toNat
  k0_mult15_dvd : 2048 ∣ k0_mult15.toNat
  k0_mult16_dvd : 2048 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16384.size a ≤ S16x256x16384.size a
  hwx0_0 : ∀ i : grid0.Coords, EltTy.bits .f32 = 32 ∨ (Rect.block (s := S16x256x16384) S1x256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x256x1.size a
  hwx0_1 : ∀ i : grid0.Coords, EltTy.bits .f32 = 32 ∨ (Rect.block (s := S16x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x256x1.size a
  hwx0_2 : ∀ i : grid0.Coords, EltTy.bits .f32 = 32 ∨ (Rect.block (s := S16x256x1) S1x256x1.size (cc0_transform_2 i) (hinb0_2 i)).WholeWords (EltTy.packing .f32)
  hrank1 : 0 < grid1.rank
  k1_off1_inb : ∀ i : grid1.Coords, ∀ a, (k1_off1 i) a + S1.size a ≤ S16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S16x256x16384.size a
  hwx1_0 : ∀ i : grid1.Coords, EltTy.bits .f32 = 32 ∨ (Rect.block (s := S16x256x16384) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4.size a ≤ S16x256x4.size a
  hwx1_1 : ∀ i : grid1.Coords, EltTy.bits .f32 = 32 ∨ (Rect.block (s := S16x256x4) S1x256x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x4096.size a ≤ S16x256x16384.size a
  hwx1_2 : ∀ i : grid1.Coords, EltTy.bits .f32 = 32 ∨ (Rect.block (s := S16x256x16384) S1x256x4096.size (cc1_transform_2 i) (hinb1_2 i)).WholeWords (EltTy.packing .f32)

variable [Facts₀]

abbrev win0_0 : Pipeline.Window sig grid0 :=
  Pipeline.Window.ofSpec (Memref.whole main_arg0) S1x256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_arg0) S1x256x4096.size reads1_0 false false 2 stage1_0 sem1_0 nbuf1_0 hstage1_0

abbrev spec1_1 : Pipeline.WinSpec sig grid1.rank :=
  Pipeline.WinSpec.ofSpec (Memref.whole main_v26) S1x256x4.size reads1_1 false false 2 stage1_1 sem1_1 nbuf1_1 hstage1_1

abbrev spec1_2 : Pipeline.WinSpec sig grid1.rank :=
  Pipeline.WinSpec.ofSpec (Memref.whole main_v27) S1x256x4096.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S16x256x16384 : Shape := ⟨3, ![16, 256, 16384]⟩
abbrev S16x256 : Shape := ⟨2, ![16, 256]⟩
abbrev S16 : Shape := ⟨1, ![16]⟩
abbrev S_ : Shape := ⟨0, ![]⟩
abbrev S16x256x1 : Shape := ⟨3, ![16, 256, 1]⟩
abbrev S256 : Shape := ⟨1, ![256]⟩
abbrev S1x256 : Shape := ⟨2, ![1, 256]⟩
abbrev S16384 : Shape := ⟨1, ![16384]⟩
abbrev S1x16384 : Shape := ⟨2, ![1, 16384]⟩
abbrev S16x1 : Shape := ⟨2, ![16, 1]⟩
abbrev S16x16384 : Shape := ⟨2, ![16, 16384]⟩
abbrev S16x1x16384 : Shape := ⟨3, ![16, 1, 16384]⟩

abbrev nBuf : Space → Nat
  | .hbm => 135
  | .vmem => 0
  | .smem => 0
  | _ => 0

abbrev hbmTy0_0 (i : Nat) : BufTy := match i % 128 with
  | 0 => ⟨S16x256x16384, .f32⟩
  | 1 => ⟨S16x256, .f32⟩
  | 2 => ⟨S16x256, .f32⟩
  | 3 => ⟨S16, .i32⟩
  | 4 => ⟨S_, .f32⟩
  | 5 => ⟨S16x256, .f32⟩
  | 6 => ⟨S_, .f32⟩
  | 7 => ⟨S16x256, .f32⟩
  | 8 => ⟨S16x256, .f32⟩
  | 9 => ⟨S_, .i32⟩
  | 10 => ⟨S_, .f32⟩
  | 11 => ⟨S16x256, .f32⟩
  | 12 => ⟨S16x256x1, .f32⟩
  | 13 => ⟨S_, .f32⟩
  | 14 => ⟨S16x256x1, .f32⟩
  | 15 => ⟨S16x256x1, .f32⟩
  | 16 => ⟨S16x256x16384, .f32⟩
  | 17 => ⟨S16x256x16384, .f32⟩
  | 18 => ⟨S16x256x16384, .f32⟩
  | 19 => ⟨S_, .f32⟩
  | 20 => ⟨S_, .f32⟩
  | 21 => ⟨S_, .f32⟩
  | 22 => ⟨S_, .f32⟩
  | 23 => ⟨S16x256, .f32⟩
  | 24 => ⟨S16x256, .f32⟩
  | 25 => ⟨S16x256, .f32⟩
  | 26 => ⟨S_, .f32⟩
  | 27 => ⟨S_, .i1⟩
  | 28 => ⟨S_, .f32⟩
  | 29 => ⟨S_, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S16x256, .f32⟩
  | 36 => ⟨S_, .i32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S16x256, .f32⟩
  | 44 => ⟨S16x256, .f32⟩
  | 45 => ⟨S16x256, .f32⟩
  | 46 => ⟨S_, .f32⟩
  | 47 => ⟨S_, .f32⟩
  | 48 => ⟨S_, .f32⟩
  | 49 => ⟨S_, .f32⟩
  | 50 => ⟨S256, .f32⟩
  | 51 => ⟨S256, .f32⟩
  | 52 => ⟨S256, .f32⟩
  | 53 => ⟨S_, .f32⟩
  | 54 => ⟨S_, .i1⟩
  | 55 => ⟨S_, .f32⟩
  | 56 => ⟨S_, .f32⟩
  | 57 => ⟨S256, .f32⟩
  | 58 => ⟨S256, .f32⟩
  | 59 => ⟨S_, .f32⟩
  | 60 => ⟨S256, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S16x256, .f32⟩
  | 71 => ⟨S16x256, .f32⟩
  | 72 => ⟨S16x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S_, .f32⟩
  | 87 => ⟨S256, .f32⟩
  | 88 => ⟨S256, .f32⟩
  | 89 => ⟨S256, .f32⟩
  | 90 => ⟨S1x256, .f32⟩
  | 91 => ⟨S16x256, .f32⟩
  | 92 => ⟨S16x256, .f32⟩
  | 93 => ⟨S16x256, .f32⟩
  | 94 => ⟨S1x256, .f32⟩
  | 95 => ⟨S16x256, .f32⟩
  | 96 => ⟨S16x256, .f32⟩
  | 97 => ⟨S16x256, .f32⟩
  | 98 => ⟨S16x256x1, .f32⟩
  | 99 => ⟨S16x256x16384, .f32⟩
  | 100 => ⟨S16x256x16384, .f32⟩
  | 101 => ⟨S16x256x1, .f32⟩
  | 102 => ⟨S16x256x16384, .f32⟩
  | 103 => ⟨S16x256x16384, .f32⟩
  | 104 => ⟨S16x256x1, .f32⟩
  | 105 => ⟨S16x256x16384, .f32⟩
  | 106 => ⟨S16x256x16384, .f32⟩
  | 107 => ⟨S16x256x1, .f32⟩
  | 108 => ⟨S16x256x16384, .f32⟩
  | 109 => ⟨S16x256x16384, .f32⟩
  | 110 => ⟨S16384, .i32⟩
  | 111 => ⟨S1x16384, .i32⟩
  | 112 => ⟨S16x1, .i32⟩
  | 113 => ⟨S16x16384, .i32⟩
  | 114 => ⟨S16x16384, .i32⟩
  | 115 => ⟨S16x16384, .i1⟩
  | 116 => ⟨S1x16384, .i32⟩
  | 117 => ⟨S16x1, .i32⟩
  | 118 => ⟨S_, .i32⟩
  | 119 => ⟨S16x1, .i32⟩
  | 120 => ⟨S16x1, .i32⟩
  | 121 => ⟨S16x16384, .i32⟩
  | 122 => ⟨S16x16384, .i32⟩
  | 123 => ⟨S16x16384, .i1⟩
  | 124 => ⟨S16x16384, .i1⟩
  | 125 => ⟨S16x16384, .f32⟩
  | 126 => ⟨S16x1x16384, .f32⟩
  | 127 => ⟨S16x256x16384, .f32⟩
  | _ => ⟨S16x256x16384, .f32⟩

abbrev hbmTy0_1 (i : Nat) : BufTy := match i % 128 with
  | 0 => ⟨S16x256x16384, .f32⟩
  | 1 => ⟨S_, .f32⟩
  | 2 => ⟨S16x1x16384, .f32⟩
  | 3 => ⟨S16x1x16384, .f32⟩
  | 4 => ⟨S16x256x16384, .f32⟩
  | 5 => ⟨S16x256x16384, .f32⟩
  | 6 => ⟨S16x256x16384, .f32⟩
  | _ => ⟨S16x256x16384, .f32⟩

abbrev hbmTy (i : Nat) : BufTy := match i / 128 with
  | 0 => hbmTy0_0 i
  | 1 => hbmTy0_1 i
  | _ => ⟨S16x256x16384, .f32⟩

abbrev bufTy : (tb : Table) → Fin (tcTables nBuf tb) → BufTy
  | .hbm, ⟨i, _⟩ => hbmTy i
  | _, _ => ⟨S16x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_cst_3 : Ref sig .tc := ⟨.hbm, 26, rfl⟩
abbrev main_call0_v12 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_2 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v7 : Ref sig .tc := ⟨.hbm, 58, rfl⟩
abbrev main_cst_3 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_c_4 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_cst_3 : Ref sig .tc := ⟨.hbm, 80, rfl⟩
abbrev main_call2_v12 : Ref sig .tc := ⟨.hbm, 81, rfl⟩
abbrev main_call2_cst_4 : Ref sig .tc := ⟨.hbm, 82, rfl⟩
abbrev main_call2_call0_v0 : Ref sig .tc := ⟨.hbm, 83, rfl⟩
abbrev main_call2_call0_v1 : Ref sig .tc := ⟨.hbm, 84, rfl⟩
abbrev main_v11 : Ref sig .tc := ⟨.hbm, 85, rfl⟩
abbrev main_cst_5 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_c_6 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_7 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩

abbrev nD : Nat := 1
abbrev τ : Topo := Topo.v7x

variable {F : FTy → Type} [FloatOps F]

class Facts₀ : Prop where
  reducesTo_S16x256x16384_S16x256_d2 : S16x256x16384.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x16384_0_1_2 : S16x256x1.BroadcastsInDim S16x256x16384 (![0, 1, 2] : Fin 3 → Fin S16x256x16384.rank)
  reducesTo_S16x256_S256_d0 : S16x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S16x256_0_1 : S1x256.BroadcastsInDim S16x256 (![0, 1] : Fin 2 → Fin S16x256.rank)
  bcast_S_S256 : S_.BroadcastsInDim S256 (![] : Fin 0 → Fin S256.rank)
  bcast_S16384_S1x16384_1 : S16384.BroadcastsInDim S1x16384 (![1] : Fin 1 → Fin S1x16384.rank)
  bcast_S16_S16x1_0 : S16.BroadcastsInDim S16x1 (![0] : Fin 1 → Fin S16x1.rank)
  bcast_S1x16384_S16x16384_0_1 : S1x16384.BroadcastsInDim S16x16384 (![0, 1] : Fin 2 → Fin S16x16384.rank)
  bcast_S16x1_S16x16384_0_1 : S16x1.BroadcastsInDim S16x16384 (![0, 1] : Fin 2 → Fin S16x16384.rank)
  bcast_S_S16x1 : S_.BroadcastsInDim S16x1 (![] : Fin 0 → Fin S16x1.rank)
  bcast_S16x16384_S16x1x16384_0_2 : S16x16384.BroadcastsInDim S16x1x16384 (![0, 2] : Fin 2 → Fin S16x1x16384.rank)
  bcast_S16x1x16384_S16x256x16384_0_1_2 : S16x1x16384.BroadcastsInDim S16x256x16384 (![0, 1, 2] : Fin 3 → Fin S16x256x16384.rank)
  bcast_S_S16x1x16384 : S_.BroadcastsInDim S16x1x16384 (![] : Fin 0 → Fin S16x1x16384.rank)

variable [Facts₀]

class Facts : Prop extends Facts₀ where

variable [Facts]
-- ==== Proof.KData.lean ====
/-
  The data both kernel regions' proofs are stated over.

  Region 0 (the statistics kernel, grid of 16 points, one per batch row): at point b the body reads the whole
  block x[b, :, :] in eight strips of 2048 lanes, stores the row means (the sum of the eight strip sums over 16384)
  in its second window and the unbiased variances (the sum of the eight strips' squared deviations from that mean,
  over 16383) in its third. Region 1 (the transform kernel, grid 16 × 4): at point (b, l) the body reads the block
  x[b, :, 4096 l .. 4096 (l + 1)), the parameter block params[b, :, 0..4) and the word starts[b] of the prefetched
  table, and stores the blended block.

  Here: each window's block at a point as read off the array the region finds, the stored payloads as terms of
  those blocks, the proof data of the two pipelines, and the contents of the unscoped buffers between the items
  of @main — the launch memory, then what region 0's write-backs leave, then the five stretches of host operations,
  then what region 1's write-backs leave.
-/
import proofs.«410772_j7524782702974_2_alg».proof.Proof.Gen.Kernel.Launch
import proofs.«410772_j7524782702974_2_alg».proof.Proof.Gen.Kernel.Skeleton
import proofs.«410772_j7524782702974_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

-- the TensorCore's buffer contents when a region is entered
variable (V : (c : Dev nD) → (b : Ref sig .tc) → Buf (Elt F) ((c : Thread nD τ).loc b))

/-! ## Region 0: the statistics kernel -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eight strips of 2048 lanes of the input block. -/
abbrev strip0 : Rect S1x256x16384 := Rect.unit (s := S1x256x16384) (k0_off1 0#32) S1x256x2048.size (k0_off1_inb 0)
abbrev strip1 : Rect S1x256x16384 := Rect.unit (s := S1x256x16384) (k0_off1 1#32) S1x256x2048.size (k0_off1_inb 1)
abbrev strip2 : Rect S1x256x16384 := Rect.unit (s := S1x256x16384) (k0_off1 2#32) S1x256x2048.size (k0_off1_inb 2)
abbrev strip3 : Rect S1x256x16384 := Rect.unit (s := S1x256x16384) (k0_off1 3#32) S1x256x2048.size (k0_off1_inb 3)
abbrev strip4 : Rect S1x256x16384 := Rect.unit (s := S1x256x16384) (k0_off1 4#32) S1x256x2048.size (k0_off1_inb 4)
abbrev strip5 : Rect S1x256x16384 := Rect.unit (s := S1x256x16384) (k0_off1 5#32) S1x256x2048.size (k0_off1_inb 5)
abbrev strip6 : Rect S1x256x16384 := Rect.unit (s := S1x256x16384) (k0_off1 6#32) S1x256x2048.size (k0_off1_inb 6)
abbrev strip7 : Rect S1x256x16384 := Rect.unit (s := S1x256x16384) (k0_off1 7#32) S1x256x2048.size (k0_off1_inb 7)
/-- The whole of a statistics window's block. -/
abbrev whole0 : Rect S1x256x1 := Rect.unit (s := S1x256x1) ![0, 0, 0] S1x256x1.size inb_S1x256x1_S1x256x1_0_0_0

/-- The sum of the first four strips' lane sums, from zero. -/
def sum4 (x0 : Vec F S1x256x16384 .f32) : FVec F S1x256x1 .f32 :=
  k0_pay2 (View.ld x0 strip0) (View.ld x0 strip1) (View.ld x0 strip2) (View.ld x0 strip3)
/-- The stored mean: all eight strips' lane sums over 16384. -/
def meanPay (x0 : Vec F S1x256x16384 .f32) : FVec F S1x256x1 .f32 :=
  k0_pay3 (sum4 x0) (View.ld x0 strip4) (View.ld x0 strip5) (View.ld x0 strip6) (View.ld x0 strip7)
/-- The first strip's squared deviations from the mean, summed from zero. -/
def ssq1 (x0 : Vec F S1x256x16384 .f32) : FVec F S1x256x1 .f32 :=
  k0_pay4 (k0_pay1 (F := F)) (sum4 x0) (View.ld x0 strip4) (View.ld x0 strip5) (View.ld x0 strip6) (View.ld x0 strip7) (View.ld x0 strip0)
/-- Strips one to four added. -/
def ssq5 (x0 : Vec F S1x256x16384 .f32) : FVec F S1x256x1 .f32 :=
  k0_pay5 (meanPay x0) (ssq1 x0) (View.ld x0 strip1) (View.ld x0 strip2) (View.ld x0 strip3) (View.ld x0 strip4)
/-- The stored variance: all eight strips' squared deviations over 16383. -/
def varPay (x0 : Vec F S1x256x16384 .f32) : FVec F S1x256x1 .f32 :=
  k0_pay6 (meanPay x0) (ssq5 x0) (View.ld x0 strip5) (View.ld x0 strip6) (View.ld x0 strip7)

/-- What the body leaves in the mean window's buffer: its one store. -/
def out0_1 (x0 : Vec F S1x256x16384 .f32) : Vec F S1x256x1 .f32 := View.canon [⟨whole0, meanPay x0⟩]
/-- What the body leaves in the variance window's buffer: its one store. -/
def out0_2 (x0 : Vec F S1x256x16384 .f32) : Vec F S1x256x1 .f32 := View.canon [⟨whole0, varPay x0⟩]

/-- The proof data of pipeline 0 on core c: the arrays as the region finds them; after the body at point t the
    input's buffer at its block, the outputs' at the stored statistics of that block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-! ## Region 1: the transform kernel, at admissible contents a of the prefetched table -/

variable (a : (pcfg1 (F := F)).Adm)

/-- Window w's block at point t, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The whole of the data windows' block, and of the parameter window's. -/
abbrev whole1 : Rect S1x256x4096 := Rect.unit (s := S1x256x4096) ![0, 0, 0] S1x256x4096.size inb_S1x256x4096_S1x256x4096_0_0_0
abbrev whole1p : Rect S1x256x4 := Rect.unit (s := S1x256x4) ![0, 0, 0] S1x256x4.size inb_S1x256x4_S1x256x4_0_0_0

/-- The table's word the body reads at a point: the entry of the point's batch row. -/
def word1 (pf : pre1.Contents (Elt F)) (i : grid1.Coords) : Elt F .i32 :=
  pf.at 0 (Rect.unit (s := S16) (k1_off1 i) S1.size (k1_off1_inb i)) numel1_S1

/-- What the body leaves in the output window's buffer: its one store, the blend of the normalized block and the
    block itself under the row's mask. -/
def out1_2 (pf : pre1.Contents (Elt F)) (i : grid1.Coords) (x0 : Vec F S1x256x4096 .f32) (p0 : Vec F S1x256x4 .f32) : Vec F S1x256x4096 .f32 :=
  View.canon [⟨whole1, k1_pay1 i (View.ld x0 whole1) (View.ld p0 whole1p) (word1 pf i)⟩]

/-- The proof data of pipeline 1 on core c: the arrays as the region finds them; after the body at point t the
    inputs' buffers at their blocks, the output's at the blend; the invariant the scoped rest, the generator
    register and the table held whole at its contents. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 a.1 ((cfg1 a).grid.coords t) (iblk1 V a c 0 t) (iblk1 V a c 1 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) :
    (dat1 V a c).after 2 t = out1_2 a.1 ((cfg1 a).grid.coords t) (iblk1 V a c 0 t) (iblk1 V a c 1 t) := by dsimp only [dat1]; rfl

end Regions

/-! ## The buffer contents at each boundary between the items of @main -/

variable (m : (ℓ : Loc nD τ sig) → Buf (Elt F) ℓ)

/-- Core c's buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: the statistics arrays at what the write-backs leave, every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After each of the five stretches of host operations. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev V6 : (c : Dev nD) → (b : Ref sig .tc) → Buf (Elt F) ((c : Thread nD τ).loc b) := fun c b => W6 m c b
/-- The one core of the mesh. -/
abbrev core0 : Dev nD := ⟨0, by decide⟩
/-- The prefetched table's contents when region 1 is entered, admissible (the side condition is void: no index map
    reads the table). -/
def adm1 : (pcfg1 (F := F)).Adm := ⟨fun k => V6 m core0 (pre1.ref k), trivial⟩
/-- At region 1's exit: the output array at what the write-backs leave, every other buffer as entered. -/
def W7 (c : Dev nD) : Valuation τ sig (Elt F) :=
  Pipeline.withArrays spec1 c (W6 m c) fun w => (dat1 (V6 m) (adm1 m) c).arrAt w (cfg1 (adm1 m)).N
abbrev V7 : (c : Dev nD) → (b : Ref sig .tc) → Buf (Elt F) ((c : Thread nD τ).loc b) := fun c b => W7 m c b

end Cert.Kernel.Hand

end
-- ==== Proof.KStatsBody.lean ====
/-
  The body obligation of region 0, the statistics kernel.

  At a point of the grid the body is handed three whole staging buffers: the input window's, which holds the
  point's block of the array (fetched there at every point), and the two output windows', at anything. It loads
  the block strip by strip — the eight strips once for the sum, and again for the squared deviations from the
  mean —, stores the mean over the whole of the second buffer and the variance over the whole of the third. So
  the input's buffer is left as it was, and each output's buffer holds one piece, covering it: the stored payload
  as a term of the eight strips read off the block.
-/
import proofs.«410772_j7524782702974_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer at a point -/

/-- The input window is fetched at every point, is never cut and never idle, and the body leaves its buffer as it
    found it: so at every point the current buffer holds the point's block, whatever was there before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-! ## The outputs' one store covers the buffer -/

/-- A statistics window's buffer is 1 × 256 × 1 and the one store writes all of it. -/
theorem cover0 (p0 : Vec F S1x256x1 .f32) (y : S1x256x1.Idx) :
    ∃ pc ∈ ([⟨whole0, p0⟩] : List (View.Piece (Elt F) S1x256x1 .f32)), y ∈ pc.1.set :=
  View.cover_of_tiled [⟨whole0, p0⟩] S1x256x1.size (by rfl) y

/-! ## The body's triple -/

set_option maxHeartbeats 1000000 in
/-- On whole staging buffers, the input's at read contents x0 and the outputs' at anything, the body runs to the
    continuation holding the input's as it was, the mean window's at the mean of x0's strips and the variance
    window's at their variance. -/
theorem sound_kernel0 (c : Dev nD) (E : Set ℕ) (i : grid0.Coords)
    (arg1 : Memref sig .tc .vmem S1x256x16384 .f32) (harg1 : arg1.IsWhole)
    (arg2 : Memref sig .tc .vmem S1x256x1 .f32) (harg2 : arg2.IsWhole)
    (arg3 : Memref sig .tc .vmem S1x256x1 .f32) (harg3 : arg3.IsWhole)
    (x0 : Vec F S1x256x16384 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  simp only [k0_part4_eq_skeleton]; unfold k0_part4_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0 _)).trans ?_
    sl_unfold_run_names
    rfl
  iexists _; isplitr
  swap; · iexact H2
  ipureintro
  refine (View.read_writes_eq_canon _ _ _ (cover0 _)).trans ?_
  sl_unfold_run_names
  rfl

/-! ## The body obligation, at a generic point -/

/-- What the body is called with at point t: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, the buffers at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the point's block, so the body's triple applies at that block;
    the invariant and the core's debts are not touched and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the statistics kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KTransformBody.lean ====
/-
  The body obligation of region 1, the transform kernel, on the pipeline pinned at admissible contents a of the
  prefetched table.

  At a point (b, l) of the 16 × 4 grid the body loads the data window's block and the parameter window's block whole,
  reads the one word at index b of the table in scalar memory, and stores the blend over the whole of the output
  window's block. Here:
    * both input windows' current buffers hold their blocks at every point, whether fetched there or not (the
      parameter window's block index does not move along grid axis 1; the block of the point before is then this
      point's);
    * the body's triple on whole memrefs, the table's buffer owned whole beside the three windows' buffers: the
      output's buffer ends at the one store's payload, a function of the two blocks and of the table's word at the
      point's row;
    * the table comes out of the pipeline's invariant, where it is held whole at a's contents, is lent to the body's
      run and goes back unchanged, so the invariant is the same at every point;
    * the obligation at every point, the windows one by one.
  Everything is symbolic in the blocks: no index of a block is ever evaluated.
-/
import proofs.«410772_j7524782702974_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))
variable (a : (pcfg1 (F := F)).Adm)

/-! ## The input windows' buffers -/

/-- The data window's current buffer holds its block at every point, fetched there or not. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The parameter window's current buffer holds its block at every point: along grid axis 1 its block index does
    not move, and the block of the point before is this point's. -/
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's accesses -/

/-- The table's word the body reads at point i. -/
abbrev rw1 (i : grid1.Coords) : Rect S16 := Rect.unit (s := S16) (k1_off1 i) S1.size (k1_off1_inb i)

/-- The one store is the whole of the output block, so it covers it. -/
theorem cover1_2 (p0 : Vec F S1x256x4096 .f32) (y : S1x256x4096.Idx) :
    ∃ pc ∈ ([⟨whole1, p0⟩] : List (View.Piece (Elt F) S1x256x4096 .f32)), y ∈ pc.1.set :=
  View.cover_of_tiled [⟨whole1, p0⟩] S1x256x4096.size (by rfl) y

/-- What the body leaves in the output window's buffer, from the blocks and the table as a vector of 16 words. -/
def outOf1 (i : grid1.Coords) (x2 : Vec F S16 .i32) (x0 : Vec F S1x256x4096 .f32) (p0 : Vec F S1x256x4 .f32) : Vec F S1x256x4096 .f32 :=
  View.canon [⟨whole1, k1_pay1 i (View.ld x0 whole1) (View.ld p0 whole1p) (View.ld x2 (rw1 i) (Shape.Idx.first (numel1_S1.symm ▸ Nat.one_pos)))⟩]

/-! ## The body's triple -/

set_option maxHeartbeats 1000000 in
/-- The kernel body on whole memrefs — the table's at contents x2, the inputs' at x0 and p0, the output's at
    anything — runs to the continuation holding the table and the inputs as they were and the output at the blend
    of x0, p0 and the point's word of x2. -/
theorem sound_kernel1 (c : Dev nD) (E : Set ℕ) (i : grid1.Coords)
    (arg2 : Memref sig .tc .smem S16 .i32) (harg2 : arg2.IsWhole)
    (arg3 : Memref sig .tc .vmem S1x256x4096 .f32) (harg3 : arg3.IsWhole)
    (arg4 : Memref sig .tc .vmem S1x256x4 .f32) (harg4 : arg4.IsWhole)
    (arg5 : Memref sig .tc .vmem S1x256x4096 .f32) (harg5 : arg5.IsWhole)
    (x2 : Vec F S16 .i32) (x0 : Vec F S1x256x4096 .f32) (p0 : Vec F S1x256x4 .f32) (K : PUnit → sProp 𝕄) :
    iprop(owns (c : Thread nD τ) arg2 fullShare x2 ∗ owns (c : Thread nD τ) arg3 fullShare x0 ∗ owns (c : Thread nD τ) arg4 fullShare p0
        ∗ (∃ d, owns (c : Thread nD τ) arg5 fullShare d)
        ∗ (iprop(owns (c : Thread nD τ) arg2 fullShare x2 ∗ owns (c : Thread nD τ) arg3 fullShare x0 ∗ owns (c : Thread nD τ) arg4 fullShare p0
            ∗ owns (c : Thread nD τ) arg5 fullShare (outOf1 i x2 x0 p0)) -∗ K ⟨⟩))
      ⊢ wp frame (wpE (defs₀ (F := F)) Variants.none c none) E (cc1__transform_kernel i arg2 harg2 arg3 harg3 arg4 harg4 arg5 harg5) K := by
  simp only [cc1__transform_kernel_eq_skeleton]; unfold cc1__transform_kernel_skel
  unfold owns outOf1
  iintro ⟨⟨%f2, %hf2, H2⟩, ⟨%f0, %hf0, H0⟩, ⟨%f1, %hf1, H1⟩, ⟨%d3, %f3, -, H3⟩, Hk⟩
  subst hf2; subst hf0; subst hf1
  sl_exec
  sl_step
  iapply Hk
  isplitl [H2]
  · iexists f2; isplitr; · ipureintro; rfl
    iexact H2
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (cover1_2 _)

/-! ## The body at a point -/

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel body at point t, on what the pipeline calls it with: the table's buffer whole and the windows'
    current staging buffers. -/
abbrev bodyAt1 (t : Fin (cfg1 a).N) : Prog (TpuEff nD τ sig (Elt F) Λ₀ .tc) PUnit :=
  cc1__transform_kernel ((cfg1 a).grid.coords t) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- It is the body table's row at the pipeline's arguments. -/
theorem bodyAt1_eq (t : Fin (cfg1 a).N) :
    defs₀ (F := F) .tc (cfg1 a).body ((cfg1 a).bodyArgs t ((cfg1 a).slots t)) = bodyAt1 a t := rfl

/-! ## The table in the invariant -/

/-- Holding the one prefetched table at contents pf is owning its buffer, whole, at pf's only component. -/
theorem prefHeld1_eq (c : Dev nD) (pf : pre1.Contents (Elt F)) :
    (Pipeline.prefHeld (Ix := Unit) (Name := ℕ) (U := UR sig nD τ) (Lvl := ℕ) pre1 c (fun _ => fullShare) pf : sProp 𝕄)
      = owns (c : Thread nD τ) (Memref.whole main_arg3) fullShare (pf 0) := by
  unfold Pipeline.prefHeld
  rw [bigSep_univ_eq_bigSepL [(0 : Fin 1)] (by decide) (by decide)]
  exact (owns_whole (c : Thread nD τ) main_arg3 fullShare (pf 0)).symm

/-- The invariant at any point: the scoped rest and the generator register, and the table's buffer owned whole. -/
theorem Φ_eq1 (c : Dev nD) (t : Fin ((cfg1 a).N + 1)) :
    (dat1 V a c).Φ t = iprop(Pipeline.ΦA spec1 c ∗ owns (c : Thread nD τ) (Memref.whole main_arg3) fullShare (a.1 0)) := by
  rw [← prefHeld1_eq]; rfl

/-- The word the run reads of the table's only component is the word of the contents at the point. -/
theorem outOf1_eq (pf : pre1.Contents (Elt F)) (i : grid1.Coords) (x0 : Vec F S1x256x4096 .f32) (p0 : Vec F S1x256x4 .f32) :
    outOf1 i (pf 0) x0 p0 = out1_2 pf i x0 p0 := rfl

/-! ## The body obligation, at a generic point -/

/-- What the body is called with at point t, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t))

/-- The body at any point: the inputs' memrefs hold their blocks and the invariant holds the table, so the
    kernel's triple applies; the table goes back into the invariant, the rest of which and the core's debt pass
    through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).owesAt () t.succ = (dat1 V a c).owesAt () t.castSucc from rfl,
    Φ_eq1, Φ_eq1, after1_0, after1_1, after1_2]
  iintro ⟨⟨HΦ, Hpf⟩, Ho, ⟨%d0, H0⟩, ⟨%d1, H1⟩, ⟨%d2, H2⟩⟩
  iapply (sound_kernel1 c Set.univ _ _ _ _ _ _ _ _ _ (a.1 0) (iblk1 V a c 0 t) (iblk1 V a c 1 t) _)
  isplitl [Hpf]; · iexact Hpf
  isplitl [H0]; · iexact H0
  isplitl [H1]; · iexact H1
  isplitl [H2]; · iexists _; iexact H2
  iintro ⟨Hpf, H0, H1, H2⟩
  isplitl [HΦ Hpf]
  · isplitl [HΦ]; · iexact HΦ
    iexact Hpf
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Regions

end Cert.Kernel.Hand

end
-- ==== Proof.KRun.lean ====
/-
  The kernel's program run from launch to return. @main is seven items: the statistics kernel's region, five stretches
  of host operations (the reshapes and the first sqrt; the unbiased variance over the batch rows of the means; its sqrt;
  the same of the standard deviations; its sqrt, beta, gamma and the four columns side by side), and the transform
  kernel's region. Between two items a core holds every unscoped buffer at that boundary's contents (the fold W0 … W7),
  the generator register at some state, and owes nothing. A region takes its windows' arrays out of the unscoped buffers
  at entry and puts them back at what the write-backs leave; the second region also takes the prefetched table of row
  offsets out, holds it whole through its invariant (the body reads one word of it at each point) and puts it back.
  The conclusion: every weakly fair execution terminates without a fault, and every unscoped buffer ends at W7.
-/
import proofs.«410772_j7524782702974_2_alg».proof.Proof.KStatsBody
import proofs.«410772_j7524782702974_2_alg».proof.Proof.KTransformBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves: its arrays at the write-backs' result, every other buffer as entered -/

theorem arr_W1 (c : Dev nD) (w : Fin cfg0.W) :
    W1 m c (Proc.devRef .tc (Pipeline.arrRef spec0 w)) = (dat0 (V0 m) c).arrAt w cfg0.N := by
  unfold W1; exact Pipeline.withArrays_arr spec0 winFacts0.arr_inj c _ _ w
theorem rest_W1 (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (V0 m) c).arrAt w cfg0.N = V1 m c (Pipeline.arrRef spec0 w) :=
  (arr_W1 m c w).symm
theorem hrest0 (c : Dev nD) : ∀ b, b ∉ Finset.univ.image (Pipeline.arrRef spec0) → V1 m c b = V0 m c b :=
  fun b hb => rest_W1 m c b fun w e => hb (Finset.mem_image.mpr ⟨w, Finset.mem_univ _, e⟩)

theorem arr_W7 (c : Dev nD) (w : Fin (cfg1 (adm1 m)).W) :
    W7 m c (Proc.devRef .tc (Pipeline.arrRef spec1 w)) = (dat1 (V6 m) (adm1 m) c).arrAt w (cfg1 (adm1 m)).N := by
  unfold W7; exact Pipeline.withArrays_arr spec1 winFacts1.arr_inj c _ _ w
theorem rest_W7 (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin (cfg1 (adm1 m)).W) :
    (dat1 (V6 m) (adm1 m) c).arrAt w (cfg1 (adm1 m)).N = V7 m c (Pipeline.arrRef spec1 w) :=
  (arr_W7 m c w).symm
theorem hrest1 (c : Dev nD) : ∀ b, b ∉ Finset.univ.image (Pipeline.arrRef spec1) → V7 m c b = V6 m c b :=
  fun b hb => rest_W7 m c b fun w e => hb (Finset.mem_image.mpr ⟨w, Finset.mem_univ _, e⟩)

/-! ## The proof data family and the thread state -/

/-- The tables' admissible contents: pipeline 0 has none, pipeline 1's is the table as region 1 finds it. -/
def adm : (p : Fin 2) → (pcfgs (F := F) p).Adm
  | ⟨0, _⟩ => cfg0.toPCfg_adm
  | ⟨1, _⟩ => adm1 m
/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (V0 m) c
  | ⟨1, _⟩ => fun c => dat1 (V6 m) (adm1 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W7 m c) ∗ ∃ r, prngReg c r)

/-- The mesh has one core. -/
theorem core_eq (c : Dev nD) : c = core0 := Subsingleton.elim _ _

/-! ## The regions as segments -/

set_option backward.isDefEq.respectTransparency.types false in
/-- Region 0 over the thread state: entered from the launch contents, left at W1. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from W6, left at W7. The prefetched table is split out of the unscoped
    rest at entry, rides the invariant held whole, and is put back at the exit. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V6 m) (adm1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (V6 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (V6 m c) fun _ => rfl
    rw [Pipeline.unscopedBufs_held, show Pipeline.unscopedRest (Pipeline.pin (pcfgs (F := F)) (adm m) 1).spec c (V6 m c) = _ from Pipeline.unscopedRest_split preFacts1 c (V6 m c)] at hsplit
    obtain rfl := core_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (V6 m c) (V7 m c) ((pdats m 1 c).arrAt · (cfg1 (adm1 m)).N) (hF1 m c) (hrest1 m c)
    rw [Pipeline.unscopedBufs_held, show Pipeline.unscopedRest (Pipeline.pin (pcfgs (F := F)) (adm m) 1).spec c (V6 m c) = _ from Pipeline.unscopedRest_split preFacts1 c (V6 m c)] at hjoin
    obtain rfl := core_eq c
    iintro ⟨Ha, HO, ⟨Hp, Hpf⟩, Hrest⟩
    imodintro
    isplitl [Ha Hrest Hp Hpf]
    · isplitl [Ha Hrest Hpf]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

/-- @main's seven items in order: region 0, the five stretches of host operations, region 1. -/
abbrev segs : List (Pipeline.Seg (pcfgs (F := F)) (adm m) (pdats m) () defs₀ 𝒱₀ L lv) :=
  [ .region (reg0 m),
    .host (hseg hostOps1 hostOps1_sub fresh1 (W1 m)),
    .host (hseg hostOps1_1 hostOps1_1_sub fresh1_1 (W2 m)),
    .host (hseg hostOps1_2 hostOps1_2_sub fresh1_2 (W3 m)),
    .host (hseg hostOps1_3 hostOps1_3_sub fresh1_3 (W4 m)),
    .host (hseg hostOps1_4 hostOps1_4_sub fresh1_4 (W5 m)),
    .region (reg1 m) ]

set_option backward.isDefEq.respectTransparency.types false in
/-- The run: from any memory with zero counters every weakly fair execution of @main on the TensorCores terminates,
    nothing faulting, and every final state holds each unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) (adm m) (pdats m) () (cellOf_inj (adm m)) emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.KTerms.lean ====
/-
  What the kernel's program computes, as pure terms: the two statistics arrays the first region leaves (row by row,
  the stored payloads of the row's block), the parameter array the host operations between the regions make of
  them — per (batch row, channel) the mean, the standard deviation sqrt (var + eps), beta = mean + e1 · spread of
  the means and gamma = std + e2 · spread of the stds, side by side on a last axis of four —, and the result the
  second region leaves (block by block, the stored payload of the data block, the row's parameter block and the
  row's word of the table).
-/
import proofs.«410772_j7524782702974_2_alg».proof.Proof.KData
import Idealize.ShloMosaic.Lib.ValueIdx

noncomputable section

namespace Cert.Kernel.Hand

open Idealize.ShloMosaic Idealize.ShloMosaic.ValueIdx
open Cert.Kernel Cert.Kernel.Gen

variable {F : FTy → Type} [FloatOps F]

/-! ## Region 0's arrays -/

/-- Batch row b of the data array, as the statistics kernel's block. -/
def rowBlk (x : FVec F S16x256x16384 .f32) (b : Fin 16) : Vec F S1x256x16384 .f32 := fun y => x (ix3 b (y 1) (y 2))

/-- The mean array: at (b, c, 0) the stored mean of row b's block at channel c. -/
def meanArr (x : FVec F S16x256x16384 .f32) : FVec F S16x256x1 .f32 := fun j => meanPay (rowBlk x (j 0)) (ix3 0 (j 1) 0)
/-- The variance array: at (b, c, 0) the stored variance of row b's block at channel c. -/
def varArr (x : FVec F S16x256x16384 .f32) : FVec F S16x256x1 .f32 := fun j => varPay (rowBlk x (j 0)) (ix3 0 (j 1) 0)

/-! ## The host operations between the regions -/

abbrev zeroS : FVec F S_ .f32 := constant S_ .f32 0x00000000#32
abbrev oneI : IVec S_ 32 := constantI S_ 32 1#32

/-- sqrt (· + eps) on a [16, 256] array. -/
def sqrtEps (a : FVec F S16x256 .f32) : FVec F S16x256 .f32 :=
  Host.sqrt (addf a (broadcastInDim S16x256 ![] bcast_S_S16x256 (constant S_ .f32 0x358637BD#32)))

/-- The count of batch rows less the correction: 16 - float 1. -/
def cnt16 : FVec F S_ .f32 := subf (constant S_ .f32 0x41800000#32) (sitofp .f32 (oneI))

/-- The unbiased variance over the 16 batch rows, per channel, of a [16, 256] array. -/
def var16 (a : FVec F S16x256 .f32) : FVec F S256 .f32 :=
  let v0 : FVec F S256 .f32 := Host.reduceAdd a (zeroS (F := F)) reducesTo_S16x256_S256_d0 h_S_
  let v1 : FVec F S1x256 .f32 := broadcastInDim S1x256 ![1] bcast_S256_S1x256_1 v0
  let v2 : FVec F S1x256 .f32 := broadcastInDim S1x256 ![] bcast_S_S1x256 (constant S_ .f32 0x41800000#32)
  let v3 : FVec F S1x256 .f32 := Host.divf v1 v2
  let v4 : FVec F S16x256 .f32 := broadcastInDim S16x256 ![0, 1] bcast_S1x256_S16x256_0_1 v3
  let v5 : FVec F S16x256 .f32 := subf a v4
  let v6 : FVec F S16x256 .f32 := mulf v5 v5
  let v9 : FVec F S256 .f32 := Host.reduceAdd v6 (zeroS (F := F)) reducesTo_S16x256_S256_d0 h_S_
  let v10 : FVec F S256 .f32 := broadcastInDim S256 ![] bcast_S_S256 (cnt16 (F := F))
  let v11 : FVec F S256 .f32 := Host.divf v9 v10
  let v12 : IVec S_ 1 := cmpf .ogt (cnt16 (F := F)) (zeroS (F := F))
  let w1 : FVec F S256 .f32 := broadcastInDim S256 ![] bcast_S_S256 (id (constant S_ .f32 0x7FC00000#32))
  select (broadcastInDim S256 ![] bcast_S_S256 v12) v11 w1

/-- The spread sqrt (var16 a + eps) of a [16, 256] array over its batch rows, repeated on every row. -/
def spread (a : FVec F S16x256 .f32) : FVec F S16x256 .f32 :=
  let v9 : FVec F S256 .f32 := addf (var16 a) (broadcastInDim S256 ![] bcast_S_S256 (constant S_ .f32 0x358637BD#32))
  let v10 : FVec F S256 .f32 := Host.sqrt v9
  let v15 : FVec F S1x256 .f32 := broadcastInDim S1x256 ![1] bcast_S256_S1x256_1 v10
  broadcastInDim S16x256 ![0, 1] bcast_S1x256_S16x256_0_1 v15

/-- A statistics array [16, 256, 1] as a [16, 256] array. -/
def flat (a1 : FVec F S16x256x1 .f32) : FVec F S16x256 .f32 := shapeCast S16x256 a1 shapeCasts_S16x256x1_S16x256
/-- A [16, 256] array as one column of the parameter array. -/
def col (a : FVec F S16x256 .f32) : FVec F S16x256x1 .f32 := broadcastInDim S16x256x1 ![0, 1] bcast_S16x256_S16x256x1_0_1 a

def muK (mu1 : FVec F S16x256x1 .f32) : FVec F S16x256 .f32 := flat mu1
def sdK (va1 : FVec F S16x256x1 .f32) : FVec F S16x256 .f32 := sqrtEps (flat va1)
def betaK (mu1 : FVec F S16x256x1 .f32) (e1 : FVec F S16x256 .f32) : FVec F S16x256 .f32 :=
  addf (muK mu1) (mulf e1 (spread (muK mu1)))
def gammaK (va1 : FVec F S16x256x1 .f32) (e2 : FVec F S16x256 .f32) : FVec F S16x256 .f32 :=
  addf (sdK va1) (mulf e2 (spread (sdK va1)))

/-- The parameter array: mean, std, beta, gamma side by side. -/
def paramsK (mu1 va1 : FVec F S16x256x1 .f32) (e1 e2 : FVec F S16x256 .f32) : FVec F S16x256x4 .f32 :=
  concatenate S16x256x4 2 [⟨S16x256x1, col (muK mu1)⟩, ⟨S16x256x1, col (sdK va1)⟩, ⟨S16x256x1, col (betaK mu1 e1)⟩, ⟨S16x256x1, col (gammaK va1 e2)⟩]
    concatenates_S16x256x1_S16x256x1_S16x256x1_S16x256x1_S16x256x4_d2

/-! ## Region 1's array -/

/-- The data block of batch row b and position tile l (4096 positions), and the parameter block of row b. -/
def tileBlk (x : FVec F S16x256x16384 .f32) (b : Fin 16) (l : Fin 4) : Vec F S1x256x4096 .f32 :=
  fun y => x (ix3 b (y 1) ⟨l.val * 4096 + (y 2).val, by have h : (y 2).val < 4096 := (y 2).isLt; have := l.isLt; omega⟩)
def parBlk (p : FVec F S16x256x4 .f32) (b : Fin 16) : Vec F S1x256x4 .f32 := fun y => p (ix3 b (y 1) (y 2))

/-- The grid point (b, l) of the transform kernel. -/
def pt (b : Fin 16) (l : Fin 4) : grid1.Coords := fun a => match a with | ⟨0, _⟩ => b | ⟨1, _⟩ => l

/-- The result array: at (b, c, p) the stored blend of the block (b, p / 4096) at (0, c, p % 4096), the table's word
    being the row's. -/
def outArr (tbl : pre1.Contents (Elt F)) (x : FVec F S16x256x16384 .f32) (p : FVec F S16x256x4 .f32) : FVec F S16x256x16384 .f32 :=
  fun j =>
    let b : Fin 16 := j 0
    let l : Fin 4 := ⟨(j 2).val / 4096, by have h : (j 2).val < 16384 := (j 2).isLt; omega⟩
    k1_pay1 (pt b l) (View.ld (tileBlk x b l) whole1) (View.ld (parBlk p b) whole1p) (word1 tbl (pt b l))
      (ix3 0 (j 1) ⟨(j 2).val % 4096, Nat.mod_lt _ (by norm_num)⟩)

end Cert.Kernel.Hand

end
-- ==== Proof.KHost.lean ====
/-
  The host operations between the two kernel regions, read as pure terms, and the buffers nothing writes.

  Region 0 leaves the mean and variance arrays in its two output windows' buffers and every other buffer as it
  found it. The five stretches of host operations that follow flatten the two arrays to [16, 256], take
  sqrt (· + eps) of the variances, take the unbiased variance over the 16 batch rows of the means and of the
  standard deviations (the two calls of the module-local variance), turn each into a spread sqrt (· + eps) repeated
  on every row, add the spreads scaled by the two noise arguments, and lay mean, deviation, shifted mean and shifted
  deviation side by side on a last axis of four. Each stretch is a straight line: after it a buffer it writes holds
  its operation's function of the operands' contents, and every other buffer what it held. Composed, the parameter
  buffer holds the term paramsK of the two statistics arrays and the two noise arguments. No stretch and no region
  writes an argument buffer, so each argument is at its launch contents throughout; region 1 changes only its
  output window's buffer.
-/
import proofs.«410772_j7524782702974_2_alg».proof.Proof.KData
import proofs.«410772_j7524782702974_2_alg».proof.Proof.KTerms
import proofs.«410772_j7524782702974_2_alg».proof.Proof.Gen.Kernel.Regions
import Idealize.ShloMosaic.Lib.StableHlo.Run
import Idealize.ShloMosaic.Lib.Pipeline.FrameSuffix

set_option maxRecDepth 16384

noncomputable section

namespace Cert.Kernel.Hand

open Idealize.ShloMosaic Idealize.ShloMosaic.TcCoe Idealize.ShloMosaic.StableHlo
open Cert.Kernel Cert.Kernel.Gen

variable {F : FTy → Type} [FloatOps F]

/-! ## Each stretch as a function of what it reads -/

namespace Between

section Stretches

variable (V : Valuation τ sig (Elt F))

/-- eps as a [256] array, and a [256] array repeated on each of the 16 rows. -/
abbrev eps256 : FVec F S256 .f32 := broadcastInDim S256 ![] bcast_S_S256 (constant S_ .f32 0x358637BD#32)
abbrev rows (a : FVec F S256 .f32) : FVec F S16x256 .f32 :=
  broadcastInDim S16x256 ![0, 1] bcast_S1x256_S16x256_0_1 (broadcastInDim S1x256 ![1] bcast_S256_S1x256_1 a)

/-- The first stretch flattens the mean array, -/
theorem s1_v1 : after hostOps1 V (Proc.devRef .tc main_v1) = flat (V (Proc.devRef .tc main_v0_0)) := by
  after_results_simp
  rfl
/-- takes sqrt (· + eps) of the flattened variance array, -/
theorem s1_v5 : after hostOps1 V (Proc.devRef .tc main_v5) = sqrtEps (flat (V (Proc.devRef .tc main_v0_1))) := by
  after_results_simp
  rfl
/-- and writes the integer one. -/
theorem s1_c : after hostOps1 V (Proc.devRef .tc main_c) = oneI := by
  after_results_simp

/-- The second stretch: the unbiased variance over the batch rows of the flattened means, the correction read as one. -/
theorem s2_v6 (hc : V (Proc.devRef .tc main_c) = oneI) :
    after hostOps1_1 V (Proc.devRef .tc main_v6) = var16 (V (Proc.devRef .tc main_v1)) := by
  after_results_simp
  simp only [TRef.ofBuf, TRef.toBuf, cast_eq, hc]
  rfl

/-- The third stretch: sqrt (· + eps) of that variance, and the integer one again. -/
theorem s3_v9 : after hostOps1_2 V (Proc.devRef .tc main_v9)
    = Host.sqrt (addf (V (Proc.devRef .tc main_v6)) (eps256 (F := F))) := by
  after_results_simp
theorem s3_c1 : after hostOps1_2 V (Proc.devRef .tc main_c_1) = oneI := by
  after_results_simp

/-- The fourth stretch: the unbiased variance over the batch rows of the standard deviations. -/
theorem s4_v10 (hc : V (Proc.devRef .tc main_c_1) = oneI) :
    after hostOps1_3 V (Proc.devRef .tc main_v10) = var16 (V (Proc.devRef .tc main_v5)) := by
  after_results_simp
  simp only [TRef.ofBuf, TRef.toBuf, cast_eq, hc]
  rfl

/-- The fifth stretch: the four columns side by side. -/
theorem s5_v26 : after hostOps1_4 V (Proc.devRef .tc main_v26)
    = concatenate S16x256x4 2
        [⟨S16x256x1, col (V (Proc.devRef .tc main_v1))⟩, ⟨S16x256x1, col (V (Proc.devRef .tc main_v5))⟩,
         ⟨S16x256x1, col (addf (V (Proc.devRef .tc main_v1)) (mulf (V (Proc.devRef .tc main_arg1)) (rows (V (Proc.devRef .tc main_v9)))))⟩,
         ⟨S16x256x1, col (addf (V (Proc.devRef .tc main_v5)) (mulf (V (Proc.devRef .tc main_arg2))
            (rows (Host.sqrt (addf (V (Proc.devRef .tc main_v10)) (eps256 (F := F)))))))⟩]
        concatenates_S16x256x1_S16x256x1_S16x256x1_S16x256x1_S16x256x4_d2 := by
  after_results
  rfl

end Stretches

end Between

variable (m : (ℓ : Loc nD τ sig) → Buf (Elt F) ℓ) (c : Dev nD)

/-! ## Region 0's exit -/

/-- The mean window's array holds what its write-backs leave, -/
theorem W1_stat0 : W1 m c (Proc.devRef .tc main_v0_0) = (dat0 (V0 m) c).arrAt 1 cfg0.N := by
  unfold W1; exact Pipeline.withArrays_arr spec0 winFacts0.arr_inj c _ _ 1
/-- the variance window's likewise, -/
theorem W1_stat1 : W1 m c (Proc.devRef .tc main_v0_1) = (dat0 (V0 m) c).arrAt 2 cfg0.N := by
  unfold W1; exact Pipeline.withArrays_arr spec0 winFacts0.arr_inj c _ _ 2
/-- and a buffer that is no window's array is as launched. -/
theorem W1_of_ne (b : Ref sig .tc) (hb : ∀ w, Pipeline.arrRef spec0 w ≠ b) :
    W1 m c (Proc.devRef .tc b) = W0 m c (Proc.devRef .tc b) := by
  unfold W1; exact Pipeline.withArrays_of_ne spec0 c _ _ b hb
namespace Between

/-- The input window's array is as launched: an input's array is never written back. -/
theorem W1_arg0 : W1 m c (Proc.devRef .tc main_arg0) = m ((c : Thread nD τ).loc main_arg0) := by
  unfold W1
  exact (Pipeline.withArrays_arr spec0 winFacts0.arr_inj c _ _ 0).trans
    (((dat0 (V0 m) c).arrAt_in 0 rfl _).trans (A_eq0 (V0 m) c 0))

/-! ## What passes through a stretch: a buffer none of its operations writes -/

theorem W2_of {r : Ref sig .tc} (h : r ∉ hostOps1_W) : W2 m c (Proc.devRef .tc r) = W1 m c (Proc.devRef .tc r) :=
  after_of_writes_sub hostOps1 _ hostOps1_writes h
theorem W3_of {r : Ref sig .tc} (h : r ∉ hostOps1_1_W) : W3 m c (Proc.devRef .tc r) = W2 m c (Proc.devRef .tc r) :=
  after_of_writes_sub hostOps1_1 _ hostOps1_1_writes h
theorem W4_of {r : Ref sig .tc} (h : r ∉ hostOps1_2_W) : W4 m c (Proc.devRef .tc r) = W3 m c (Proc.devRef .tc r) :=
  after_of_writes_sub hostOps1_2 _ hostOps1_2_writes h
theorem W5_of {r : Ref sig .tc} (h : r ∉ hostOps1_3_W) : W5 m c (Proc.devRef .tc r) = W4 m c (Proc.devRef .tc r) :=
  after_of_writes_sub hostOps1_3 _ hostOps1_3_writes h
theorem W6_of {r : Ref sig .tc} (h : r ∉ hostOps1_4_W) : W6 m c (Proc.devRef .tc r) = W5 m c (Proc.devRef .tc r) :=
  after_of_writes_sub hostOps1_4 _ hostOps1_4_writes h
/-- A buffer no stretch writes holds after the five what region 0 left in it. -/
theorem W6_of_W1 {r : Ref sig .tc} (h1 : r ∉ hostOps1_W) (h2 : r ∉ hostOps1_1_W) (h3 : r ∉ hostOps1_2_W)
    (h4 : r ∉ hostOps1_3_W) (h5 : r ∉ hostOps1_4_W) : W6 m c (Proc.devRef .tc r) = W1 m c (Proc.devRef .tc r) :=
  (W6_of m c h5).trans <| (W5_of m c h4).trans <| (W4_of m c h3).trans <| (W3_of m c h2).trans (W2_of m c h1)

end Between

open Between

/-! ## The arguments before region 1 -/

theorem W6_arg0 : W6 m c (Proc.devRef .tc main_arg0) = m ((c : Thread nD τ).loc main_arg0) :=
  (W6_of_W1 m c (by decide) (by decide) (by decide) (by decide) (by decide)).trans (W1_arg0 m c)
theorem W6_arg1 : W6 m c (Proc.devRef .tc main_arg1) = m ((c : Thread nD τ).loc main_arg1) :=
  (W6_of_W1 m c (by decide) (by decide) (by decide) (by decide) (by decide)).trans (W1_of_ne m c main_arg1 (by decide))
theorem W6_arg2 : W6 m c (Proc.devRef .tc main_arg2) = m ((c : Thread nD τ).loc main_arg2) :=
  (W6_of_W1 m c (by decide) (by decide) (by decide) (by decide) (by decide)).trans (W1_of_ne m c main_arg2 (by decide))
theorem W6_arg3 : W6 m c (Proc.devRef .tc main_arg3) = m ((c : Thread nD τ).loc main_arg3) :=
  (W6_of_W1 m c (by decide) (by decide) (by decide) (by decide) (by decide)).trans (W1_of_ne m c main_arg3 (by decide))

/-! ## The parameter array -/

namespace Between

/-- After the first stretch: the flattened means, the standard deviations, the integer one. -/
theorem W2_v1 : W2 m c (Proc.devRef .tc main_v1) = muK (W1 m c (Proc.devRef .tc main_v0_0)) := s1_v1 _
theorem W2_v5 : W2 m c (Proc.devRef .tc main_v5) = sdK (W1 m c (Proc.devRef .tc main_v0_1)) := s1_v5 _
theorem W2_c : W2 m c (Proc.devRef .tc main_c) = oneI := s1_c _
/-- After the second: the variance of the means over the batch rows. -/
theorem W3_v6 : W3 m c (Proc.devRef .tc main_v6) = var16 (muK (W1 m c (Proc.devRef .tc main_v0_0))) :=
  (s2_v6 _ (W2_c m c)).trans (congrArg var16 (W2_v1 m c))
/-- After the third: its sqrt (· + eps), and the integer one. -/
theorem W4_v9 : W4 m c (Proc.devRef .tc main_v9)
    = Host.sqrt (addf (var16 (muK (W1 m c (Proc.devRef .tc main_v0_0)))) (eps256 (F := F))) :=
  (s3_v9 _).trans (congrArg (fun v => Host.sqrt (addf v (eps256 (F := F)))) (W3_v6 m c))
theorem W4_c1 : W4 m c (Proc.devRef .tc main_c_1) = oneI := s3_c1 _
/-- After the fourth: the variance of the standard deviations over the batch rows. -/
theorem W5_v10 : W5 m c (Proc.devRef .tc main_v10) = var16 (sdK (W1 m c (Proc.devRef .tc main_v0_1))) :=
  (s4_v10 _ (W4_c1 m c)).trans
    (congrArg var16 (((W4_of m c (by decide)).trans (W3_of m c (by decide))).trans (W2_v5 m c)))
/-- What the fifth stretch reads, as the fourth leaves it. -/
theorem W5_v1 : W5 m c (Proc.devRef .tc main_v1) = muK (W1 m c (Proc.devRef .tc main_v0_0)) :=
  (W5_of m c (by decide)).trans <| (W4_of m c (by decide)).trans <| (W3_of m c (by decide)).trans (W2_v1 m c)
theorem W5_v5 : W5 m c (Proc.devRef .tc main_v5) = sdK (W1 m c (Proc.devRef .tc main_v0_1)) :=
  (W5_of m c (by decide)).trans <| (W4_of m c (by decide)).trans <| (W3_of m c (by decide)).trans (W2_v5 m c)
theorem W5_v9 : W5 m c (Proc.devRef .tc main_v9)
    = Host.sqrt (addf (var16 (muK (W1 m c (Proc.devRef .tc main_v0_0)))) (eps256 (F := F))) :=
  (W5_of m c (by decide)).trans (W4_v9 m c)
theorem W5_arg1 : W5 m c (Proc.devRef .tc main_arg1) = m ((c : Thread nD τ).loc main_arg1) :=
  (W5_of m c (by decide)).trans <| (W4_of m c (by decide)).trans <| (W3_of m c (by decide)).trans <|
    (W2_of m c (by decide)).trans (W1_of_ne m c main_arg1 (by decide))
theorem W5_arg2 : W5 m c (Proc.devRef .tc main_arg2) = m ((c : Thread nD τ).loc main_arg2) :=
  (W5_of m c (by decide)).trans <| (W4_of m c (by decide)).trans <| (W3_of m c (by decide)).trans <|
    (W2_of m c (by decide)).trans (W1_of_ne m c main_arg2 (by decide))

end Between

/-- Before region 1 the parameter buffer holds mean, deviation, shifted mean and shifted deviation side by side, as
    terms of the two statistics arrays region 0 left and the two noise arguments. -/
theorem W6_params : W6 m c (Proc.devRef .tc main_v26)
    = paramsK (W1 m c (Proc.devRef .tc main_v0_0)) (W1 m c (Proc.devRef .tc main_v0_1))
        (m ((c : Thread nD τ).loc main_arg1)) (m ((c : Thread nD τ).loc main_arg2)) := by
  refine (s5_v26 (W5 m c)).trans ?_
  rw [W5_v1, W5_v5, W5_v9, W5_v10, W5_arg1, W5_arg2]
  rfl

/-! ## Region 1's exit -/

/-- The output window's array holds what its write-backs leave, -/
theorem W7_out : W7 m c (Proc.devRef .tc main_v27) = (dat1 (V6 m) (adm1 m) c).arrAt 2 (cfg1 (adm1 m)).N := by
  unfold W7; exact Pipeline.withArrays_arr spec1 winFacts1.arr_inj c _ _ 2
/-- and a buffer that is no window's array is as region 1 found it. -/
theorem W7_of_ne (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- The arguments at the end: the data array is an input window's, never written back; the noise arguments and the
    table are no window's array. -/
theorem W7_arg0 : W7 m c (Proc.devRef .tc main_arg0) = m ((c : Thread nD τ).loc main_arg0) := by
  unfold W7
  exact (Pipeline.withArrays_arr spec1 winFacts1.arr_inj c _ _ 0).trans
    (((dat1 (V6 m) (adm1 m) c).arrAt_in 0 rfl _).trans ((A_eq1 (V6 m) (adm1 m) c 0).trans (W6_arg0 m c)))
theorem W7_arg1 : W7 m c (Proc.devRef .tc main_arg1) = m ((c : Thread nD τ).loc main_arg1) :=
  (W7_of_ne m c main_arg1 (by decide)).trans (W6_arg1 m c)
theorem W7_arg2 : W7 m c (Proc.devRef .tc main_arg2) = m ((c : Thread nD τ).loc main_arg2) :=
  (W7_of_ne m c main_arg2 (by decide)).trans (W6_arg2 m c)
theorem W7_arg3 : W7 m c (Proc.devRef .tc main_arg3) = m ((c : Thread nD τ).loc main_arg3) :=
  (W7_of_ne m c main_arg3 (by decide)).trans (W6_arg3 m c)

end Cert.Kernel.Hand

end
-- ==== Proof.KIData.lean ====
/-
  The data both kernel regions' proofs are stated over.

  Region 0 (the statistics kernel, grid of 16 points, one per batch row): at point b the body reads the whole
  block x[b, :, :] in eight strips of 2048 lanes, stores the row means (the sum of the eight strip sums over 16384)
  in its second window and the unbiased variances (the sum of the eight strips' squared deviations from that mean,
  over 16383) in its third. Region 1 (the transform kernel, grid 16 × 4): at point (b, l) the body reads the block
  x[b, :, 4096 l .. 4096 (l + 1)), the parameter block params[b, :, 0..4) and the word starts[b] of the prefetched
  table, and stores the blended block.

  Here: each window's block at a point as read off the array the region finds, the stored payloads as terms of
  those blocks, the proof data of the two pipelines, and the contents of the unscoped buffers between the items
  of @main — the launch memory, then what region 0's write-backs leave, then the five stretches of host operations,
  then what region 1's write-backs leave.
-/
import proofs.«410772_j7524782702974_2_alg».proof.Proof.Gen.KernelIdeal.Launch
import proofs.«410772_j7524782702974_2_alg».proof.Proof.Gen.KernelIdeal.Skeleton
import proofs.«410772_j7524782702974_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

-- the TensorCore's buffer contents when a region is entered
variable (V : (c : Dev nD) → (b : Ref sig .tc) → Buf (Elt F) ((c : Thread nD τ).loc b))

/-! ## Region 0: the statistics kernel -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eight strips of 2048 lanes of the input block. -/
abbrev strip0 : Rect S1x256x16384 := Rect.unit (s := S1x256x16384) (k0_off1 0#32) S1x256x2048.size (k0_off1_inb 0)
abbrev strip1 : Rect S1x256x16384 := Rect.unit (s := S1x256x16384) (k0_off1 1#32) S1x256x2048.size (k0_off1_inb 1)
abbrev strip2 : Rect S1x256x16384 := Rect.unit (s := S1x256x16384) (k0_off1 2#32) S1x256x2048.size (k0_off1_inb 2)
abbrev strip3 : Rect S1x256x16384 := Rect.unit (s := S1x256x16384) (k0_off1 3#32) S1x256x2048.size (k0_off1_inb 3)
abbrev strip4 : Rect S1x256x16384 := Rect.unit (s := S1x256x16384) (k0_off1 4#32) S1x256x2048.size (k0_off1_inb 4)
abbrev strip5 : Rect S1x256x16384 := Rect.unit (s := S1x256x16384) (k0_off1 5#32) S1x256x2048.size (k0_off1_inb 5)
abbrev strip6 : Rect S1x256x16384 := Rect.unit (s := S1x256x16384) (k0_off1 6#32) S1x256x2048.size (k0_off1_inb 6)
abbrev strip7 : Rect S1x256x16384 := Rect.unit (s := S1x256x16384) (k0_off1 7#32) S1x256x2048.size (k0_off1_inb 7)
/-- The whole of a statistics window's block. -/
abbrev whole0 : Rect S1x256x1 := Rect.unit (s := S1x256x1) ![0, 0, 0] S1x256x1.size inb_S1x256x1_S1x256x1_0_0_0

/-- The sum of the first four strips' lane sums, from zero. -/
def sum4 (x0 : Vec F S1x256x16384 .f32) : FVec F S1x256x1 .f32 :=
  k0_pay2 (View.ld x0 strip0) (View.ld x0 strip1) (View.ld x0 strip2) (View.ld x0 strip3)
/-- The stored mean: all eight strips' lane sums over 16384. -/
def meanPay (x0 : Vec F S1x256x16384 .f32) : FVec F S1x256x1 .f32 :=
  k0_pay3 (sum4 x0) (View.ld x0 strip4) (View.ld x0 strip5) (View.ld x0 strip6) (View.ld x0 strip7)
/-- The first strip's squared deviations from the mean, summed from zero. -/
def ssq1 (x0 : Vec F S1x256x16384 .f32) : FVec F S1x256x1 .f32 :=
  k0_pay4 (k0_pay1 (F := F)) (sum4 x0) (View.ld x0 strip4) (View.ld x0 strip5) (View.ld x0 strip6) (View.ld x0 strip7) (View.ld x0 strip0)
/-- Strips one to four added. -/
def ssq5 (x0 : Vec F S1x256x16384 .f32) : FVec F S1x256x1 .f32 :=
  k0_pay5 (meanPay x0) (ssq1 x0) (View.ld x0 strip1) (View.ld x0 strip2) (View.ld x0 strip3) (View.ld x0 strip4)
/-- The stored variance: all eight strips' squared deviations over 16383. -/
def varPay (x0 : Vec F S1x256x16384 .f32) : FVec F S1x256x1 .f32 :=
  k0_pay6 (meanPay x0) (ssq5 x0) (View.ld x0 strip5) (View.ld x0 strip6) (View.ld x0 strip7)

/-- What the body leaves in the mean window's buffer: its one store. -/
def out0_1 (x0 : Vec F S1x256x16384 .f32) : Vec F S1x256x1 .f32 := View.canon [⟨whole0, meanPay x0⟩]
/-- What the body leaves in the variance window's buffer: its one store. -/
def out0_2 (x0 : Vec F S1x256x16384 .f32) : Vec F S1x256x1 .f32 := View.canon [⟨whole0, varPay x0⟩]

/-- The proof data of pipeline 0 on core c: the arrays as the region finds them; after the body at point t the
    input's buffer at its block, the outputs' at the stored statistics of that block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-! ## Region 1: the transform kernel, at admissible contents a of the prefetched table -/

variable (a : (pcfg1 (F := F)).Adm)

/-- Window w's block at point t, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The whole of the data windows' block, and of the parameter window's. -/
abbrev whole1 : Rect S1x256x4096 := Rect.unit (s := S1x256x4096) ![0, 0, 0] S1x256x4096.size inb_S1x256x4096_S1x256x4096_0_0_0
abbrev whole1p : Rect S1x256x4 := Rect.unit (s := S1x256x4) ![0, 0, 0] S1x256x4.size inb_S1x256x4_S1x256x4_0_0_0

/-- The table's word the body reads at a point: the entry of the point's batch row. -/
def word1 (pf : pre1.Contents (Elt F)) (i : grid1.Coords) : Elt F .i32 :=
  pf.at 0 (Rect.unit (s := S16) (k1_off1 i) S1.size (k1_off1_inb i)) numel1_S1

/-- What the body leaves in the output window's buffer: its one store, the blend of the normalized block and the
    block itself under the row's mask. -/
def out1_2 (pf : pre1.Contents (Elt F)) (i : grid1.Coords) (x0 : Vec F S1x256x4096 .f32) (p0 : Vec F S1x256x4 .f32) : Vec F S1x256x4096 .f32 :=
  View.canon [⟨whole1, k1_pay1 i (View.ld x0 whole1) (View.ld p0 whole1p) (word1 pf i)⟩]

/-- The proof data of pipeline 1 on core c: the arrays as the region finds them; after the body at point t the
    inputs' buffers at their blocks, the output's at the blend; the invariant the scoped rest, the generator
    register and the table held whole at its contents. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 a.1 ((cfg1 a).grid.coords t) (iblk1 V a c 0 t) (iblk1 V a c 1 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) :
    (dat1 V a c).after 2 t = out1_2 a.1 ((cfg1 a).grid.coords t) (iblk1 V a c 0 t) (iblk1 V a c 1 t) := by dsimp only [dat1]; rfl

end Regions

/-! ## The buffer contents at each boundary between the items of @main -/

variable (m : (ℓ : Loc nD τ sig) → Buf (Elt F) ℓ)

/-- Core c's buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: the statistics arrays at what the write-backs leave, every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After each of the five stretches of host operations. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev V6 : (c : Dev nD) → (b : Ref sig .tc) → Buf (Elt F) ((c : Thread nD τ).loc b) := fun c b => W6 m c b
/-- The one core of the mesh. -/
abbrev core0 : Dev nD := ⟨0, by decide⟩
/-- The prefetched table's contents when region 1 is entered, admissible (the side condition is void: no index map
    reads the table). -/
def adm1 : (pcfg1 (F := F)).Adm := ⟨fun k => V6 m core0 (pre1.ref k), trivial⟩
/-- At region 1's exit: the output array at what the write-backs leave, every other buffer as entered. -/
def W7 (c : Dev nD) : Valuation τ sig (Elt F) :=
  Pipeline.withArrays spec1 c (W6 m c) fun w => (dat1 (V6 m) (adm1 m) c).arrAt w (cfg1 (adm1 m)).N
abbrev V7 : (c : Dev nD) → (b : Ref sig .tc) → Buf (Elt F) ((c : Thread nD τ).loc b) := fun c b => W7 m c b

end Cert.KernelIdeal.Hand

end
-- ==== Proof.KIStatsBody.lean ====
/-
  The body obligation of region 0, the statistics kernel.

  At a point of the grid the body is handed three whole staging buffers: the input window's, which holds the
  point's block of the array (fetched there at every point), and the two output windows', at anything. It loads
  the block strip by strip — the eight strips once for the sum, and again for the squared deviations from the
  mean —, stores the mean over the whole of the second buffer and the variance over the whole of the third. So
  the input's buffer is left as it was, and each output's buffer holds one piece, covering it: the stored payload
  as a term of the eight strips read off the block.
-/
import proofs.«410772_j7524782702974_2_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer at a point -/

/-- The input window is fetched at every point, is never cut and never idle, and the body leaves its buffer as it
    found it: so at every point the current buffer holds the point's block, whatever was there before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-! ## The outputs' one store covers the buffer -/

/-- A statistics window's buffer is 1 × 256 × 1 and the one store writes all of it. -/
theorem cover0 (p0 : Vec F S1x256x1 .f32) (y : S1x256x1.Idx) :
    ∃ pc ∈ ([⟨whole0, p0⟩] : List (View.Piece (Elt F) S1x256x1 .f32)), y ∈ pc.1.set :=
  View.cover_of_tiled [⟨whole0, p0⟩] S1x256x1.size (by rfl) y

/-! ## The body's triple -/

set_option maxHeartbeats 1000000 in
/-- On whole staging buffers, the input's at read contents x0 and the outputs' at anything, the body runs to the
    continuation holding the input's as it was, the mean window's at the mean of x0's strips and the variance
    window's at their variance. -/
theorem sound_kernel0 (c : Dev nD) (E : Set ℕ) (i : grid0.Coords)
    (arg1 : Memref sig .tc .vmem S1x256x16384 .f32) (harg1 : arg1.IsWhole)
    (arg2 : Memref sig .tc .vmem S1x256x1 .f32) (harg2 : arg2.IsWhole)
    (arg3 : Memref sig .tc .vmem S1x256x1 .f32) (harg3 : arg3.IsWhole)
    (x0 : Vec F S1x256x16384 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  simp only [k0_part4_eq_skeleton]; unfold k0_part4_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0 _)).trans ?_
    sl_unfold_run_names
    rfl
  iexists _; isplitr
  swap; · iexact H2
  ipureintro
  refine (View.read_writes_eq_canon _ _ _ (cover0 _)).trans ?_
  sl_unfold_run_names
  rfl

/-! ## The body obligation, at a generic point -/

/-- What the body is called with at point t: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, the buffers at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the point's block, so the body's triple applies at that block;
    the invariant and the core's debts are not touched and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the statistics kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KITransformBody.lean ====
/-
  The body obligation of region 1, the transform kernel, on the pipeline pinned at admissible contents a of the
  prefetched table.

  At a point (b, l) of the 16 × 4 grid the body loads the data window's block and the parameter window's block whole,
  reads the one word at index b of the table in scalar memory, and stores the blend over the whole of the output
  window's block. Here:
    * both input windows' current buffers hold their blocks at every point, whether fetched there or not (the
      parameter window's block index does not move along grid axis 1; the block of the point before is then this
      point's);
    * the body's triple on whole memrefs, the table's buffer owned whole beside the three windows' buffers: the
      output's buffer ends at the one store's payload, a function of the two blocks and of the table's word at the
      point's row;
    * the table comes out of the pipeline's invariant, where it is held whole at a's contents, is lent to the body's
      run and goes back unchanged, so the invariant is the same at every point;
    * the obligation at every point, the windows one by one.
  Everything is symbolic in the blocks: no index of a block is ever evaluated.
-/
import proofs.«410772_j7524782702974_2_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))
variable (a : (pcfg1 (F := F)).Adm)

/-! ## The input windows' buffers -/

/-- The data window's current buffer holds its block at every point, fetched there or not. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The parameter window's current buffer holds its block at every point: along grid axis 1 its block index does
    not move, and the block of the point before is this point's. -/
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's accesses -/

/-- The table's word the body reads at point i. -/
abbrev rw1 (i : grid1.Coords) : Rect S16 := Rect.unit (s := S16) (k1_off1 i) S1.size (k1_off1_inb i)

/-- The one store is the whole of the output block, so it covers it. -/
theorem cover1_2 (p0 : Vec F S1x256x4096 .f32) (y : S1x256x4096.Idx) :
    ∃ pc ∈ ([⟨whole1, p0⟩] : List (View.Piece (Elt F) S1x256x4096 .f32)), y ∈ pc.1.set :=
  View.cover_of_tiled [⟨whole1, p0⟩] S1x256x4096.size (by rfl) y

/-- What the body leaves in the output window's buffer, from the blocks and the table as a vector of 16 words. -/
def outOf1 (i : grid1.Coords) (x2 : Vec F S16 .i32) (x0 : Vec F S1x256x4096 .f32) (p0 : Vec F S1x256x4 .f32) : Vec F S1x256x4096 .f32 :=
  View.canon [⟨whole1, k1_pay1 i (View.ld x0 whole1) (View.ld p0 whole1p) (View.ld x2 (rw1 i) (Shape.Idx.first (numel1_S1.symm ▸ Nat.one_pos)))⟩]

/-! ## The body's triple -/

set_option maxHeartbeats 1000000 in
/-- The kernel body on whole memrefs — the table's at contents x2, the inputs' at x0 and p0, the output's at
    anything — runs to the continuation holding the table and the inputs as they were and the output at the blend
    of x0, p0 and the point's word of x2. -/
theorem sound_kernel1 (c : Dev nD) (E : Set ℕ) (i : grid1.Coords)
    (arg2 : Memref sig .tc .smem S16 .i32) (harg2 : arg2.IsWhole)
    (arg3 : Memref sig .tc .vmem S1x256x4096 .f32) (harg3 : arg3.IsWhole)
    (arg4 : Memref sig .tc .vmem S1x256x4 .f32) (harg4 : arg4.IsWhole)
    (arg5 : Memref sig .tc .vmem S1x256x4096 .f32) (harg5 : arg5.IsWhole)
    (x2 : Vec F S16 .i32) (x0 : Vec F S1x256x4096 .f32) (p0 : Vec F S1x256x4 .f32) (K : PUnit → sProp 𝕄) :
    iprop(owns (c : Thread nD τ) arg2 fullShare x2 ∗ owns (c : Thread nD τ) arg3 fullShare x0 ∗ owns (c : Thread nD τ) arg4 fullShare p0
        ∗ (∃ d, owns (c : Thread nD τ) arg5 fullShare d)
        ∗ (iprop(owns (c : Thread nD τ) arg2 fullShare x2 ∗ owns (c : Thread nD τ) arg3 fullShare x0 ∗ owns (c : Thread nD τ) arg4 fullShare p0
            ∗ owns (c : Thread nD τ) arg5 fullShare (outOf1 i x2 x0 p0)) -∗ K ⟨⟩))
      ⊢ wp frame (wpE (defs₀ (F := F)) Variants.none c none) E (cc1__transform_kernel i arg2 harg2 arg3 harg3 arg4 harg4 arg5 harg5) K := by
  simp only [cc1__transform_kernel_eq_skeleton]; unfold cc1__transform_kernel_skel
  unfold owns outOf1
  iintro ⟨⟨%f2, %hf2, H2⟩, ⟨%f0, %hf0, H0⟩, ⟨%f1, %hf1, H1⟩, ⟨%d3, %f3, -, H3⟩, Hk⟩
  subst hf2; subst hf0; subst hf1
  sl_exec
  sl_step
  iapply Hk
  isplitl [H2]
  · iexists f2; isplitr; · ipureintro; rfl
    iexact H2
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (cover1_2 _)

/-! ## The body at a point -/

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel body at point t, on what the pipeline calls it with: the table's buffer whole and the windows'
    current staging buffers. -/
abbrev bodyAt1 (t : Fin (cfg1 a).N) : Prog (TpuEff nD τ sig (Elt F) Λ₀ .tc) PUnit :=
  cc1__transform_kernel ((cfg1 a).grid.coords t) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- It is the body table's row at the pipeline's arguments. -/
theorem bodyAt1_eq (t : Fin (cfg1 a).N) :
    defs₀ (F := F) .tc (cfg1 a).body ((cfg1 a).bodyArgs t ((cfg1 a).slots t)) = bodyAt1 a t := rfl

/-! ## The table in the invariant -/

/-- Holding the one prefetched table at contents pf is owning its buffer, whole, at pf's only component. -/
theorem prefHeld1_eq (c : Dev nD) (pf : pre1.Contents (Elt F)) :
    (Pipeline.prefHeld (Ix := Unit) (Name := ℕ) (U := UR sig nD τ) (Lvl := ℕ) pre1 c (fun _ => fullShare) pf : sProp 𝕄)
      = owns (c : Thread nD τ) (Memref.whole main_arg3) fullShare (pf 0) := by
  unfold Pipeline.prefHeld
  rw [bigSep_univ_eq_bigSepL [(0 : Fin 1)] (by decide) (by decide)]
  exact (owns_whole (c : Thread nD τ) main_arg3 fullShare (pf 0)).symm

/-- The invariant at any point: the scoped rest and the generator register, and the table's buffer owned whole. -/
theorem Φ_eq1 (c : Dev nD) (t : Fin ((cfg1 a).N + 1)) :
    (dat1 V a c).Φ t = iprop(Pipeline.ΦA spec1 c ∗ owns (c : Thread nD τ) (Memref.whole main_arg3) fullShare (a.1 0)) := by
  rw [← prefHeld1_eq]; rfl

/-- The word the run reads of the table's only component is the word of the contents at the point. -/
theorem outOf1_eq (pf : pre1.Contents (Elt F)) (i : grid1.Coords) (x0 : Vec F S1x256x4096 .f32) (p0 : Vec F S1x256x4 .f32) :
    outOf1 i (pf 0) x0 p0 = out1_2 pf i x0 p0 := rfl

/-! ## The body obligation, at a generic point -/

/-- What the body is called with at point t, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t))

/-- The body at any point: the inputs' memrefs hold their blocks and the invariant holds the table, so the
    kernel's triple applies; the table goes back into the invariant, the rest of which and the core's debt pass
    through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).owesAt () t.succ = (dat1 V a c).owesAt () t.castSucc from rfl,
    Φ_eq1, Φ_eq1, after1_0, after1_1, after1_2]
  iintro ⟨⟨HΦ, Hpf⟩, Ho, ⟨%d0, H0⟩, ⟨%d1, H1⟩, ⟨%d2, H2⟩⟩
  iapply (sound_kernel1 c Set.univ _ _ _ _ _ _ _ _ _ (a.1 0) (iblk1 V a c 0 t) (iblk1 V a c 1 t) _)
  isplitl [Hpf]; · iexact Hpf
  isplitl [H0]; · iexact H0
  isplitl [H1]; · iexact H1
  isplitl [H2]; · iexists _; iexact H2
  iintro ⟨Hpf, H0, H1, H2⟩
  isplitl [HΦ Hpf]
  · isplitl [HΦ]; · iexact HΦ
    iexact Hpf
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Regions

end Cert.KernelIdeal.Hand

end
-- ==== Proof.KIRun.lean ====
/-
  The kernel's program run from launch to return. @main is seven items: the statistics kernel's region, five stretches
  of host operations (the reshapes and the first sqrt; the unbiased variance over the batch rows of the means; its sqrt;
  the same of the standard deviations; its sqrt, beta, gamma and the four columns side by side), and the transform
  kernel's region. Between two items a core holds every unscoped buffer at that boundary's contents (the fold W0 … W7),
  the generator register at some state, and owes nothing. A region takes its windows' arrays out of the unscoped buffers
  at entry and puts them back at what the write-backs leave; the second region also takes the prefetched table of row
  offsets out, holds it whole through its invariant (the body reads one word of it at each point) and puts it back.
  The conclusion: every weakly fair execution terminates without a fault, and every unscoped buffer ends at W7.
-/
import proofs.«410772_j7524782702974_2_alg».proof.Proof.KIStatsBody
import proofs.«410772_j7524782702974_2_alg».proof.Proof.KITransformBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves: its arrays at the write-backs' result, every other buffer as entered -/

theorem arr_W1 (c : Dev nD) (w : Fin cfg0.W) :
    W1 m c (Proc.devRef .tc (Pipeline.arrRef spec0 w)) = (dat0 (V0 m) c).arrAt w cfg0.N := by
  unfold W1; exact Pipeline.withArrays_arr spec0 winFacts0.arr_inj c _ _ w
theorem rest_W1 (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (V0 m) c).arrAt w cfg0.N = V1 m c (Pipeline.arrRef spec0 w) :=
  (arr_W1 m c w).symm
theorem hrest0 (c : Dev nD) : ∀ b, b ∉ Finset.univ.image (Pipeline.arrRef spec0) → V1 m c b = V0 m c b :=
  fun b hb => rest_W1 m c b fun w e => hb (Finset.mem_image.mpr ⟨w, Finset.mem_univ _, e⟩)

theorem arr_W7 (c : Dev nD) (w : Fin (cfg1 (adm1 m)).W) :
    W7 m c (Proc.devRef .tc (Pipeline.arrRef spec1 w)) = (dat1 (V6 m) (adm1 m) c).arrAt w (cfg1 (adm1 m)).N := by
  unfold W7; exact Pipeline.withArrays_arr spec1 winFacts1.arr_inj c _ _ w
theorem rest_W7 (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin (cfg1 (adm1 m)).W) :
    (dat1 (V6 m) (adm1 m) c).arrAt w (cfg1 (adm1 m)).N = V7 m c (Pipeline.arrRef spec1 w) :=
  (arr_W7 m c w).symm
theorem hrest1 (c : Dev nD) : ∀ b, b ∉ Finset.univ.image (Pipeline.arrRef spec1) → V7 m c b = V6 m c b :=
  fun b hb => rest_W7 m c b fun w e => hb (Finset.mem_image.mpr ⟨w, Finset.mem_univ _, e⟩)

/-! ## The proof data family and the thread state -/

/-- The tables' admissible contents: pipeline 0 has none, pipeline 1's is the table as region 1 finds it. -/
def adm : (p : Fin 2) → (pcfgs (F := F) p).Adm
  | ⟨0, _⟩ => cfg0.toPCfg_adm
  | ⟨1, _⟩ => adm1 m
/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (V0 m) c
  | ⟨1, _⟩ => fun c => dat1 (V6 m) (adm1 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W7 m c) ∗ ∃ r, prngReg c r)

/-- The mesh has one core. -/
theorem core_eq (c : Dev nD) : c = core0 := Subsingleton.elim _ _

/-! ## The regions as segments -/

set_option backward.isDefEq.respectTransparency.types false in
/-- Region 0 over the thread state: entered from the launch contents, left at W1. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from W6, left at W7. The prefetched table is split out of the unscoped
    rest at entry, rides the invariant held whole, and is put back at the exit. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V6 m) (adm1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm1 m).1)
  Z c := Pipeline.unscopedRestP (Ix := Unit) (Name := ℕ) (U := UR sig nD τ) (Lvl := ℕ) pre1 spec1 c (V6 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (V6 m c) fun _ => rfl
    rw [Pipeline.unscopedBufs_held, show Pipeline.unscopedRest (Pipeline.pin (pcfgs (F := F)) (adm m) 1).spec c (V6 m c) = _ from Pipeline.unscopedRest_split preFacts1 c (V6 m c)] at hsplit
    obtain rfl := core_eq c
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (adm1 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (V6 m c) (V7 m c) ((pdats m 1 c).arrAt · (cfg1 (adm1 m)).N) (hF1 m c) (hrest1 m c)
    rw [Pipeline.unscopedBufs_held, show Pipeline.unscopedRest (Pipeline.pin (pcfgs (F := F)) (adm m) 1).spec c (V6 m c) = _ from Pipeline.unscopedRest_split preFacts1 c (V6 m c)] at hjoin
    obtain rfl := core_eq c
    iintro ⟨Ha, HO, ⟨Hp, Hpf⟩, Hrest⟩
    imodintro
    isplitl [Ha Hrest Hp Hpf]
    · isplitl [Ha Hrest Hpf]
      · iapply hjoin
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

/-- @main's seven items in order: region 0, the five stretches of host operations, region 1. -/
abbrev segs : List (Pipeline.Seg (pcfgs (F := F)) (adm m) (pdats m) () defs₀ 𝒱₀ L lv) :=
  [ .region (reg0 m),
    .host (hseg hostOps1 hostOps1_sub fresh1 (W1 m)),
    .host (hseg hostOps1_1 hostOps1_1_sub fresh1_1 (W2 m)),
    .host (hseg hostOps1_2 hostOps1_2_sub fresh1_2 (W3 m)),
    .host (hseg hostOps1_3 hostOps1_3_sub fresh1_3 (W4 m)),
    .host (hseg hostOps1_4 hostOps1_4_sub fresh1_4 (W5 m)),
    .region (reg1 m) ]

set_option backward.isDefEq.respectTransparency.types false in
/-- The run: from any memory with zero counters every weakly fair execution of @main on the TensorCores terminates,
    nothing faulting, and every final state holds each unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) (adm m) (pdats m) () (cellOf_inj (adm m)) emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KITerms.lean ====
/-
  What the kernel's program computes, as pure terms: the two statistics arrays the first region leaves (row by row,
  the stored payloads of the row's block), the parameter array the host operations between the regions make of
  them — per (batch row, channel) the mean, the standard deviation sqrt (var + eps), beta = mean + e1 · spread of
  the means and gamma = std + e2 · spread of the stds, side by side on a last axis of four —, and the result the
  second region leaves (block by block, the stored payload of the data block, the row's parameter block and the
  row's word of the table).
-/
import proofs.«410772_j7524782702974_2_alg».proof.Proof.KIData
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-! ## Region 0's arrays -/

/-- Batch row b of the data array, as the statistics kernel's block. -/
def rowBlk (x : FVec F S16x256x16384 .f32) (b : Fin 16) : Vec F S1x256x16384 .f32 := fun y => x (ix3 b (y 1) (y 2))

/-- The mean array: at (b, c, 0) the stored mean of row b's block at channel c. -/
def meanArr (x : FVec F S16x256x16384 .f32) : FVec F S16x256x1 .f32 := fun j => meanPay (rowBlk x (j 0)) (ix3 0 (j 1) 0)
/-- The variance array: at (b, c, 0) the stored variance of row b's block at channel c. -/
def varArr (x : FVec F S16x256x16384 .f32) : FVec F S16x256x1 .f32 := fun j => varPay (rowBlk x (j 0)) (ix3 0 (j 1) 0)

/-! ## The host operations between the regions -/

abbrev zeroS : FVec F S_ .f32 := constant S_ .f32 0x00000000#32
abbrev oneI : IVec S_ 32 := constantI S_ 32 1#32

/-- sqrt (· + eps) on a [16, 256] array. -/
def sqrtEps (a : FVec F S16x256 .f32) : FVec F S16x256 .f32 :=
  Host.sqrt (addf a (broadcastInDim S16x256 ![] bcast_S_S16x256 (constant S_ .f32 0x358637BD#32)))

/-- The count of batch rows less the correction: 16 - float 1. -/
def cnt16 : FVec F S_ .f32 := subf (constant S_ .f32 0x41800000#32) (sitofp .f32 (oneI))

/-- The unbiased variance over the 16 batch rows, per channel, of a [16, 256] array. -/
def var16 (a : FVec F S16x256 .f32) : FVec F S256 .f32 :=
  let v0 : FVec F S256 .f32 := Host.reduceAdd a (zeroS (F := F)) reducesTo_S16x256_S256_d0 h_S_
  let v1 : FVec F S1x256 .f32 := broadcastInDim S1x256 ![1] bcast_S256_S1x256_1 v0
  let v2 : FVec F S1x256 .f32 := broadcastInDim S1x256 ![] bcast_S_S1x256 (constant S_ .f32 0x41800000#32)
  let v3 : FVec F S1x256 .f32 := Host.divf v1 v2
  let v4 : FVec F S16x256 .f32 := broadcastInDim S16x256 ![0, 1] bcast_S1x256_S16x256_0_1 v3
  let v5 : FVec F S16x256 .f32 := subf a v4
  let v6 : FVec F S16x256 .f32 := mulf v5 v5
  let v9 : FVec F S256 .f32 := Host.reduceAdd v6 (zeroS (F := F)) reducesTo_S16x256_S256_d0 h_S_
  let v10 : FVec F S256 .f32 := broadcastInDim S256 ![] bcast_S_S256 (cnt16 (F := F))
  let v11 : FVec F S256 .f32 := Host.divf v9 v10
  let v12 : IVec S_ 1 := cmpf .ogt (cnt16 (F := F)) (zeroS (F := F))
  let w1 : FVec F S256 .f32 := broadcastInDim S256 ![] bcast_S_S256 (id (constant S_ .f32 0x7FC00000#32))
  select (broadcastInDim S256 ![] bcast_S_S256 v12) v11 w1

/-- The spread sqrt (var16 a + eps) of a [16, 256] array over its batch rows, repeated on every row. -/
def spread (a : FVec F S16x256 .f32) : FVec F S16x256 .f32 :=
  let v9 : FVec F S256 .f32 := addf (var16 a) (broadcastInDim S256 ![] bcast_S_S256 (constant S_ .f32 0x358637BD#32))
  let v10 : FVec F S256 .f32 := Host.sqrt v9
  let v15 : FVec F S1x256 .f32 := broadcastInDim S1x256 ![1] bcast_S256_S1x256_1 v10
  broadcastInDim S16x256 ![0, 1] bcast_S1x256_S16x256_0_1 v15

/-- A statistics array [16, 256, 1] as a [16, 256] array. -/
def flat (a1 : FVec F S16x256x1 .f32) : FVec F S16x256 .f32 := shapeCast S16x256 a1 shapeCasts_S16x256x1_S16x256
/-- A [16, 256] array as one column of the parameter array. -/
def col (a : FVec F S16x256 .f32) : FVec F S16x256x1 .f32 := broadcastInDim S16x256x1 ![0, 1] bcast_S16x256_S16x256x1_0_1 a

def muK (mu1 : FVec F S16x256x1 .f32) : FVec F S16x256 .f32 := flat mu1
def sdK (va1 : FVec F S16x256x1 .f32) : FVec F S16x256 .f32 := sqrtEps (flat va1)
def betaK (mu1 : FVec F S16x256x1 .f32) (e1 : FVec F S16x256 .f32) : FVec F S16x256 .f32 :=
  addf (muK mu1) (mulf e1 (spread (muK mu1)))
def gammaK (va1 : FVec F S16x256x1 .f32) (e2 : FVec F S16x256 .f32) : FVec F S16x256 .f32 :=
  addf (sdK va1) (mulf e2 (spread (sdK va1)))

/-- The parameter array: mean, std, beta, gamma side by side. -/
def paramsK (mu1 va1 : FVec F S16x256x1 .f32) (e1 e2 : FVec F S16x256 .f32) : FVec F S16x256x4 .f32 :=
  concatenate S16x256x4 2 [⟨S16x256x1, col (muK mu1)⟩, ⟨S16x256x1, col (sdK va1)⟩, ⟨S16x256x1, col (betaK mu1 e1)⟩, ⟨S16x256x1, col (gammaK va1 e2)⟩]
    concatenates_S16x256x1_S16x256x1_S16x256x1_S16x256x1_S16x256x4_d2

/-! ## Region 1's array -/

/-- The data block of batch row b and position tile l (4096 positions), and the parameter block of row b. -/
def tileBlk (x : FVec F S16x256x16384 .f32) (b : Fin 16) (l : Fin 4) : Vec F S1x256x4096 .f32 :=
  fun y => x (ix3 b (y 1) ⟨l.val * 4096 + (y 2).val, by have h : (y 2).val < 4096 := (y 2).isLt; have := l.isLt; omega⟩)
def parBlk (p : FVec F S16x256x4 .f32) (b : Fin 16) : Vec F S1x256x4 .f32 := fun y => p (ix3 b (y 1) (y 2))

/-- The grid point (b, l) of the transform kernel. -/
def pt (b : Fin 16) (l : Fin 4) : grid1.Coords := fun a => match a with | ⟨0, _⟩ => b | ⟨1, _⟩ => l

/-- The result array: at (b, c, p) the stored blend of the block (b, p / 4096) at (0, c, p % 4096), the table's word
    being the row's. -/
def outArr (tbl : pre1.Contents (Elt F)) (x : FVec F S16x256x16384 .f32) (p : FVec F S16x256x4 .f32) : FVec F S16x256x16384 .f32 :=
  fun j =>
    let b : Fin 16 := j 0
    let l : Fin 4 := ⟨(j 2).val / 4096, by have h : (j 2).val < 16384 := (j 2).isLt; omega⟩
    k1_pay1 (pt b l) (View.ld (tileBlk x b l) whole1) (View.ld (parBlk p b) whole1p) (word1 tbl (pt b l))
      (ix3 0 (j 1) ⟨(j 2).val % 4096, Nat.mod_lt _ (by norm_num)⟩)

end Cert.KernelIdeal.Hand

end
-- ==== Proof.KIHost.lean ====
/-
  The host operations between the two kernel regions, read as pure terms, and the buffers nothing writes.

  Region 0 leaves the mean and variance arrays in its two output windows' buffers and every other buffer as it
  found it. The five stretches of host operations that follow flatten the two arrays to [16, 256], take
  sqrt (· + eps) of the variances, take the unbiased variance over the 16 batch rows of the means and of the
  standard deviations (the two calls of the module-local variance), turn each into a spread sqrt (· + eps) repeated
  on every row, add the spreads scaled by the two noise arguments, and lay mean, deviation, shifted mean and shifted
  deviation side by side on a last axis of four. Each stretch is a straight line: after it a buffer it writes holds
  its operation's function of the operands' contents, and every other buffer what it held. Composed, the parameter
  buffer holds the term paramsK of the two statistics arrays and the two noise arguments. No stretch and no region
  writes an argument buffer, so each argument is at its launch contents throughout; region 1 changes only its
  output window's buffer.
-/
import proofs.«410772_j7524782702974_2_alg».proof.Proof.KIData
import proofs.«410772_j7524782702974_2_alg».proof.Proof.KITerms
import proofs.«410772_j7524782702974_2_alg».proof.Proof.Gen.KernelIdeal.Regions
import Idealize.ShloMosaic.Lib.StableHlo.Run
import Idealize.ShloMosaic.Lib.Pipeline.FrameSuffix

set_option maxRecDepth 16384

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]

/-! ## Each stretch as a function of what it reads -/

namespace Between

section Stretches

variable (V : Valuation τ sig (Elt F))

/-- eps as a [256] array, and a [256] array repeated on each of the 16 rows. -/
abbrev eps256 : FVec F S256 .f32 := broadcastInDim S256 ![] bcast_S_S256 (constant S_ .f32 0x358637BD#32)
abbrev rows (a : FVec F S256 .f32) : FVec F S16x256 .f32 :=
  broadcastInDim S16x256 ![0, 1] bcast_S1x256_S16x256_0_1 (broadcastInDim S1x256 ![1] bcast_S256_S1x256_1 a)

/-- The first stretch flattens the mean array, -/
theorem s1_v1 : after hostOps1 V (Proc.devRef .tc main_v1) = flat (V (Proc.devRef .tc main_v0_0)) := by
  after_results_simp
  rfl
/-- takes sqrt (· + eps) of the flattened variance array, -/
theorem s1_v5 : after hostOps1 V (Proc.devRef .tc main_v5) = sqrtEps (flat (V (Proc.devRef .tc main_v0_1))) := by
  after_results_simp
  rfl
/-- and writes the integer one. -/
theorem s1_c : after hostOps1 V (Proc.devRef .tc main_c) = oneI := by
  after_results_simp

/-- The second stretch: the unbiased variance over the batch rows of the flattened means, the correction read as one. -/
theorem s2_v6 (hc : V (Proc.devRef .tc main_c) = oneI) :
    after hostOps1_1 V (Proc.devRef .tc main_v6) = var16 (V (Proc.devRef .tc main_v1)) := by
  after_results_simp
  simp only [TRef.ofBuf, TRef.toBuf, cast_eq, hc]
  rfl

/-- The third stretch: sqrt (· + eps) of that variance, and the integer one again. -/
theorem s3_v9 : after hostOps1_2 V (Proc.devRef .tc main_v9)
    = Host.sqrt (addf (V (Proc.devRef .tc main_v6)) (eps256 (F := F))) := by
  after_results_simp
theorem s3_c1 : after hostOps1_2 V (Proc.devRef .tc main_c_1) = oneI := by
  after_results_simp

/-- The fourth stretch: the unbiased variance over the batch rows of the standard deviations. -/
theorem s4_v10 (hc : V (Proc.devRef .tc main_c_1) = oneI) :
    after hostOps1_3 V (Proc.devRef .tc main_v10) = var16 (V (Proc.devRef .tc main_v5)) := by
  after_results_simp
  simp only [TRef.ofBuf, TRef.toBuf, cast_eq, hc]
  rfl

/-- The fifth stretch: the four columns side by side. -/
theorem s5_v26 : after hostOps1_4 V (Proc.devRef .tc main_v26)
    = concatenate S16x256x4 2
        [⟨S16x256x1, col (V (Proc.devRef .tc main_v1))⟩, ⟨S16x256x1, col (V (Proc.devRef .tc main_v5))⟩,
         ⟨S16x256x1, col (addf (V (Proc.devRef .tc main_v1)) (mulf (V (Proc.devRef .tc main_arg1)) (rows (V (Proc.devRef .tc main_v9)))))⟩,
         ⟨S16x256x1, col (addf (V (Proc.devRef .tc main_v5)) (mulf (V (Proc.devRef .tc main_arg2))
            (rows (Host.sqrt (addf (V (Proc.devRef .tc main_v10)) (eps256 (F := F)))))))⟩]
        concatenates_S16x256x1_S16x256x1_S16x256x1_S16x256x1_S16x256x4_d2 := by
  after_results
  rfl

end Stretches

end Between

variable (m : (ℓ : Loc nD τ sig) → Buf (Elt F) ℓ) (c : Dev nD)

/-! ## Region 0's exit -/

/-- The mean window's array holds what its write-backs leave, -/
theorem W1_stat0 : W1 m c (Proc.devRef .tc main_v0_0) = (dat0 (V0 m) c).arrAt 1 cfg0.N := by
  unfold W1; exact Pipeline.withArrays_arr spec0 winFacts0.arr_inj c _ _ 1
/-- the variance window's likewise, -/
theorem W1_stat1 : W1 m c (Proc.devRef .tc main_v0_1) = (dat0 (V0 m) c).arrAt 2 cfg0.N := by
  unfold W1; exact Pipeline.withArrays_arr spec0 winFacts0.arr_inj c _ _ 2
/-- and a buffer that is no window's array is as launched. -/
theorem W1_of_ne (b : Ref sig .tc) (hb : ∀ w, Pipeline.arrRef spec0 w ≠ b) :
    W1 m c (Proc.devRef .tc b) = W0 m c (Proc.devRef .tc b) := by
  unfold W1; exact Pipeline.withArrays_of_ne spec0 c _ _ b hb
namespace Between

/-- The input window's array is as launched: an input's array is never written back. -/
theorem W1_arg0 : W1 m c (Proc.devRef .tc main_arg0) = m ((c : Thread nD τ).loc main_arg0) := by
  unfold W1
  exact (Pipeline.withArrays_arr spec0 winFacts0.arr_inj c _ _ 0).trans
    (((dat0 (V0 m) c).arrAt_in 0 rfl _).trans (A_eq0 (V0 m) c 0))

/-! ## What passes through a stretch: a buffer none of its operations writes -/

theorem W2_of {r : Ref sig .tc} (h : r ∉ hostOps1_W) : W2 m c (Proc.devRef .tc r) = W1 m c (Proc.devRef .tc r) :=
  after_of_writes_sub hostOps1 _ hostOps1_writes h
theorem W3_of {r : Ref sig .tc} (h : r ∉ hostOps1_1_W) : W3 m c (Proc.devRef .tc r) = W2 m c (Proc.devRef .tc r) :=
  after_of_writes_sub hostOps1_1 _ hostOps1_1_writes h
theorem W4_of {r : Ref sig .tc} (h : r ∉ hostOps1_2_W) : W4 m c (Proc.devRef .tc r) = W3 m c (Proc.devRef .tc r) :=
  after_of_writes_sub hostOps1_2 _ hostOps1_2_writes h
theorem W5_of {r : Ref sig .tc} (h : r ∉ hostOps1_3_W) : W5 m c (Proc.devRef .tc r) = W4 m c (Proc.devRef .tc r) :=
  after_of_writes_sub hostOps1_3 _ hostOps1_3_writes h
theorem W6_of {r : Ref sig .tc} (h : r ∉ hostOps1_4_W) : W6 m c (Proc.devRef .tc r) = W5 m c (Proc.devRef .tc r) :=
  after_of_writes_sub hostOps1_4 _ hostOps1_4_writes h
/-- A buffer no stretch writes holds after the five what region 0 left in it. -/
theorem W6_of_W1 {r : Ref sig .tc} (h1 : r ∉ hostOps1_W) (h2 : r ∉ hostOps1_1_W) (h3 : r ∉ hostOps1_2_W)
    (h4 : r ∉ hostOps1_3_W) (h5 : r ∉ hostOps1_4_W) : W6 m c (Proc.devRef .tc r) = W1 m c (Proc.devRef .tc r) :=
  (W6_of m c h5).trans <| (W5_of m c h4).trans <| (W4_of m c h3).trans <| (W3_of m c h2).trans (W2_of m c h1)

end Between

open Between

/-! ## The arguments before region 1 -/

theorem W6_arg0 : W6 m c (Proc.devRef .tc main_arg0) = m ((c : Thread nD τ).loc main_arg0) :=
  (W6_of_W1 m c (by decide) (by decide) (by decide) (by decide) (by decide)).trans (W1_arg0 m c)
theorem W6_arg1 : W6 m c (Proc.devRef .tc main_arg1) = m ((c : Thread nD τ).loc main_arg1) :=
  (W6_of_W1 m c (by decide) (by decide) (by decide) (by decide) (by decide)).trans (W1_of_ne m c main_arg1 (by decide))
theorem W6_arg2 : W6 m c (Proc.devRef .tc main_arg2) = m ((c : Thread nD τ).loc main_arg2) :=
  (W6_of_W1 m c (by decide) (by decide) (by decide) (by decide) (by decide)).trans (W1_of_ne m c main_arg2 (by decide))
theorem W6_arg3 : W6 m c (Proc.devRef .tc main_arg3) = m ((c : Thread nD τ).loc main_arg3) :=
  (W6_of_W1 m c (by decide) (by decide) (by decide) (by decide) (by decide)).trans (W1_of_ne m c main_arg3 (by decide))

/-! ## The parameter array -/

namespace Between

/-- After the first stretch: the flattened means, the standard deviations, the integer one. -/
theorem W2_v1 : W2 m c (Proc.devRef .tc main_v1) = muK (W1 m c (Proc.devRef .tc main_v0_0)) := s1_v1 _
theorem W2_v5 : W2 m c (Proc.devRef .tc main_v5) = sdK (W1 m c (Proc.devRef .tc main_v0_1)) := s1_v5 _
theorem W2_c : W2 m c (Proc.devRef .tc main_c) = oneI := s1_c _
/-- After the second: the variance of the means over the batch rows. -/
theorem W3_v6 : W3 m c (Proc.devRef .tc main_v6) = var16 (muK (W1 m c (Proc.devRef .tc main_v0_0))) :=
  (s2_v6 _ (W2_c m c)).trans (congrArg var16 (W2_v1 m c))
/-- After the third: its sqrt (· + eps), and the integer one. -/
theorem W4_v9 : W4 m c (Proc.devRef .tc main_v9)
    = Host.sqrt (addf (var16 (muK (W1 m c (Proc.devRef .tc main_v0_0)))) (eps256 (F := F))) :=
  (s3_v9 _).trans (congrArg (fun v => Host.sqrt (addf v (eps256 (F := F)))) (W3_v6 m c))
theorem W4_c1 : W4 m c (Proc.devRef .tc main_c_1) = oneI := s3_c1 _
/-- After the fourth: the variance of the standard deviations over the batch rows. -/
theorem W5_v10 : W5 m c (Proc.devRef .tc main_v10) = var16 (sdK (W1 m c (Proc.devRef .tc main_v0_1))) :=
  (s4_v10 _ (W4_c1 m c)).trans
    (congrArg var16 (((W4_of m c (by decide)).trans (W3_of m c (by decide))).trans (W2_v5 m c)))
/-- What the fifth stretch reads, as the fourth leaves it. -/
theorem W5_v1 : W5 m c (Proc.devRef .tc main_v1) = muK (W1 m c (Proc.devRef .tc main_v0_0)) :=
  (W5_of m c (by decide)).trans <| (W4_of m c (by decide)).trans <| (W3_of m c (by decide)).trans (W2_v1 m c)
theorem W5_v5 : W5 m c (Proc.devRef .tc main_v5) = sdK (W1 m c (Proc.devRef .tc main_v0_1)) :=
  (W5_of m c (by decide)).trans <| (W4_of m c (by decide)).trans <| (W3_of m c (by decide)).trans (W2_v5 m c)
theorem W5_v9 : W5 m c (Proc.devRef .tc main_v9)
    = Host.sqrt (addf (var16 (muK (W1 m c (Proc.devRef .tc main_v0_0)))) (eps256 (F := F))) :=
  (W5_of m c (by decide)).trans (W4_v9 m c)
theorem W5_arg1 : W5 m c (Proc.devRef .tc main_arg1) = m ((c : Thread nD τ).loc main_arg1) :=
  (W5_of m c (by decide)).trans <| (W4_of m c (by decide)).trans <| (W3_of m c (by decide)).trans <|
    (W2_of m c (by decide)).trans (W1_of_ne m c main_arg1 (by decide))
theorem W5_arg2 : W5 m c (Proc.devRef .tc main_arg2) = m ((c : Thread nD τ).loc main_arg2) :=
  (W5_of m c (by decide)).trans <| (W4_of m c (by decide)).trans <| (W3_of m c (by decide)).trans <|
    (W2_of m c (by decide)).trans (W1_of_ne m c main_arg2 (by decide))

end Between

/-- Before region 1 the parameter buffer holds mean, deviation, shifted mean and shifted deviation side by side, as
    terms of the two statistics arrays region 0 left and the two noise arguments. -/
theorem W6_params : W6 m c (Proc.devRef .tc main_v26)
    = paramsK (W1 m c (Proc.devRef .tc main_v0_0)) (W1 m c (Proc.devRef .tc main_v0_1))
        (m ((c : Thread nD τ).loc main_arg1)) (m ((c : Thread nD τ).loc main_arg2)) := by
  refine (s5_v26 (W5 m c)).trans ?_
  rw [W5_v1, W5_v5, W5_v9, W5_v10, W5_arg1, W5_arg2]
  rfl

/-! ## Region 1's exit -/

/-- The output window's array holds what its write-backs leave, -/
theorem W7_out : W7 m c (Proc.devRef .tc main_v27) = (dat1 (V6 m) (adm1 m) c).arrAt 2 (cfg1 (adm1 m)).N := by
  unfold W7; exact Pipeline.withArrays_arr spec1 winFacts1.arr_inj c _ _ 2
/-- and a buffer that is no window's array is as region 1 found it. -/
theorem W7_of_ne (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- The arguments at the end: the data array is an input window's, never written back; the noise arguments and the
    table are no window's array. -/
theorem W7_arg0 : W7 m c (Proc.devRef .tc main_arg0) = m ((c : Thread nD τ).loc main_arg0) := by
  unfold W7
  exact (Pipeline.withArrays_arr spec1 winFacts1.arr_inj c _ _ 0).trans
    (((dat1 (V6 m) (adm1 m) c).arrAt_in 0 rfl _).trans ((A_eq1 (V6 m) (adm1 m) c 0).trans (W6_arg0 m c)))
theorem W7_arg1 : W7 m c (Proc.devRef .tc main_arg1) = m ((c : Thread nD τ).loc main_arg1) :=
  (W7_of_ne m c main_arg1 (by decide)).trans (W6_arg1 m c)
theorem W7_arg2 : W7 m c (Proc.devRef .tc main_arg2) = m ((c : Thread nD τ).loc main_arg2) :=
  (W7_of_ne m c main_arg2 (by decide)).trans (W6_arg2 m c)
theorem W7_arg3 : W7 m c (Proc.devRef .tc main_arg3) = m ((c : Thread nD τ).loc main_arg3) :=
  (W7_of_ne m c main_arg3 (by decide)).trans (W6_arg3 m c)

end Cert.KernelIdeal.Hand

end
-- ==== Proof.KIStatsValue.lean ====
/-
  From blocks to arrays, for the statistics kernel: what its three arrays hold once every grid point has written
  its blocks back. The input array is never written. Point t of the grid of 16 holds row t of the data in its
  input block and writes the stored mean and variance of that row to row t of the two statistics arrays; the
  sixteen rows tile each [16, 256, 1] array, so each ends holding, at (b, c, 0), the stored statistic of row b's
  block at channel c.
-/
import proofs.«410772_j7524782702974_2_alg».proof.Proof.KITerms
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The input array is staged and never written back. -/
theorem arr0_0 (c : Dev nD) : (dat0 V c).arrAt 0 cfg0.N = V c main_arg0 :=
  ((dat0 V c).arrAt_in 0 rfl _).trans (A_eq0 V c 0)

theorem zero3 : (![0, 0, 0] : Fin 3 → Nat) = fun _ => 0 := funext fun a => by fin_cases a <;> rfl

/-- The printed index maps over the grid: every window's block index at point t is (t, 0, 0). -/
theorem index0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point t is row t of the data array. -/
theorem iblk0_row (c : Dev nD) (t : Fin cfg0.N) (b : Fin 16) (hb : b.val = t.val) :
    (iblk0 V c 0 t : Vec F S1x256x16384 .f32) = rowBlk (V c main_arg0) b := by
  obtain ⟨e0, e1, e2, -⟩ := index0 t
  funext y
  unfold iblk0 rowBlk
  rw [View.read_apply]
  show V c main_arg0 (((cfg0.win 0).blk t).view.emb y) = V c main_arg0 (ix3 b (y 1) (y 2))
  congr 1
  funext a
  apply Fin.ext
  match a with
  | ⟨0, _⟩ => show win0_0.index t (0 : Fin 3) * 1 + 1 * (y 0).val = b.val; have hy : (y 0).val < 1 := (y 0).isLt; omega
  | ⟨1, _⟩ => show win0_0.index t (1 : Fin 3) * 256 + 1 * (y 1).val = (y 1).val; omega
  | ⟨2, _⟩ => show win0_0.index t (2 : Fin 3) * 16384 + 1 * (y 2).val = (y 2).val; omega

/-- A statistic P of a block that is row (i 0) of the data, read at channel (i 1) of the block. -/
theorem stat_at (P : Vec F S1x256x16384 .f32 → FVec F S1x256x1 .f32) (x : FVec F S16x256x16384 .f32)
    (X : Vec F S1x256x16384 .f32) (i : S16x256x1.Idx) (y : S1x256x1.Idx)
    (hX : X = rowBlk x (i 0)) (h1 : (y 1).val = (i 1).val) :
    P X y = P (rowBlk x (i 0)) (ix3 0 (i 1) 0) := by
  subst hX
  congr 1
  funext a
  apply Fin.ext
  match a with
  | ⟨0, _⟩ => show (y 0).val = 0; have hy : (y 0).val < 1 := (y 0).isLt; omega
  | ⟨1, _⟩ => exact h1
  | ⟨2, _⟩ => show (y 2).val = 0; have hy : (y 2).val < 1 := (y 2).isLt; omega

/-- What point t writes back to the mean array is block t of the whole mean array. -/
theorem flushed0_1_eq (c : Dev nD) (t : Fin cfg0.N) :
    (dat0 V c).flushed 1 t = ((cfg0.win 1).blk t).view.read (Elt F) (meanArr (V c main_arg0)) := by
  show (cfg0.win 1).cut (grid0.coords t) ((dat0 V c).after 1 t) = _
  rw [after0_1]
  unfold out0_1
  rw [View.canon_unit_zero zero3]
  obtain ⟨e0, e1, e2, e3, e4, e5, e6, e7, e8⟩ := index0 t
  funext j
  show meanPay (iblk0 V c 0 t) j = meanArr (V c main_arg0) (((cfg0.win 1).blk t).view.emb j)
  refine stat_at meanPay (V c main_arg0) _ _ j (iblk0_row V c t _ ?_) ?_
  · show win0_1.index t (0 : Fin 3) * 1 + 1 * (j 0).val = t.val
    have hj : (j 0).val < 1 := (j 0).isLt
    omega
  · show (j 1).val = win0_1.index t (1 : Fin 3) * 256 + 1 * (j 1).val
    omega

/-- What point t writes back to the variance array is block t of the whole variance array. -/
theorem flushed0_2_eq (c : Dev nD) (t : Fin cfg0.N) :
    (dat0 V c).flushed 2 t = ((cfg0.win 2).blk t).view.read (Elt F) (varArr (V c main_arg0)) := by
  show (cfg0.win 2).cut (grid0.coords t) ((dat0 V c).after 2 t) = _
  rw [after0_2]
  unfold out0_2
  rw [View.canon_unit_zero zero3]
  obtain ⟨e0, e1, e2, e3, e4, e5, e6, e7, e8⟩ := index0 t
  funext j
  show varPay (iblk0 V c 0 t) j = varArr (V c main_arg0) (((cfg0.win 2).blk t).view.emb j)
  refine stat_at varPay (V c main_arg0) _ _ j (iblk0_row V c t _ ?_) ?_
  · show win0_2.index t (0 : Fin 3) * 1 + 1 * (j 0).val = t.val
    have hj : (j 0).val < 1 := (j 0).isLt
    omega
  · show (j 1).val = win0_2.index t (1 : Fin 3) * 256 + 1 * (j 1).val
    omega

/-- An index of the mean array is in point t's block iff each coordinate is in the block's range on its axis. -/
theorem mem_blk0_1 (t : Fin cfg0.N) (i : S16x256x1.Idx) :
    i ∈ ((cfg0.win 1).blk t).view.set ↔ ∀ a : Fin 3, win0_1.index t a * S1x256x1.size a ≤ (i a).val ∧ (i a).val < win0_1.index t a * S1x256x1.size a + S1x256x1.size a := by
  show i ∈ ((View.whole main_v0_0).slice (win0_1.rect t)).set ↔ _
  rw [View.set_slice_whole, Rect.mem_set_unit]
  exact Iff.rfl

/-- The same for the variance array. -/
theorem mem_blk0_2 (t : Fin cfg0.N) (i : S16x256x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_1).slice (win0_2.rect t)).set ↔ _
  rw [View.set_slice_whole, Rect.mem_set_unit]
  exact Iff.rfl

/-- The grid point of batch row b. -/
def pt0 (b : Fin 16) : Fin cfg0.N := ⟨b.val, by rw [show cfg0.N = 16 from N_0]; exact b.isLt⟩

/-- Every index of the mean array is in the block of the point of its own row. -/
theorem cover0_1 (i : S16x256x1.Idx) : ∃ t : Fin cfg0.N, (cfg0.win 1).flush t = true ∧ i ∈ ((cfg0.win 1).blk t).view.set := by
  refine ⟨pt0 (i 0), flush0_1 _, ?_⟩
  rw [mem_blk0_1]
  obtain ⟨e0, e1, e2, e3, e4, e5, e6, e7, e8⟩ := index0 (pt0 (i 0))
  have ht : (pt0 (i 0)).val = (i 0).val := rfl
  have h1 : (i 1).val < 256 := (i 1).isLt
  have h2 : (i 2).val < 1 := (i 2).isLt
  intro a
  match a with
  | ⟨0, _⟩ => show win0_1.index (pt0 (i 0)) (0 : Fin 3) * 1 ≤ (i 0).val ∧ (i 0).val < win0_1.index (pt0 (i 0)) (0 : Fin 3) * 1 + 1; omega
  | ⟨1, _⟩ => show win0_1.index (pt0 (i 0)) (1 : Fin 3) * 256 ≤ (i 1).val ∧ (i 1).val < win0_1.index (pt0 (i 0)) (1 : Fin 3) * 256 + 256; omega
  | ⟨2, _⟩ => show win0_1.index (pt0 (i 0)) (2 : Fin 3) * 1 ≤ (i 2).val ∧ (i 2).val < win0_1.index (pt0 (i 0)) (2 : Fin 3) * 1 + 1; omega

/-- Every index of the variance array is in the block of the point of its own row. -/
theorem cover0_2 (i : S16x256x1.Idx) : ∃ t : Fin cfg0.N, (cfg0.win 2).flush t = true ∧ i ∈ ((cfg0.win 2).blk t).view.set := by
  refine ⟨pt0 (i 0), flush0_2 _, ?_⟩
  rw [mem_blk0_2]
  obtain ⟨e0, e1, e2, e3, e4, e5, e6, e7, e8⟩ := index0 (pt0 (i 0))
  have ht : (pt0 (i 0)).val = (i 0).val := rfl
  have h1 : (i 1).val < 256 := (i 1).isLt
  have h2 : (i 2).val < 1 := (i 2).isLt
  intro a
  match a with
  | ⟨0, _⟩ => show win0_2.index (pt0 (i 0)) (0 : Fin 3) * 1 ≤ (i 0).val ∧ (i 0).val < win0_2.index (pt0 (i 0)) (0 : Fin 3) * 1 + 1; omega
  | ⟨1, _⟩ => show win0_2.index (pt0 (i 0)) (1 : Fin 3) * 256 ≤ (i 1).val ∧ (i 1).val < win0_2.index (pt0 (i 0)) (1 : Fin 3) * 256 + 256; omega
  | ⟨2, _⟩ => show win0_2.index (pt0 (i 0)) (2 : Fin 3) * 1 ≤ (i 2).val ∧ (i 2).val < win0_2.index (pt0 (i 0)) (2 : Fin 3) * 1 + 1; omega

/-- The mean array after the region: at (b, c, 0) the stored mean of row b's block at channel c. -/
theorem arr0_1 (c : Dev nD) : (dat0 V c).arrAt 1 cfg0.N = meanArr (V c main_arg0) :=
  (dat0 V c).arrAt_eq_of_cover 1 (meanArr (V c main_arg0)) (fun t _ => flushed0_1_eq V c t) cover0_1

/-- The variance array after the region: at (b, c, 0) the stored variance of row b's block at channel c. -/
theorem arr0_2 (c : Dev nD) : (dat0 V c).arrAt 2 cfg0.N = varArr (V c main_arg0) :=
  (dat0 V c).arrAt_eq_of_cover 2 (varArr (V c main_arg0)) (fun t _ => flushed0_2_eq V c t) cover0_2

end Cert.KernelIdeal.Hand

end
-- ==== Proof.KITransformValue.lean ====
/-
  From blocks to the array, for the transform kernel (the second kernel region).

  The region runs over a grid of 16 × 4 points; point t has coordinates (b, l) = (t / 4, t % 4). At (b, l) the data
  window and the result window sit at block (b, 0, l) of their [16, 256, 16384] arrays (blocks of [1, 256, 4096]) and the
  parameter window at block (b, 0, 0) of its [16, 256, 4] array (blocks of [1, 256, 4]). The two input arrays are
  never written. The result window is written back at every point, and what point (b, l) writes is the stored blend
  of the data tile (b, l), the parameter block of row b and the table's word of row b. The 64 blocks tile the result
  array — position p of row b lies in the block of point (b, p / 4096), at p % 4096 inside it —, so after the
  write-backs the array is, index by index, one function of the two input arrays and the table.

  Here: where the result window is written back; the three index maps at a point, and that every (b, l) is some
  point's coordinates; the input windows' blocks as tiles of their arrays; the written-back block as the block of
  that one function; membership in a block by coordinate ranges; the cover; the three arrays after the region.
-/
import proofs.«410772_j7524782702974_2_alg».proof.Proof.KITerms
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
-- the TensorCore's buffer contents when the region is entered, and admissible contents of the prefetched table
variable (V : (c : Dev nD) → (b : Ref sig .tc) → Buf (Elt F) ((c : Thread nD τ).loc b))
variable (a : (pcfg1 (F := F)).Adm)

/-! ## The schedule and the index maps, decided over the 64 points -/

/-- The result window is written back at every point: its index map reads both grid axes, so consecutive points
    never share a block. -/
theorem flush1_2 : ∀ t : Fin (cfg1 a).N, ((cfg1 a).win 2).flush t = true :=
  (by decide +kernel : ∀ t : Fin grid1.N, Pipeline.Window.flushOf grid1 true cc1_transform_2 t = true)

/-- The three index maps at a point with coordinates (b, l): the data and the result window at block (b, 0, l), the
    parameter window at block (b, 0, 0). -/
theorem idx1_facts : ∀ t : Fin grid1.N,
      cc1_transform_0 (grid1.coords t) 0 = (grid1.coords t 0).val ∧ cc1_transform_0 (grid1.coords t) 1 = 0 ∧ cc1_transform_0 (grid1.coords t) 2 = (grid1.coords t 1).val
    ∧ cc1_transform_1 (grid1.coords t) 0 = (grid1.coords t 0).val ∧ cc1_transform_1 (grid1.coords t) 1 = 0 ∧ cc1_transform_1 (grid1.coords t) 2 = 0
    ∧ cc1_transform_2 (grid1.coords t) 0 = (grid1.coords t 0).val ∧ cc1_transform_2 (grid1.coords t) 1 = 0 ∧ cc1_transform_2 (grid1.coords t) 2 = (grid1.coords t 1).val :=
  by decide +kernel

/-- Every pair (b, l) is the coordinates of some point. -/
theorem pt_onto : ∀ (b : Fin 16) (l : Fin 4), ∃ t : Fin grid1.N, (grid1.coords t 0).val = b.val ∧ (grid1.coords t 1).val = l.val :=
  by decide +kernel

/-- Every block of the result window lies inside the array. -/
theorem blk_inb1_2 : ∀ t : Fin grid1.N, ∀ d : Fin 3,
    cc1_transform_2 (grid1.coords t) d * S1x256x4096.size d + S1x256x4096.size d ≤ S16x256x16384.size d :=
  by decide +kernel

/-! ## The input arrays -/

/-- The data array is an input: never written back, it stays as the region finds it. -/
theorem arr1_0 (c : Dev nD) : (dat1 V a c).arrAt 0 (cfg1 a).N = V c main_arg0 :=
  ((dat1 V a c).arrAt_in 0 rfl _).trans (A_eq1 V a c 0)

/-- So is the parameter array. -/
theorem arr1_1 (c : Dev nD) : (dat1 V a c).arrAt 1 (cfg1 a).N = V c main_v26 :=
  ((dat1 V a c).arrAt_in 1 rfl _).trans (A_eq1 V a c 1)

/-! ## The result array at an index, and the input windows' blocks -/

theorem hz3 : (![0, 0, 0] : Fin 3 → Nat) = fun _ => 0 := funext fun a => by fin_cases a <;> rfl

/-- A grid point is the point of its two coordinates. -/
theorem pt_eta (i : grid1.Coords) : pt (i 0) (i 1) = i := by
  funext d; match d with | ⟨0, _⟩ => rfl | ⟨1, _⟩ => rfl

/-- The result function at an index k = (b, c, l · 4096 + q) with q < 4096: the stored blend of tile (b, l), the
    parameter block of row b and the row's word, at (0, c, q) of the block. -/
theorem outArr_apply (tbl : pre1.Contents (Elt F)) (x : FVec F S16x256x16384 .f32) (p : FVec F S16x256x4 .f32)
    (k : S16x256x16384.Idx) (b : Fin 16) (l : Fin 4) (y : S1x256x4096.Idx)
    (hb : (k 0).val = b.val) (hl : (k 2).val / 4096 = l.val)
    (hy0 : (y 0).val = 0) (hy1 : (y 1).val = (k 1).val) (hy2 : (y 2).val = (k 2).val % 4096) :
    outArr tbl x p k = k1_pay1 (pt b l) (View.ld (tileBlk x b l) whole1) (View.ld (parBlk p b) whole1p) (word1 tbl (pt b l)) y := by
  obtain rfl : b = k 0 := Fin.ext hb.symm
  have hlt : (k 2).val / 4096 < 4 := Nat.div_lt_of_lt_mul (k 2).isLt
  obtain rfl : l = ⟨(k 2).val / 4096, hlt⟩ := Fin.ext hl.symm
  obtain rfl : y = ix3 0 (k 1) ⟨(k 2).val % 4096, Nat.mod_lt _ (by norm_num)⟩ := by
    funext d; apply Fin.ext
    match d with
    | ⟨0, _⟩ => exact hy0
    | ⟨1, _⟩ => exact hy1
    | ⟨2, _⟩ => exact hy2
  rfl

/-- The data window's block at a point is the tile of the point's row and position tile: a block's coordinate in
    the array is the block index times the block's size plus the coordinate inside the block. -/
theorem iblk1_0_eq (c : Dev nD) (t : Fin (cfg1 a).N) :
    (iblk1 V a c 0 t : Vec F S1x256x4096 .f32) = tileBlk (V c main_arg0) (grid1.coords t 0) (grid1.coords t 1) := by
  obtain ⟨e0, e1, e2, -⟩ := idx1_facts t
  refine funext fun (y : S1x256x4096.Idx) => ?_
  unfold iblk1 tileBlk
  show V c main_arg0 ((((cfg1 a).win 0).blk t).view.emb y) = V c main_arg0 _
  congr 1
  funext d; apply Fin.ext
  match d with
  | ⟨0, _⟩ => show cc1_transform_0 (grid1.coords t) 0 * 1 + 1 * (y 0).val = (grid1.coords t 0).val; have hy : (y 0).val < 1 := (y 0).isLt; omega
  | ⟨1, _⟩ => show cc1_transform_0 (grid1.coords t) 1 * 256 + 1 * (y 1).val = (y 1).val; omega
  | ⟨2, _⟩ => show cc1_transform_0 (grid1.coords t) 2 * 4096 + 1 * (y 2).val = (grid1.coords t 1).val * 4096 + (y 2).val; omega

/-- The parameter window's block at a point is the parameter block of the point's row. -/
theorem iblk1_1_eq (c : Dev nD) (t : Fin (cfg1 a).N) :
    (iblk1 V a c 1 t : Vec F S1x256x4 .f32) = parBlk (V c main_v26) (grid1.coords t 0) := by
  obtain ⟨-, -, -, e0, e1, e2, -⟩ := idx1_facts t
  refine funext fun (y : S1x256x4.Idx) => ?_
  unfold iblk1 parBlk
  show V c main_v26 ((((cfg1 a).win 1).blk t).view.emb y) = V c main_v26 _
  congr 1
  funext d; apply Fin.ext
  match d with
  | ⟨0, _⟩ => show cc1_transform_1 (grid1.coords t) 0 * 1 + 1 * (y 0).val = (grid1.coords t 0).val; have hy : (y 0).val < 1 := (y 0).isLt; omega
  | ⟨1, _⟩ => show cc1_transform_1 (grid1.coords t) 1 * 256 + 1 * (y 1).val = (y 1).val; omega
  | ⟨2, _⟩ => show cc1_transform_1 (grid1.coords t) 2 * 4 + 1 * (y 2).val = (y 2).val; omega

/-! ## What a point writes back -/

/-- What point t writes back to the result array is block t of the result function of the two input arrays as the
    region finds them: the body's one store covers the whole block, its payload is the blend of the point's two input
    blocks and the point's word, and those blocks are the tiles the result function reads at the block's indices. -/
theorem flushed1_2_eq (c : Dev nD) (t : Fin (cfg1 a).N) :
    (dat1 V a c).flushed 2 t = (((cfg1 a).win 2).blk t).view.read (Elt F) (outArr a.1 (V c main_arg0) (V c main_v26)) := by
  show ((cfg1 a).win 2).cut ((cfg1 a).grid.coords t) ((dat1 V a c).after 2 t) = _
  rw [after1_2]
  unfold out1_2
  rw [View.canon_unit_zero hz3]
  obtain ⟨-, -, -, -, -, -, e0, e1, e2⟩ := idx1_facts t
  refine funext fun (j : S1x256x4096.Idx) => ?_
  show k1_pay1 (grid1.coords t) (View.ld (iblk1 V a c 0 t) whole1) (View.ld (iblk1 V a c 1 t) whole1p) (word1 a.1 (grid1.coords t))
        (((cfg1 a).win 2).xinj ((cfg1 a).grid.coords t) j)
      = outArr a.1 (V c main_arg0) (V c main_v26) ((((cfg1 a).win 2).blk t).view.emb j)
  have hj0 : (j 0).val < 1 := (j 0).isLt
  have hj2 : (j 2).val < 4096 := (j 2).isLt
  rw [outArr_apply a.1 (V c main_arg0) (V c main_v26) ((((cfg1 a).win 2).blk t).view.emb j) (grid1.coords t 0) (grid1.coords t 1)
        (((cfg1 a).win 2).xinj ((cfg1 a).grid.coords t) j)
        (by show cc1_transform_2 (grid1.coords t) 0 * 1 + 1 * (j 0).val = (grid1.coords t 0).val; omega)
        (by show (cc1_transform_2 (grid1.coords t) 2 * 4096 + 1 * (j 2).val) / 4096 = (grid1.coords t 1).val; omega)
        (by show (j 0).val = 0; omega)
        (by show (j 1).val = cc1_transform_2 (grid1.coords t) 1 * 256 + 1 * (j 1).val; omega)
        (by show (j 2).val = (cc1_transform_2 (grid1.coords t) 2 * 4096 + 1 * (j 2).val) % 4096; omega),
      pt_eta, iblk1_0_eq, iblk1_1_eq]
  rfl

/-! ## The blocks tile the result array -/

/-- An index of the result array is in a point's block iff each coordinate is in the block's range on its axis. -/
theorem mem_blk1_2 (t : Fin (cfg1 a).N) (i : S16x256x16384.Idx) :
    i ∈ (((cfg1 a).win 2).blk t).view.set ↔
      ∀ d : Fin 3, cc1_transform_2 (grid1.coords t) d * S1x256x4096.size d ≤ (i d).val
        ∧ (i d).val < cc1_transform_2 (grid1.coords t) d * S1x256x4096.size d + S1x256x4096.size d := by
  show i ∈ ((View.whole main_v27).slice (Rect.unit (s := S16x256x16384) (fun d => cc1_transform_2 (grid1.coords t) d * S1x256x4096.size d) S1x256x4096.size (blk_inb1_2 t))).set ↔ _
  rw [View.set_slice_whole, Rect.mem_set_unit]
  exact Iff.rfl

/-- Every index (b, c, p) of the result array is in the block of the point (b, p / 4096), which is written back. -/
theorem coverArr1_2 (i : S16x256x16384.Idx) :
    ∃ t : Fin (cfg1 a).N, ((cfg1 a).win 2).flush t = true ∧ i ∈ (((cfg1 a).win 2).blk t).view.set := by
  have hi0 : (i 0).val < 16 := (i 0).isLt
  have hi1 : (i 1).val < 256 := (i 1).isLt
  have hi2 : (i 2).val < 16384 := (i 2).isLt
  obtain ⟨t, hb, hl⟩ := pt_onto ⟨(i 0).val, hi0⟩ ⟨(i 2).val / 4096, by omega⟩
  have hb' : (grid1.coords t 0).val = (i 0).val := hb
  have hl' : (grid1.coords t 1).val = (i 2).val / 4096 := hl
  obtain ⟨-, -, -, -, -, -, e0, e1, e2⟩ := idx1_facts t
  refine ⟨t, flush1_2 a t, ?_⟩
  rw [mem_blk1_2]
  intro d
  match d with
  | ⟨0, _⟩ =>
    show cc1_transform_2 (grid1.coords t) 0 * 1 ≤ (i 0).val ∧ (i 0).val < cc1_transform_2 (grid1.coords t) 0 * 1 + 1
    omega
  | ⟨1, _⟩ =>
    show cc1_transform_2 (grid1.coords t) 1 * 256 ≤ (i 1).val ∧ (i 1).val < cc1_transform_2 (grid1.coords t) 1 * 256 + 256
    omega
  | ⟨2, _⟩ =>
    show cc1_transform_2 (grid1.coords t) 2 * 4096 ≤ (i 2).val ∧ (i 2).val < cc1_transform_2 (grid1.coords t) 2 * 4096 + 4096
    omega

/-! ## The result array after the region -/

/-- The result array after the region's write-backs: the blend, block by block, as one function of the two input
    arrays the region finds and the table's contents. -/
theorem arr1_2 (c : Dev nD) : (dat1 V a c).arrAt 2 (cfg1 a).N = outArr a.1 (V c main_arg0) (V c main_v26) :=
  (dat1 V a c).arrAt_eq_of_cover 2 (outArr a.1 (V c main_arg0) (V c main_v26)) (fun t _ => flushed1_2_eq V a c t) (coverArr1_2 a)

end Cert.KernelIdeal.Hand

end
-- ==== Proof.RefTerms.lean ====
/-
  What the reference computes, as pure terms of its four arguments: the printed host operations composed.
  Per (batch row, channel): the mean over the 16384 positions (the sum over 16384), the unbiased variance (the
  summed squared deviations from that mean over 16384 - 1, guarded by 16384 - 1 > 0), the standard deviation
  sqrt (var + eps); per channel the spread over the 16 batch rows of the means and of the standard deviations
  (the same unbiased variance over axis 0, then sqrt (· + eps)); beta = mean + e1 · spread of the means,
  gamma = std + e2 · spread of the stds; the row's mask, one on the positions p with starts ≤ p < starts + 12288
  and zero elsewhere; the result (x - mean) / std · gamma + beta under the mask and x off it.
-/
import proofs.«410772_j7524782702974_2_alg».proof.ReferenceIdeal
import proofs.«410772_j7524782702974_2_alg».proof.Proof.Gen.ReferenceIdeal

noncomputable section

namespace Cert.ReferenceIdeal.Hand

open Idealize.ShloMosaic
open Cert.ReferenceIdeal Cert.ReferenceIdeal.Facts₀

variable {F : FTy → Type} [FloatOps F]

/-- A scalar float literal spread over a shape's worth of positions is written where it is used; the three literals:
    zero, the count 16384 and the count 16, the guard's quiet NaN, eps and one. -/
abbrev zeroS : FVec F S_ .f32 := constant S_ .f32 0x00000000#32
abbrev oneI : IVec S_ 32 := constantI S_ 32 1#32

/-- The row means: the sum over the positions, over 16384. -/
def mean (x : FVec F S16x256x16384 .f32) : FVec F S16x256 .f32 :=
  Host.divf (Host.reduceAdd x (zeroS (F := F)) reducesTo_S16x256x16384_S16x256_d2 h_S_)
    (broadcastInDim S16x256 ![] bcast_S_S16x256 (constant S_ .f32 0x46800000#32))

/-- The count less the correction, as the reference computes it: 16384 - float 1. -/
def cnt1 : FVec F S_ .f32 := subf (constant S_ .f32 0x46800000#32) (sitofp .f32 (oneI))

/-- The row variances: the squared deviations from the row mean summed, over the corrected count, where that count
    is positive (else the quiet NaN). -/
def var (x : FVec F S16x256x16384 .f32) : FVec F S16x256 .f32 :=
  let v0 : FVec F S16x256 .f32 := Host.reduceAdd x (zeroS (F := F)) reducesTo_S16x256x16384_S16x256_d2 h_S_
  let v1 : FVec F S16x256x1 .f32 := broadcastInDim S16x256x1 ![0, 1] bcast_S16x256_S16x256x1_0_1 v0
  let v2 : FVec F S16x256x1 .f32 := broadcastInDim S16x256x1 ![] bcast_S_S16x256x1 (constant S_ .f32 0x46800000#32)
  let v3 : FVec F S16x256x1 .f32 := Host.divf v1 v2
  let v4 : FVec F S16x256x16384 .f32 := broadcastInDim S16x256x16384 ![0, 1, 2] bcast_S16x256x1_S16x256x16384_0_1_2 v3
  let v5 : FVec F S16x256x16384 .f32 := subf x v4
  let v6 : FVec F S16x256x16384 .f32 := mulf v5 v5
  let v9 : FVec F S16x256 .f32 := Host.reduceAdd v6 (zeroS (F := F)) reducesTo_S16x256x16384_S16x256_d2 h_S_
  let v10 : FVec F S16x256 .f32 := broadcastInDim S16x256 ![] bcast_S_S16x256 (cnt1 (F := F))
  let v11 : FVec F S16x256 .f32 := Host.divf v9 v10
  let v12 : IVec S_ 1 := cmpf .ogt (cnt1 (F := F)) (zeroS (F := F))
  let w1 : FVec F S16x256 .f32 := broadcastInDim S16x256 ![] bcast_S_S16x256 (id (constant S_ .f32 0x7FC00000#32))
  select (broadcastInDim S16x256 ![] bcast_S_S16x256 v12) v11 w1

/-- sqrt (· + eps) on a [16, 256] array. -/
def sqrtEps (a : FVec F S16x256 .f32) : FVec F S16x256 .f32 :=
  Host.sqrt (addf a (broadcastInDim S16x256 ![] bcast_S_S16x256 (constant S_ .f32 0x358637BD#32)))

/-- The row standard deviations. -/
def std (x : FVec F S16x256x16384 .f32) : FVec F S16x256 .f32 := sqrtEps (var x)

/-- The count of batch rows less the correction: 16 - float 1. -/
def cnt16 : FVec F S_ .f32 := subf (constant S_ .f32 0x41800000#32) (sitofp .f32 (oneI))

/-- The unbiased variance over the 16 batch rows, per channel, of a [16, 256] array. -/
def var16 (a : FVec F S16x256 .f32) : FVec F S256 .f32 :=
  let v0 : FVec F S256 .f32 := Host.reduceAdd a (zeroS (F := F)) reducesTo_S16x256_S256_d0 h_S_
  let v1 : FVec F S1x256 .f32 := broadcastInDim S1x256 ![1] bcast_S256_S1x256_1 v0
  let v2 : FVec F S1x256 .f32 := broadcastInDim S1x256 ![] bcast_S_S1x256 (constant S_ .f32 0x41800000#32)
  let v3 : FVec F S1x256 .f32 := Host.divf v1 v2
  let v4 : FVec F S16x256 .f32 := broadcastInDim S16x256 ![0, 1] bcast_S1x256_S16x256_0_1 v3
  let v5 : FVec F S16x256 .f32 := subf a v4
  let v6 : FVec F S16x256 .f32 := mulf v5 v5
  let v9 : FVec F S256 .f32 := Host.reduceAdd v6 (zeroS (F := F)) reducesTo_S16x256_S256_d0 h_S_
  let v10 : FVec F S256 .f32 := broadcastInDim S256 ![] bcast_S_S256 (cnt16 (F := F))
  let v11 : FVec F S256 .f32 := Host.divf v9 v10
  let v12 : IVec S_ 1 := cmpf .ogt (cnt16 (F := F)) (zeroS (F := F))
  let w1 : FVec F S256 .f32 := broadcastInDim S256 ![] bcast_S_S256 (id (constant S_ .f32 0x7FC00000#32))
  select (broadcastInDim S256 ![] bcast_S_S256 v12) v11 w1

/-- The spread sqrt (var16 a + eps) of a [16, 256] array over its batch rows, repeated on every row. -/
def spread (a : FVec F S16x256 .f32) : FVec F S16x256 .f32 :=
  let v9 : FVec F S256 .f32 := addf (var16 a) (broadcastInDim S256 ![] bcast_S_S256 (constant S_ .f32 0x358637BD#32))
  let v10 : FVec F S256 .f32 := Host.sqrt v9
  let v15 : FVec F S1x256 .f32 := broadcastInDim S1x256 ![1] bcast_S256_S1x256_1 v10
  broadcastInDim S16x256 ![0, 1] bcast_S1x256_S16x256_0_1 v15

/-- beta = mean + e1 · the spread of the means. -/
def beta (x : FVec F S16x256x16384 .f32) (e1 : FVec F S16x256 .f32) : FVec F S16x256 .f32 :=
  addf (mean x) (mulf e1 (spread (mean x)))
/-- gamma = std + e2 · the spread of the stds. -/
def gamma (x : FVec F S16x256x16384 .f32) (e2 : FVec F S16x256 .f32) : FVec F S16x256 .f32 :=
  addf (std x) (mulf e2 (spread (std x)))

/-- A per-(row, channel) statistic repeated along the positions. -/
def along (a : FVec F S16x256 .f32) : FVec F S16x256x16384 .f32 :=
  broadcastInDim S16x256x16384 ![0, 1, 2] bcast_S16x256x1_S16x256x16384_0_1_2
    (broadcastInDim S16x256x1 ![0, 1] bcast_S16x256_S16x256x1_0_1 a)

/-- The normalized, re-scaled signal (x - mean) / std · gamma + beta. -/
def xhat (x : FVec F S16x256x16384 .f32) (e1 e2 : FVec F S16x256 .f32) : FVec F S16x256x16384 .f32 :=
  addf (mulf (Host.divf (subf x (along (mean x))) (along (std x))) (along (gamma x e2))) (along (beta x e1))

/-- The positions 0 … 16383 repeated on every batch row. -/
def pos : IVec S16x16384 32 :=
  broadcastInDim S16x16384 ![0, 1] bcast_S1x16384_S16x16384_0_1
    (broadcastInDim S1x16384 ![1] bcast_S16384_S1x16384_1 (iotaInDim S16384 32 0))

/-- A per-row word repeated along the positions. -/
def perRow (r : IVec S16x1 32) : IVec S16x16384 32 := broadcastInDim S16x16384 ![0, 1] bcast_S16x1_S16x16384_0_1 r

/-- The rows' masks as floats: one where starts ≤ p < starts + 12288 (signed, wrapping 32-bit words), else zero. -/
def mask (s : IVec S16 32) : FVec F S16x1x16384 .f32 :=
  let v37 : IVec S16x1 32 := broadcastInDim S16x1 ![0] bcast_S16_S16x1_0 s
  let v40 : IVec S16x16384 1 := cmpi .sge pos (perRow v37)
  let v44 : IVec S16x1 32 := addi v37 (broadcastInDim S16x1 ![] bcast_S_S16x1 (constantI S_ 32 12288#32))
  let v47 : IVec S16x16384 1 := cmpi .slt pos (perRow v44)
  let v48 : IVec S16x16384 1 := andi v40 v47
  broadcastInDim S16x1x16384 ![0, 2] bcast_S16x16384_S16x1x16384_0_2 (uitofp .f32 v48)

/-- A per-(row, position) factor repeated over the channels. -/
def overCh (a : FVec F S16x1x16384 .f32) : FVec F S16x256x16384 .f32 :=
  broadcastInDim S16x256x16384 ![0, 1, 2] bcast_S16x1x16384_S16x256x16384_0_1_2 a

/-- The reference's result: the normalized signal under the mask, the signal itself off it. -/
def out (x : FVec F S16x256x16384 .f32) (e1 e2 : FVec F S16x256 .f32) (s : IVec S16 32) : FVec F S16x256x16384 .f32 :=
  addf (mulf (xhat x e1 e2) (overCh (mask s)))
    (mulf x (overCh (subf (broadcastInDim S16x1x16384 ![] bcast_S_S16x1x16384 (constant S_ .f32 0x3F800000#32)) (mask s))))

end Cert.ReferenceIdeal.Hand

end
-- ==== Proof.BridgeStats.lean ====
/-
  The statistics are the reference's, at the extended reals.

  For a batch row b and a channel c the kernel stores the mean (0 + s0 + s1 + … + s7) / 16384, s_k the sum of the
  2048 lanes of strip k (positions 2048 k … 2048 k + 2047) of the row, and the variance (0 + q0 + … + q7) / 16383,
  q_k the sum over strip k of (x - mean)², the mean being the stored one repeated along the lanes. The reference takes
  (0 + Σ over the 16384 positions) / 16384 and, under the guard 16384 - 1 > 0, (0 + Σ (x - mean)²) / (16384 - 1).

  Extended-real addition is a commutative monoid, so the sum over the 16384 positions regroups into the eight strip
  sums with no finiteness hypothesis: positions are 2048 k + i for a unique (k, i), the sum over pairs is the
  iterated sum, and the sum over the eight k is written out. The literals: the word 0x46800000 is 16384, the word
  0x467FFC00 is 16383, float 1 is 1 and 16384 - 1 = 16383 > 0, so the guard selects the quotient, and the two
  divisors are one number.

  Each side is read at an index (b, c): the kernel's flattened statistics array at (b, c) is the stored payload of
  row b's block at (0, c, 0); a kept lane sum at (0, c, 0) is the sum over the lanes at channel c; strip k at
  (0, c, i) is the block at (0, c, 2048 k + i); a column repeated along the lanes reads the column. The reference's
  host sum at (b, c) is its initial value plus the sum over the positions, and its broadcasts read the operand at
  the kept coordinates.
-/
import proofs.«410772_j7524782702974_2_alg».proof.Proof.KITerms
import proofs.«410772_j7524782702974_2_alg».proof.Proof.RefTerms
import Idealize.ShloMosaic.Lib.IdealHost
import Idealize.ShloMosaic.Lib.ValueLayout
import Mathlib.Algebra.BigOperators.Fin

noncomputable section

namespace Cert.Bridge

open Idealize.ShloMosaic Idealize.ShloMosaic.ValueIdx
open Cert.KernelIdeal Cert.KernelIdeal.Gen

/-! ## Regrouping a sum over 16384 positions into eight strips of 2048 -/

/-- Position 2048 k + i of a row. -/
def posn (k : Fin 8) (i : Fin 2048) : Fin 16384 := ⟨2048 * k.val + i.val, by have := k.isLt; have := i.isLt; omega⟩

/-- A sum over the 16384 positions is the sum over the eight strips of the sums over their 2048 lanes, in any
    commutative monoid: every position is 2048 k + i for exactly one pair (k, i). -/
theorem sum_strips {M : Type*} [AddCommMonoid M] (f : Fin 16384 → M) (g : Fin 8 → Fin 2048 → Fin 16384)
    (hg : ∀ k i, (g k i).val = 2048 * k.val + i.val) :
    ∑ p, f p = ∑ k : Fin 8, ∑ i : Fin 2048, f (g k i) := by
  have e : ∀ k i, g k i = finProdFinEquiv (m := 8) (n := 2048) (k, i) := fun k i =>
    Fin.ext (by rw [hg]; show _ = i.val + 2048 * k.val; omega)
  simp only [e]
  rw [← Fintype.sum_prod_type (fun x : Fin 8 × Fin 2048 => f (finProdFinEquiv (m := 8) (n := 2048) x))]
  exact (Equiv.sum_comp (finProdFinEquiv (m := 8) (n := 2048)) f).symm

/-- A sum over the 16384 positions added to a, strip by strip in the kernel's order. -/
theorem regroup {M : Type*} [AddCommMonoid M] (a : M) (f : Fin 16384 → M) :
    a + ∑ p, f p = a + (∑ i, f (posn 0 i)) + (∑ i, f (posn 1 i)) + (∑ i, f (posn 2 i)) + (∑ i, f (posn 3 i))
      + (∑ i, f (posn 4 i)) + (∑ i, f (posn 5 i)) + (∑ i, f (posn 6 i)) + (∑ i, f (posn 7 i)) := by
  rw [sum_strips f posn (fun _ _ => rfl), Fin.sum_univ_eight]
  simp only [add_assoc]

/-- Sums of four and of five terms agree termwise. -/
theorem add4 {a a' b b' c c' d d' : EReal} (ha : a = a') (hb : b = b') (hc : c = c') (hd : d = d') :
    a + b + c + d = a' + b' + c' + d' := by rw [ha, hb, hc, hd]

theorem add5 {a a' b b' c c' d d' e e' : EReal} (ha : a = a') (hb : b = b') (hc : c = c') (hd : d = d') (he : e = e') :
    a + b + c + d + e = a' + b' + c' + d' + e' := by rw [ha, hb, hc, hd, he]

/-! ## The literals -/

/-- The word 0x46800000 is 2²³ · 2⁻⁹ = 16384. -/
theorem ofBits_16384 : Ideal.ofBits .f32 0x46800000#32 = ((16384 : ℝ) : EReal) := by
  simp [Ideal.ofBits, Ideal.ieee, -EReal.coe_mul]; norm_num

/-- The word 0x467FFC00 is (2²³ + 8387584) · 2⁻¹⁰ = 16383. -/
theorem ofBits_16383 : Ideal.ofBits .f32 0x467FFC00#32 = ((16383 : ℝ) : EReal) := by
  simp [Ideal.ofBits, Ideal.ieee, -EReal.coe_mul]; norm_num

/-- The reference's corrected count 16384 - float 1 is 16383. -/
theorem cnt1_apply (j : S_.Idx) : Cert.ReferenceIdeal.Hand.cnt1 (F := Ideal) j = ((16383 : ℝ) : EReal) := by
  show Ideal.ofBits .f32 0x46800000#32 - (((1#32 : BitVec 32).toInt : ℝ) : EReal) = _
  rw [ofBits_16384, ← EReal.coe_sub]
  have : ((1#32 : BitVec 32).toInt : ℝ) = 1 := by norm_num [BitVec.toInt]
  rw [this]; norm_num

/-- The reference's guard 16384 - 1 > 0 holds. -/
theorem guard_apply (j : S_.Idx) :
    cmpf .ogt (Cert.ReferenceIdeal.Hand.cnt1 (F := Ideal)) (constant (F := Ideal) S_ .f32 0x00000000#32) j = 1#1 := by
  show Ideal.cmp .ogt (Cert.ReferenceIdeal.Hand.cnt1 (F := Ideal) j) (Ideal.ofBits .f32 0x00000000#32) = 1#1
  rw [cnt1_apply, Ideal.ofBits_zero_f32]
  have : (0 : EReal) < ((16383 : ℝ) : EReal) := EReal.coe_pos.mpr (by norm_num)
  simp [Ideal.cmp, this]

/-- A select under a guard that holds is its first branch. -/
theorem select_of {α : Type} {cnd : BitVec 1} {a a' b : α} (hc : cnd = 1#1) (ha : a = a') : Scalar.select cnd a b = a' := by
  subst hc ha; exact select_one _ _

/-! ## Layout operations read at an index -/

/-- A [1, 256] array kept as a column [1, 256, 1] reads, at (0, c, 0), the array at (0, c). -/
theorem cast_col_apply {α : Type} (v : S1x256.Idx → α) (h : S1x256.ShapeCasts S1x256x1) (c : Fin 256) :
    shapeCast S1x256x1 v h (ix3 (0 : Fin 1) c (0 : Fin 1)) = v (ix2 (0 : Fin 1) c) :=
  shapeCast_apply v h _ _ (by
    rw [Shape.rowMajor_val_three, Shape.rowMajor_val_two]
    show 0 * 256 + c.val = (0 * 256 + c.val) * 1 + 0
    omega)

/-- A [16, 256, 1] array flattened to [16, 256] reads, at (b, c), the array at (b, c, 0). -/
theorem flat_apply {α : Type} (v : S16x256x1.Idx → α) (h : S16x256x1.ShapeCasts S16x256) (b : Fin 16) (c : Fin 256) :
    shapeCast S16x256 v h (ix2 b c) = v (ix3 b c (0 : Fin 1)) :=
  shapeCast_apply v h _ _ (by
    rw [Shape.rowMajor_val_three, Shape.rowMajor_val_two]
    show (b.val * 256 + c.val) * 1 + 0 = b.val * 256 + c.val
    omega)

/-- A column [1, 256, 1] repeated along the 2048 lanes reads, at (0, c, i), the column at (0, c, 0). -/
theorem along_lanes_apply {α : Type} (v : S1x256x1.Idx → α) (h : S1x256x1.Broadcasts S1x256x2048) (c : Fin 256) (i : Fin 2048) :
    broadcastTo S1x256x2048 v h (ix3 (0 : Fin 1) c i) = v (ix3 (0 : Fin 1) c (0 : Fin 1)) := by
  refine broadcastTo_apply v h _ _ fun ax => ?_
  match ax with
  | ⟨0, _⟩ => rfl
  | ⟨1, _⟩ => rfl
  | ⟨2, _⟩ => rfl

/-- A [16, 256] array as a column [16, 256, 1] reads, at (b, c, 0), the array at (b, c). -/
theorem col_apply {α : Type} (v : S16x256.Idx → α) (h : S16x256.BroadcastsInDim S16x256x1 (![0, 1] : Fin 2 → Fin S16x256x1.rank))
    (b : Fin 16) (c : Fin 256) : broadcastInDim S16x256x1 ![0, 1] h v (ix3 b c (0 : Fin 1)) = v (ix2 b c) := by
  refine broadcastInDim_apply _ h v _ _ fun a => ?_
  match a with
  | ⟨0, _⟩ => rfl
  | ⟨1, _⟩ => rfl

/-- A column [16, 256, 1] repeated along the 16384 positions reads, at (b, c, p), the column at (b, c, 0). -/
theorem along_pos_apply {α : Type} (v : S16x256x1.Idx → α)
    (h : S16x256x1.BroadcastsInDim S16x256x16384 (![0, 1, 2] : Fin 3 → Fin S16x256x16384.rank))
    (b : Fin 16) (c : Fin 256) (p : Fin 16384) :
    broadcastInDim S16x256x16384 ![0, 1, 2] h v (ix3 b c p) = v (ix3 b c (0 : Fin 1)) := by
  refine broadcastInDim_apply _ h v _ _ fun a => ?_
  match a with
  | ⟨0, _⟩ => rfl
  | ⟨1, _⟩ => rfl
  | ⟨2, _⟩ => rfl

/-! ## A lane sum and a strip read at an index -/

/-- The lane sum of a [1, 256, 2048] strip, kept as a column, at channel c: the sum of the strip's 2048 lanes there. -/
theorem laneSum_apply (v : FVec Ideal S1x256x2048 .f32) (h : S1x256x2048.Reduces [2] S1x256) (hc : S1x256.ShapeCasts S1x256x1)
    (c : Fin 256) :
    shapeCast S1x256x1 (multiReduction .add [2] S1x256 v 0x00000000#32 h (.inl rfl) rfl) hc (ix3 (0 : Fin 1) c (0 : Fin 1))
      = ∑ i : Fin 2048, v (ix3 (0 : Fin 1) c i) := by
  refine (cast_col_apply _ hc c).trans ?_
  refine (Ideal.multiReduction_add_single v 0x00000000#32 h (.inl rfl) rfl (ix2 (0 : Fin 1) c)).trans ?_
  refine Finset.sum_congr rfl fun i _ => congrArg v (funext fun a => ?_)
  match a with
  | ⟨0, _⟩ => rfl
  | ⟨1, _⟩ => rfl
  | ⟨2, _⟩ => rfl

/-- Strip k of a [1, 256, 16384] block at (0, c, i) is the block at (0, c, 2048 k + i). -/
theorem strip_apply {α : Type} (x0 : S1x256x16384.Idx → α) (k : Fin 8) (c : Fin 256) (i : Fin 2048) :
    x0 ((Rect.unit (s := S1x256x16384) (k0_off1 (BitVec.ofNat 32 k.val)) S1x256x2048.size (k0_off1_inb k)).idx (ix3 (0 : Fin 1) c i))
      = x0 (ix3 (0 : Fin 1) c (posn k i)) := by
  refine congrArg x0 (funext fun a => Fin.ext ?_)
  show (k0_off1 (BitVec.ofNat 32 k.val)) a + 1 * ((ix3 (0 : Fin 1) c i) a).val = _
  rw [k0_off1_eq k]
  match a with
  | ⟨0, _⟩ => rfl
  | ⟨1, _⟩ => show 0 + 1 * c.val = c.val; omega
  | ⟨2, _⟩ => show 2048 * k.val + 1 * i.val = 2048 * k.val + i.val; omega

/-! ## The kernel's mean payload at an index -/

/-- The lane sum of strip k of a row block at channel c. -/
def stripSum (x0 : Vec Ideal S1x256x16384 .f32) (c : Fin 256) (k : Fin 8) : EReal :=
  ∑ i : Fin 2048, (x0 (ix3 (0 : Fin 1) c (posn k i)) : EReal)

/-- The kept lane sum of strip k, loaded through its rectangle, at channel c. -/
theorem laneSum_ld (x0 : Vec Ideal S1x256x16384 .f32) (k : Fin 8) (h : S1x256x2048.Reduces [2] S1x256)
    (hc : S1x256.ShapeCasts S1x256x1) (c : Fin 256) :
    shapeCast S1x256x1 (multiReduction (F := Ideal) (φ := .f32) .add [2] S1x256
        (View.ld (Val := Elt Ideal) x0 (Rect.unit (s := S1x256x16384) (k0_off1 (BitVec.ofNat 32 k.val)) S1x256x2048.size (k0_off1_inb k)))
        0x00000000#32 h (.inl rfl) rfl) hc (ix3 (0 : Fin 1) c (0 : Fin 1))
      = stripSum x0 c k :=
  (laneSum_apply _ h hc c).trans (Finset.sum_congr rfl fun i _ => strip_apply x0 k c i)

/-- The accumulators start from the zero word: zero. -/
theorem zero_pay_apply (j : S1x256x1.Idx) : k0_pay1 (F := Ideal) j = 0 := Ideal.ofBits_zero_f32

/-- The first four strips' lane sums added to zero, at channel c. -/
theorem sum4_apply (x0 : Vec Ideal S1x256x16384 .f32) (c : Fin 256) :
    Hand.sum4 (F := Ideal) x0 (ix3 (0 : Fin 1) c (0 : Fin 1))
      = 0 + stripSum x0 c 0 + stripSum x0 c 1 + stripSum x0 c 2 + stripSum x0 c 3 :=
  add5 (zero_pay_apply _) (laneSum_ld x0 0 _ _ c) (laneSum_ld x0 1 _ _ c) (laneSum_ld x0 2 _ _ c) (laneSum_ld x0 3 _ _ c)

/-- The sum of the eight strips' lane sums of a row block at channel c, from zero, in the kernel's order. -/
def rowSum8 (x0 : Vec Ideal S1x256x16384 .f32) (c : Fin 256) : EReal :=
  0 + stripSum x0 c 0 + stripSum x0 c 1 + stripSum x0 c 2 + stripSum x0 c 3
    + stripSum x0 c 4 + stripSum x0 c 5 + stripSum x0 c 6 + stripSum x0 c 7

/-- The stored mean of a row block at channel c: the eight strip sums over the literal 16384. -/
theorem meanPay_apply (x0 : Vec Ideal S1x256x16384 .f32) (c : Fin 256) :
    Hand.meanPay (F := Ideal) x0 (ix3 (0 : Fin 1) c (0 : Fin 1))
      = Ideal.div (rowSum8 x0 c) (Ideal.ofBits .f32 0x46800000#32) :=
  congrArg (fun t => Ideal.div t (Ideal.ofBits .f32 0x46800000#32))
    (add5 (sum4_apply x0 c) (laneSum_ld x0 4 _ _ c) (laneSum_ld x0 5 _ _ c) (laneSum_ld x0 6 _ _ c) (laneSum_ld x0 7 _ _ c))

/-! ## The reference's row sum and mean at an index -/

/-- The reference's sum over the positions from the zero word, at (b, c): zero plus the sum over the 16384 positions. -/
theorem refSum_apply (x : FVec Ideal S16x256x16384 .f32) (h' : S16x256x16384.ReducesTo [2] S16x256) (hu : 0 < S_.numel)
    (b : Fin 16) (c : Fin 256) :
    Host.reduceAdd (F := Ideal) x (constant (F := Ideal) S_ .f32 0x00000000#32) h' hu (ix2 b c)
      = 0 + ∑ p : Fin 16384, x (ix3 b c p) := by
  have h : S16x256x16384.Reduces [2] S16x256 := by decide
  refine (hostReduceAdd_apply x _ h' hu (ix2 b c)).trans ?_
  refine (Ideal.hostReduceAdd_single h' h x _ (ix2 b c)).trans ?_
  refine congrArg₂ (· + ·) Ideal.ofBits_zero_f32 (Finset.sum_congr rfl fun p _ => congrArg x (funext fun a => ?_))
  match a with
  | ⟨0, _⟩ => rfl
  | ⟨1, _⟩ => rfl
  | ⟨2, _⟩ => rfl

/-- The reference's mean at (b, c): the row sum from zero over the literal 16384. -/
theorem refMean_apply (x : FVec Ideal S16x256x16384 .f32) (b : Fin 16) (c : Fin 256) :
    Cert.ReferenceIdeal.Hand.mean (F := Ideal) x (ix2 b c)
      = Ideal.div (0 + ∑ p : Fin 16384, x (ix3 b c p)) (Ideal.ofBits .f32 0x46800000#32) :=
  congrArg₂ Ideal.div (refSum_apply x _ _ b c) (broadcastInDim_scalar_apply _ _ _)

/-- The kernel's eight strip sums of row b are the reference's row sum. -/
theorem rowSum8_eq (x : FVec Ideal S16x256x16384 .f32) (b : Fin 16) (c : Fin 256) :
    rowSum8 (Hand.rowBlk x b) c = 0 + ∑ p : Fin 16384, x (ix3 b c p) :=
  (regroup 0 fun p => x (ix3 b c p)).symm

/-- The kernel's mean array, flattened, at (b, c). -/
theorem muK_apply (x : FVec Ideal S16x256x16384 .f32) (b : Fin 16) (c : Fin 256) :
    Hand.muK (Hand.meanArr x) (ix2 b c) = Hand.meanPay (F := Ideal) (Hand.rowBlk x b) (ix3 (0 : Fin 1) c (0 : Fin 1)) :=
  flat_apply _ _ b c

/-- The two means at (b, c): the eight strip sums regroup into the row sum, over the same literal. -/
theorem mean_apply (x : FVec Ideal S16x256x16384 .f32) (b : Fin 16) (c : Fin 256) :
    Hand.muK (Hand.meanArr x) (ix2 b c) = Cert.ReferenceIdeal.Hand.mean (F := Ideal) x (ix2 b c) := by
  rw [muK_apply, meanPay_apply, rowSum8_eq, refMean_apply]

/-- The kernel's row means are the reference's. -/
theorem mean_eq (x : FVec Ideal S16x256x16384 .f32) :
    Hand.muK (Hand.meanArr x) = Cert.ReferenceIdeal.Hand.mean (F := Ideal) x := by
  funext j
  obtain ⟨b, c, rfl⟩ : ∃ (b : Fin 16) (c : Fin 256), j = ix2 b c := ⟨j 0, j 1, eq_ix2 j⟩
  exact mean_apply x b c

/-! ## The kernel's variance payload at an index -/

/-- The lane sum of a strip's squared deviations from a column, kept as a column, at channel c. -/
theorem devSum_apply (v : FVec Ideal S1x256x2048 .f32) (m : FVec Ideal S1x256x1 .f32) (hb : S1x256x1.Broadcasts S1x256x2048)
    (h : S1x256x2048.Reduces [2] S1x256) (hc : S1x256.ShapeCasts S1x256x1) (c : Fin 256) :
    shapeCast S1x256x1 (multiReduction (F := Ideal) .add [2] S1x256
        (mulf (subf v (broadcastTo S1x256x2048 m hb)) (subf v (broadcastTo S1x256x2048 m hb)))
        0x00000000#32 h (.inl rfl) rfl) hc (ix3 (0 : Fin 1) c (0 : Fin 1))
      = ∑ i : Fin 2048, (v (ix3 (0 : Fin 1) c i) - m (ix3 (0 : Fin 1) c (0 : Fin 1)))
          * (v (ix3 (0 : Fin 1) c i) - m (ix3 (0 : Fin 1) c (0 : Fin 1))) := by
  refine (laneSum_apply _ h hc c).trans (Finset.sum_congr rfl fun i _ => ?_)
  simp only [mulf_apply, subf_apply, along_lanes_apply]

/-- The summed squared deviations from μ of strip k of a row block at channel c. -/
def stripDev (x0 : Vec Ideal S1x256x16384 .f32) (μ : EReal) (c : Fin 256) (k : Fin 8) : EReal :=
  ∑ i : Fin 2048, ((x0 (ix3 (0 : Fin 1) c (posn k i)) : EReal) - μ) * ((x0 (ix3 (0 : Fin 1) c (posn k i)) : EReal) - μ)

/-- The same of strip k loaded through its rectangle: the strip's squared deviations from the column's entry at c. -/
theorem devSum_ld (x0 : Vec Ideal S1x256x16384 .f32) (m : FVec Ideal S1x256x1 .f32) (k : Fin 8)
    (hb : S1x256x1.Broadcasts S1x256x2048) (h : S1x256x2048.Reduces [2] S1x256) (hc : S1x256.ShapeCasts S1x256x1) (c : Fin 256) :
    shapeCast S1x256x1 (multiReduction (F := Ideal) (φ := .f32) .add [2] S1x256
        (mulf
          (subf (View.ld (Val := Elt Ideal) x0 (Rect.unit (s := S1x256x16384) (k0_off1 (BitVec.ofNat 32 k.val)) S1x256x2048.size (k0_off1_inb k)))
            (broadcastTo S1x256x2048 m hb))
          (subf (View.ld (Val := Elt Ideal) x0 (Rect.unit (s := S1x256x16384) (k0_off1 (BitVec.ofNat 32 k.val)) S1x256x2048.size (k0_off1_inb k)))
            (broadcastTo S1x256x2048 m hb)))
        0x00000000#32 h (.inl rfl) rfl) hc (ix3 (0 : Fin 1) c (0 : Fin 1))
      = stripDev x0 (m (ix3 (0 : Fin 1) c (0 : Fin 1))) c k :=
  (devSum_apply _ m hb h hc c).trans (Finset.sum_congr rfl fun i _ =>
    congrArg (fun t : EReal => (t - m (ix3 (0 : Fin 1) c (0 : Fin 1))) * (t - m (ix3 (0 : Fin 1) c (0 : Fin 1)))) (strip_apply x0 k c i))

/-- The eight strips' summed squared deviations from μ of a row block at channel c, from zero, in the kernel's order. -/
def rowDev8 (x0 : Vec Ideal S1x256x16384 .f32) (μ : EReal) (c : Fin 256) : EReal :=
  0 + stripDev x0 μ c 0 + stripDev x0 μ c 1 + stripDev x0 μ c 2 + stripDev x0 μ c 3
    + stripDev x0 μ c 4 + stripDev x0 μ c 5 + stripDev x0 μ c 6 + stripDev x0 μ c 7

/-- Strip 0's squared deviations from the stored mean added to zero, at channel c. -/
theorem ssq1_apply (x0 : Vec Ideal S1x256x16384 .f32) (c : Fin 256) :
    Hand.ssq1 (F := Ideal) x0 (ix3 (0 : Fin 1) c (0 : Fin 1))
      = 0 + stripDev x0 (Hand.meanPay (F := Ideal) x0 (ix3 (0 : Fin 1) c (0 : Fin 1))) c 0 :=
  congrArg₂ (· + ·) (zero_pay_apply _) (devSum_ld x0 (Hand.meanPay (F := Ideal) x0) 0 _ _ _ c)

/-- Strips 1 to 4 added. -/
theorem ssq5_apply (x0 : Vec Ideal S1x256x16384 .f32) (c : Fin 256) :
    Hand.ssq5 (F := Ideal) x0 (ix3 (0 : Fin 1) c (0 : Fin 1))
      = 0 + stripDev x0 (Hand.meanPay (F := Ideal) x0 (ix3 (0 : Fin 1) c (0 : Fin 1))) c 0
          + stripDev x0 (Hand.meanPay (F := Ideal) x0 (ix3 (0 : Fin 1) c (0 : Fin 1))) c 1
          + stripDev x0 (Hand.meanPay (F := Ideal) x0 (ix3 (0 : Fin 1) c (0 : Fin 1))) c 2
          + stripDev x0 (Hand.meanPay (F := Ideal) x0 (ix3 (0 : Fin 1) c (0 : Fin 1))) c 3
          + stripDev x0 (Hand.meanPay (F := Ideal) x0 (ix3 (0 : Fin 1) c (0 : Fin 1))) c 4 :=
  add5 (ssq1_apply x0 c) (devSum_ld x0 (Hand.meanPay (F := Ideal) x0) 1 _ _ _ c) (devSum_ld x0 (Hand.meanPay (F := Ideal) x0) 2 _ _ _ c)
    (devSum_ld x0 (Hand.meanPay (F := Ideal) x0) 3 _ _ _ c) (devSum_ld x0 (Hand.meanPay (F := Ideal) x0) 4 _ _ _ c)

/-- The stored variance of a row block at channel c: the eight strips' squared deviations from the stored mean
    over the literal 16383. -/
theorem varPay_apply (x0 : Vec Ideal S1x256x16384 .f32) (c : Fin 256) :
    Hand.varPay (F := Ideal) x0 (ix3 (0 : Fin 1) c (0 : Fin 1))
      = Ideal.div (rowDev8 x0 (Hand.meanPay (F := Ideal) x0 (ix3 (0 : Fin 1) c (0 : Fin 1))) c) (Ideal.ofBits .f32 0x467FFC00#32) :=
  congrArg (fun t => Ideal.div t (Ideal.ofBits .f32 0x467FFC00#32))
    (add4 (ssq5_apply x0 c) (devSum_ld x0 (Hand.meanPay (F := Ideal) x0) 5 _ _ _ c) (devSum_ld x0 (Hand.meanPay (F := Ideal) x0) 6 _ _ _ c)
      (devSum_ld x0 (Hand.meanPay (F := Ideal) x0) 7 _ _ _ c))

/-! ## The reference's variance at an index -/

/-- The reference's variance at (b, c): the guard holds, so it is the summed squared deviations from the reference's
    mean over 16383; the mean inside is the reference's mean expression, read through the two broadcasts. -/
theorem refVar_apply (x : FVec Ideal S16x256x16384 .f32) (b : Fin 16) (c : Fin 256) :
    Cert.ReferenceIdeal.Hand.var (F := Ideal) x (ix2 b c)
      = Ideal.div (0 + ∑ p : Fin 16384, (x (ix3 b c p) - Cert.ReferenceIdeal.Hand.mean (F := Ideal) x (ix2 b c))
            * (x (ix3 b c p) - Cert.ReferenceIdeal.Hand.mean (F := Ideal) x (ix2 b c)))
          ((16383 : ℝ) : EReal) := by
  refine (select_apply _ _ _ _).trans (select_of ?_ ?_)
  · exact (broadcastInDim_scalar_apply _ _ _).trans (guard_apply _)
  · refine congrArg₂ Ideal.div
      ((refSum_apply _ _ _ b c).trans (congrArg (fun t : EReal => 0 + t) (Finset.sum_congr rfl fun p _ => ?_)))
      ((broadcastInDim_scalar_apply _ _ _).trans (cnt1_apply _))
    exact congrArg (fun t : EReal => (x (ix3 b c p) - t) * (x (ix3 b c p) - t))
      ((along_pos_apply _ _ b c p).trans (congrArg₂ Ideal.div (col_apply _ _ b c)
        ((broadcastInDim_scalar_apply _ _ _).trans (broadcastInDim_scalar_apply _ _ _).symm)))

/-! ## The variances agree -/

/-- The kernel's eight strips' squared deviations of row b are the reference's summed squared deviations. -/
theorem rowDev8_eq (x : FVec Ideal S16x256x16384 .f32) (μ : EReal) (b : Fin 16) (c : Fin 256) :
    rowDev8 (Hand.rowBlk x b) μ c = 0 + ∑ p : Fin 16384, (x (ix3 b c p) - μ) * (x (ix3 b c p) - μ) :=
  (regroup 0 fun p => (x (ix3 b c p) - μ) * (x (ix3 b c p) - μ)).symm

/-- The mean the kernel's variance is taken about is the reference's. -/
theorem meanPay_eq_ref (x : FVec Ideal S16x256x16384 .f32) (b : Fin 16) (c : Fin 256) :
    Hand.meanPay (F := Ideal) (Hand.rowBlk x b) (ix3 (0 : Fin 1) c (0 : Fin 1))
      = Cert.ReferenceIdeal.Hand.mean (F := Ideal) x (ix2 b c) :=
  (muK_apply x b c).symm.trans (mean_apply x b c)

/-- The two variances at (b, c): the same mean inside, the eight strips regrouped, the two divisors both 16383. -/
theorem var_apply (x : FVec Ideal S16x256x16384 .f32) (b : Fin 16) (c : Fin 256) :
    Hand.flat (Hand.varArr x) (ix2 b c) = Cert.ReferenceIdeal.Hand.var (F := Ideal) x (ix2 b c) := by
  refine (flat_apply _ _ b c).trans ?_
  refine (varPay_apply (Hand.rowBlk x b) c).trans ?_
  rw [meanPay_eq_ref, rowDev8_eq, ofBits_16383, refVar_apply]

/-- The kernel's row variances are the reference's. -/
theorem var_eq (x : FVec Ideal S16x256x16384 .f32) :
    Hand.flat (Hand.varArr x) = Cert.ReferenceIdeal.Hand.var (F := Ideal) x := by
  funext j
  obtain ⟨b, c, rfl⟩ : ∃ (b : Fin 16) (c : Fin 256), j = ix2 b c := ⟨j 0, j 1, eq_ix2 j⟩
  exact var_apply x b c

end Cert.Bridge
end
-- ==== Proof.BridgeParams.lean ====
/-
  The parameter array read at an index, and its four columns as the reference's statistics.

  The parameter array is four [16, 256, 1] columns side by side on a last axis of four: read at (b, c, k) it is
  column k at (b, c, 0), and a column is its [16, 256] array at (b, c). The columns are the row means, the row
  standard deviations sqrt (var + eps), beta = mean + e1 · spread of the means and gamma = std + e2 · spread of the
  stds. Once the two row statistics are the reference's (the hypotheses on the mean and the variance arrays), so
  are the four columns: the operations between are the same printed operations on both sides.
-/
import proofs.«410772_j7524782702974_2_alg».proof.Proof.KITerms
import proofs.«410772_j7524782702974_2_alg».proof.Proof.RefTerms
import Idealize.ShloMosaic.Lib.ValueLayout

noncomputable section

namespace Cert.Bridge

open Idealize.ShloMosaic Idealize.ShloMosaic.ValueIdx

variable {α : Type} {c0 c1 c2 c3 : (⟨3, ![16, 256, 1]⟩ : Shape).Idx → α}

/-! ## A column read at an index -/

/-- A [16, 256] array as a [16, 256, 1] column reads (b, c) at (b, c, k). -/
theorem col3_apply (h : (⟨2, ![16, 256]⟩ : Shape).BroadcastsInDim ⟨3, ![16, 256, 1]⟩ ![0, 1])
    (a : (⟨2, ![16, 256]⟩ : Shape).Idx → α) (b : Fin 16) (c : Fin 256) (k : Fin 1) :
    broadcastInDim ⟨3, ![16, 256, 1]⟩ ![0, 1] h a (ix3 b c k) = a (ix2 b c) :=
  broadcastInDim_apply _ h a _ _ (fun d => match d with | ⟨0, _⟩ => rfl | ⟨1, _⟩ => rfl)

/-- Four [16, 256, 1] columns, each with its shape, in order. -/
abbrev cols4 (c0 c1 c2 c3 : (⟨3, ![16, 256, 1]⟩ : Shape).Idx → α) : List ((s : Shape) × (s.Idx → α)) :=
  [⟨⟨3, ![16, 256, 1]⟩, c0⟩, ⟨⟨3, ![16, 256, 1]⟩, c1⟩, ⟨⟨3, ![16, 256, 1]⟩, c2⟩, ⟨⟨3, ![16, 256, 1]⟩, c3⟩]

/-- Off the last axis the index (b, c, 0) of a column and the index (b, c, k) of the four side by side agree. -/
theorem off_axis2 (b : Fin 16) (c : Fin 256) (k : Fin 4) (d : Fin 3) (hd : d.cast (rfl : (3 : Nat) = 3) ≠ (2 : Fin 3)) :
    ((ix3 b c (0 : Fin 1)) d).val = ((ix3 b c k) (d.cast rfl)).val := by
  match d with
  | ⟨0, _⟩ => rfl
  | ⟨1, _⟩ => rfl
  | ⟨2, _⟩ => exact absurd rfl hd

/-- Four [16, 256, 1] columns side by side read column k at (b, c, k). -/
theorem concat4_apply (h : Shape.Concatenates ((cols4 c0 c1 c2 c3).map (·.1)) ⟨3, ![16, 256, 4]⟩ 2)
    (b : Fin 16) (c : Fin 256) :
    concatenate ⟨3, ![16, 256, 4]⟩ 2 (cols4 c0 c1 c2 c3) h (ix3 b c 0) = c0 (ix3 b c 0)
    ∧ concatenate ⟨3, ![16, 256, 4]⟩ 2 (cols4 c0 c1 c2 c3) h (ix3 b c 1) = c1 (ix3 b c 0)
    ∧ concatenate ⟨3, ![16, 256, 4]⟩ 2 (cols4 c0 c1 c2 c3) h (ix3 b c 2) = c2 (ix3 b c 0)
    ∧ concatenate ⟨3, ![16, 256, 4]⟩ 2 (cols4 c0 c1 c2 c3) h (ix3 b c 3) = c3 (ix3 b c 0) := by
  refine ⟨?_, ?_, ?_, ?_⟩
  · exact concatenate_apply_piece 2 (cols4 c0 c1 c2 c3) h _ 0 (show 0 < 4 by omega) _ c0 rfl rfl 0 rfl (ix3 b c 0) (off_axis2 b c 0) rfl
  · exact concatenate_apply_piece 2 (cols4 c0 c1 c2 c3) h _ 1 (show 1 < 4 by omega) _ c1 rfl rfl 1 rfl (ix3 b c 0) (off_axis2 b c 1) rfl
  · exact concatenate_apply_piece 2 (cols4 c0 c1 c2 c3) h _ 2 (show 2 < 4 by omega) _ c2 rfl rfl 2 rfl (ix3 b c 0) (off_axis2 b c 2) rfl
  · exact concatenate_apply_piece 2 (cols4 c0 c1 c2 c3) h _ 3 (show 3 < 4 by omega) _ c3 rfl rfl 3 rfl (ix3 b c 0) (off_axis2 b c 3) rfl

/-! ## The parameter array at an index -/

section Columns

open Cert.KernelIdeal.Hand

variable (mu va : FVec Ideal Cert.KernelIdeal.S16x256x1 .f32) (e1 e2 : FVec Ideal Cert.KernelIdeal.S16x256 .f32)

/-- The parameter array at (b, c, k), k = 0 … 3: the mean, the standard deviation, beta and gamma at (b, c). -/
theorem params_apply (b : Fin 16) (c : Fin 256) :
    paramsK mu va e1 e2 (ix3 b c 0) = muK mu (ix2 b c)
    ∧ paramsK mu va e1 e2 (ix3 b c 1) = sdK va (ix2 b c)
    ∧ paramsK mu va e1 e2 (ix3 b c 2) = betaK mu e1 (ix2 b c)
    ∧ paramsK mu va e1 e2 (ix3 b c 3) = gammaK va e2 (ix2 b c) := by
  unfold paramsK
  obtain ⟨h0, h1, h2, h3⟩ := concat4_apply (c0 := col (muK mu)) (c1 := col (sdK va)) (c2 := col (betaK mu e1))
    (c3 := col (gammaK va e2)) Cert.KernelIdeal.Gen.concatenates_S16x256x1_S16x256x1_S16x256x1_S16x256x1_S16x256x4_d2 b c
  exact ⟨h0.trans (col3_apply _ _ b c 0), h1.trans (col3_apply _ _ b c 0), h2.trans (col3_apply _ _ b c 0),
    h3.trans (col3_apply _ _ b c 0)⟩

end Columns

/-! ## The columns are the reference's statistics

The operations between the row statistics and the columns are the same printed operations on both sides. -/

section Stats

open Cert.KernelIdeal.Hand

/-- sqrt (· + eps) is one function on both sides. -/
theorem sqrtEps_eq (a : FVec Ideal Cert.KernelIdeal.S16x256 .f32) :
    Cert.KernelIdeal.Hand.sqrtEps a = Cert.ReferenceIdeal.Hand.sqrtEps a := rfl

/-- The spread over the batch rows is one function on both sides. -/
theorem spread_eq (a : FVec Ideal Cert.KernelIdeal.S16x256 .f32) :
    Cert.KernelIdeal.Hand.spread a = Cert.ReferenceIdeal.Hand.spread a := rfl

variable (x : FVec Ideal Cert.KernelIdeal.S16x256x16384 .f32) (e1 e2 : FVec Ideal Cert.KernelIdeal.S16x256 .f32)
  (hμ : muK (meanArr x) = Cert.ReferenceIdeal.Hand.mean x) (hv : flat (varArr x) = Cert.ReferenceIdeal.Hand.var x)

include hv in
/-- The standard-deviation column is the reference's row standard deviation. -/
theorem sdK_eq : sdK (varArr x) = Cert.ReferenceIdeal.Hand.std x :=
  (congrArg Cert.KernelIdeal.Hand.sqrtEps hv).trans (sqrtEps_eq _)

include hμ in
/-- The beta column is the reference's beta. -/
theorem betaK_eq : betaK (meanArr x) e1 = Cert.ReferenceIdeal.Hand.beta x e1 := by
  unfold betaK Cert.ReferenceIdeal.Hand.beta
  rw [hμ, spread_eq]

include hv in
/-- The gamma column is the reference's gamma. -/
theorem gammaK_eq : gammaK (varArr x) e2 = Cert.ReferenceIdeal.Hand.gamma x e2 := by
  unfold gammaK Cert.ReferenceIdeal.Hand.gamma
  rw [sdK_eq x hv, spread_eq]

end Stats

end Cert.Bridge

end
-- ==== Proof.BridgeMask.lean ====
/-
  The row's mask, on both sides, read at an index.

  The reference's mask at (b, 0, p) is the float of the bit (p ≥ s_b) ∧ (p < s_b + 12288), signed compares on
  wrapping 32-bit words, p the position's word. The kernel's block (b, l) makes the same bit at lane i from the word
  l · 4096 + i, which is the position's word for p = 4096 l + i (no wrap: p < 16384), zero-extends it to 32 bits and
  reads it signed; a bit zero-extended and read signed is the bit read unsigned: both are 0 or 1.
-/
import proofs.«410772_j7524782702974_2_alg».proof.Proof.KITerms
import proofs.«410772_j7524782702974_2_alg».proof.Proof.RefTerms
import Idealize.ShloMosaic.Lib.ValueLayout

noncomputable section

namespace Cert.Bridge

open Idealize.ShloMosaic Idealize.ShloMosaic.ValueIdx

variable {α : Type}

/-! ## The reference's broadcasts read at an index -/

/-- [16384] → [1, 16384] along axis 1 reads p at (k, p). -/
theorem bid_p_1p (h : (⟨1, ![16384]⟩ : Shape).BroadcastsInDim ⟨2, ![1, 16384]⟩ ![1])
    (v : (⟨1, ![16384]⟩ : Shape).Idx → α) (k : Fin 1) (p : Fin 16384) :
    broadcastInDim ⟨2, ![1, 16384]⟩ ![1] h v (ix2 k p) = v (ix1 p) :=
  broadcastInDim_apply _ h v _ _ (fun d => match d with | ⟨0, _⟩ => rfl)

/-- [1, 16384] → [16, 16384] reads (0, p) at (b, p). -/
theorem bid_1p_bp (h : (⟨2, ![1, 16384]⟩ : Shape).BroadcastsInDim ⟨2, ![16, 16384]⟩ ![0, 1])
    (v : (⟨2, ![1, 16384]⟩ : Shape).Idx → α) (b : Fin 16) (p : Fin 16384) :
    broadcastInDim ⟨2, ![16, 16384]⟩ ![0, 1] h v (ix2 b p) = v (ix2 0 p) :=
  broadcastInDim_apply _ h v _ _ (fun d => match d with | ⟨0, _⟩ => rfl | ⟨1, _⟩ => rfl)

/-- [16] → [16, 1] along axis 0 reads b at (b, k). -/
theorem bid_b_b1 (h : (⟨1, ![16]⟩ : Shape).BroadcastsInDim ⟨2, ![16, 1]⟩ ![0])
    (v : (⟨1, ![16]⟩ : Shape).Idx → α) (b : Fin 16) (k : Fin 1) :
    broadcastInDim ⟨2, ![16, 1]⟩ ![0] h v (ix2 b k) = v (ix1 b) :=
  broadcastInDim_apply _ h v _ _ (fun d => match d with | ⟨0, _⟩ => rfl)

/-- [16, 1] → [16, 16384] reads (b, 0) at (b, p). -/
theorem bid_b1_bp (h : (⟨2, ![16, 1]⟩ : Shape).BroadcastsInDim ⟨2, ![16, 16384]⟩ ![0, 1])
    (v : (⟨2, ![16, 1]⟩ : Shape).Idx → α) (b : Fin 16) (p : Fin 16384) :
    broadcastInDim ⟨2, ![16, 16384]⟩ ![0, 1] h v (ix2 b p) = v (ix2 b 0) :=
  broadcastInDim_apply _ h v _ _ (fun d => match d with | ⟨0, _⟩ => rfl | ⟨1, _⟩ => rfl)

/-- [16, 16384] → [16, 1, 16384] along axes 0 and 2 reads (b, p) at (b, k, p). -/
theorem bid_bp_b1p (h : (⟨2, ![16, 16384]⟩ : Shape).BroadcastsInDim ⟨3, ![16, 1, 16384]⟩ ![0, 2])
    (v : (⟨2, ![16, 16384]⟩ : Shape).Idx → α) (b : Fin 16) (k : Fin 1) (p : Fin 16384) :
    broadcastInDim ⟨3, ![16, 1, 16384]⟩ ![0, 2] h v (ix3 b k p) = v (ix2 b p) :=
  broadcastInDim_apply _ h v _ _ (fun d => match d with | ⟨0, _⟩ => rfl | ⟨1, _⟩ => rfl)

/-! ## The reference's mask at an index -/

/-- The bit of the row's window at a position's word q, the row's start word w: (q ≥ w) ∧ (q < w + 12288), signed. -/
def winBit (q w : BitVec 32) : BitVec 1 :=
  IntOp.andi (IntOp.cmpi .sge q w) (IntOp.cmpi .slt q (IntOp.addi w 12288#32))

/-- The positions' words: p at (b, p). -/
theorem pos_apply (b : Fin 16) (p : Fin 16384) : Cert.ReferenceIdeal.Hand.pos (ix2 b p) = BitVec.ofNat 32 p.val := by
  unfold Cert.ReferenceIdeal.Hand.pos
  exact (bid_1p_bp _ _ b p).trans (bid_p_1p _ _ 0 p)

/-- A per-row word repeated along the positions: (b, 0) at (b, p). -/
theorem perRow_apply (r : IVec Cert.ReferenceIdeal.S16x1 32) (b : Fin 16) (p : Fin 16384) :
    Cert.ReferenceIdeal.Hand.perRow r (ix2 b p) = r (ix2 b 0) := by
  unfold Cert.ReferenceIdeal.Hand.perRow
  exact bid_b1_bp _ _ b p

/-- The reference's mask at (b, k, p): the row's window bit at the position's word, read unsigned. -/
theorem refMask_apply (s : IVec Cert.ReferenceIdeal.S16 32) (b : Fin 16) (k : Fin 1) (p : Fin 16384) :
    Cert.ReferenceIdeal.Hand.mask (F := Ideal) s (ix3 b k p)
      = FloatOps.uitofp (F := Ideal) .f32 (winBit (BitVec.ofNat 32 p.val) (s (ix1 b))) := by
  unfold Cert.ReferenceIdeal.Hand.mask
  refine (bid_bp_b1p _ _ b k p).trans ?_
  show FloatOps.uitofp (F := Ideal) .f32 (IntOp.andi
      (IntOp.cmpi .sge (Cert.ReferenceIdeal.Hand.pos (ix2 b p)) (Cert.ReferenceIdeal.Hand.perRow _ (ix2 b p)))
      (IntOp.cmpi .slt (Cert.ReferenceIdeal.Hand.pos (ix2 b p)) (Cert.ReferenceIdeal.Hand.perRow _ (ix2 b p)))) = _
  rw [pos_apply, perRow_apply, perRow_apply]
  show FloatOps.uitofp (F := Ideal) .f32 (IntOp.andi
      (IntOp.cmpi .sge (BitVec.ofNat 32 p.val) (broadcastInDim _ _ _ s (ix2 b 0)))
      (IntOp.cmpi .slt (BitVec.ofNat 32 p.val) (IntOp.addi (broadcastInDim _ _ _ s (ix2 b 0)) 12288#32))) = _
  rw [bid_b_b1]
  rfl

/-! ## The kernel's lane word, and its bit as a float -/

/-- The kernel's word at lane i of tile l is the position's word of 4096 l + i. -/
theorem laneWord_eq (l : Fin 4) (i : Fin 4096) :
    IntOp.addi (Scalar.muli (BitVec.ofNat 32 l.val) 4096#32) (BitVec.ofNat 32 i.val) = BitVec.ofNat 32 (l.val * 4096 + i.val) := by
  show BitVec.ofNat 32 l.val * BitVec.ofNat 32 4096 + BitVec.ofNat 32 i.val = _
  rw [← BitVec.ofNat_mul, ← BitVec.ofNat_add]

/-- A bit zero-extended to 32 bits and read signed is the bit read unsigned: both are 0 or 1. -/
theorem sitofp_extui_bit (bit : BitVec 1) :
    FloatOps.sitofp (F := Ideal) .f32 (bit.setWidth 32) = FloatOps.uitofp (F := Ideal) .f32 bit := by
  rcases BitVec.eq_zero_or_eq_one bit with h | h <;> subst h
  · show ((((0#1).setWidth 32).toInt : ℝ) : EReal) = (((0#1).toNat : ℝ) : EReal)
    have h1 : ((0#1).setWidth 32).toInt = 0 := by decide
    have h2 : (0#1).toNat = 0 := by decide
    rw [h1, h2]; simp
  · show ((((1#1).setWidth 32).toInt : ℝ) : EReal) = (((1#1).toNat : ℝ) : EReal)
    have h1 : ((1#1).setWidth 32).toInt = 1 := by decide
    have h2 : (1#1).toNat = 1 := by decide
    rw [h1, h2]; simp

end Cert.Bridge

end
-- ==== Proof.BridgeBlend.lean ====
/-
  The kernel's blended array is the reference's result.

  Both sides compute, at (b, c, p), ((x - mean) / std · gamma + beta) · M + x · (1 - M): the reference from its
  statistics repeated along the positions and its row mask repeated over the channels, the kernel block by block
  from the four columns of the row's parameter block spread along the lanes and the mask it makes from the lane
  word and the row's word of the table. Each operation is read at the index; the statistics are the reference's by
  the columns' equations, the masks agree bit for bit, and the arithmetic is then the same expression.
-/
import proofs.«410772_j7524782702974_2_alg».proof.Proof.BridgeParams
import proofs.«410772_j7524782702974_2_alg».proof.Proof.BridgeMask

noncomputable section

namespace Cert.Bridge

open Idealize.ShloMosaic Idealize.ShloMosaic.ValueIdx

variable {α : Type}

/-! ## The remaining layout operations read at an index -/

/-- [16, 256, 1] → [16, 256, 16384] reads (b, c, 0) at (b, c, p). -/
theorem bid_bc1_bcp (h : (⟨3, ![16, 256, 1]⟩ : Shape).BroadcastsInDim ⟨3, ![16, 256, 16384]⟩ ![0, 1, 2])
    (v : (⟨3, ![16, 256, 1]⟩ : Shape).Idx → α) (b : Fin 16) (c : Fin 256) (p : Fin 16384) :
    broadcastInDim ⟨3, ![16, 256, 16384]⟩ ![0, 1, 2] h v (ix3 b c p) = v (ix3 b c 0) :=
  broadcastInDim_apply _ h v _ _ (fun d => match d with | ⟨0, _⟩ => rfl | ⟨1, _⟩ => rfl | ⟨2, _⟩ => rfl)

/-- [16, 1, 16384] → [16, 256, 16384] reads (b, 0, p) at (b, c, p). -/
theorem bid_b1p_bcp (h : (⟨3, ![16, 1, 16384]⟩ : Shape).BroadcastsInDim ⟨3, ![16, 256, 16384]⟩ ![0, 1, 2])
    (v : (⟨3, ![16, 1, 16384]⟩ : Shape).Idx → α) (b : Fin 16) (c : Fin 256) (p : Fin 16384) :
    broadcastInDim ⟨3, ![16, 256, 16384]⟩ ![0, 1, 2] h v (ix3 b c p) = v (ix3 b 0 p) :=
  broadcastInDim_apply _ h v _ _ (fun d => match d with | ⟨0, _⟩ => rfl | ⟨1, _⟩ => rfl | ⟨2, _⟩ => rfl)

/-- Column k of a [1, 256, 4] parameter block, sliced out, reads (0, c, k) at (0, c, 0). -/
theorem slice_col (k : Nat) (hk : k < 4) (h : (⟨3, ![1, 256, 4]⟩ : Shape).Slices ![0, 0, k] ⟨3, ![1, 256, 1]⟩)
    (v : (⟨3, ![1, 256, 4]⟩ : Shape).Idx → α) (c : Fin 256) :
    extractStridedSlice ⟨3, ![1, 256, 1]⟩ ![0, 0, k] v h (ix3 0 c 0) = v (ix3 0 c ⟨k, hk⟩) :=
  extractStridedSlice_apply _ v h _ _ (fun d => match d with
    | ⟨0, _⟩ => rfl
    | ⟨1, _⟩ => by show c.val = 0 + c.val; omega
    | ⟨2, _⟩ => rfl)

/-- A [1, 256, 1] column spread along 4096 lanes reads (0, c, 0) at (0, c, i). -/
theorem bto_col (h : (⟨3, ![1, 256, 1]⟩ : Shape).Broadcasts ⟨3, ![1, 256, 4096]⟩)
    (v : (⟨3, ![1, 256, 1]⟩ : Shape).Idx → α) (c : Fin 256) (i : Fin 4096) :
    broadcastTo ⟨3, ![1, 256, 4096]⟩ v h (ix3 0 c i) = v (ix3 0 c 0) :=
  broadcastTo_apply v h _ _ (fun d => match d with | ⟨0, _⟩ => rfl | ⟨1, _⟩ => rfl | ⟨2, _⟩ => rfl)

/-- A [1, 1, 4096] lane vector repeated over 256 channels reads (0, 0, i) at (0, c, i). -/
theorem bto_lane (h : (⟨3, ![1, 1, 4096]⟩ : Shape).Broadcasts ⟨3, ![1, 256, 4096]⟩)
    (v : (⟨3, ![1, 1, 4096]⟩ : Shape).Idx → α) (c : Fin 256) (i : Fin 4096) :
    broadcastTo ⟨3, ![1, 256, 4096]⟩ v h (ix3 0 c i) = v (ix3 0 0 i) :=
  broadcastTo_apply v h _ _ (fun d => match d with | ⟨0, _⟩ => rfl | ⟨1, _⟩ => rfl | ⟨2, _⟩ => rfl)

/-! ## The reference's result at an index -/

section Reference

open Cert.ReferenceIdeal.Hand

/-- A per-(row, channel) statistic repeated along the positions reads (b, c) at (b, c, p). -/
theorem along_apply (a : FVec Ideal Cert.ReferenceIdeal.S16x256 .f32) (b : Fin 16) (c : Fin 256) (p : Fin 16384) :
    along a (ix3 b c p) = a (ix2 b c) := by
  unfold along
  exact (bid_bc1_bcp _ _ b c p).trans (col3_apply _ _ b c 0)

/-- A per-(row, position) factor repeated over the channels reads (b, 0, p) at (b, c, p). -/
theorem overCh_apply (m : FVec Ideal Cert.ReferenceIdeal.S16x1x16384 .f32) (b : Fin 16) (c : Fin 256) (p : Fin 16384) :
    overCh m (ix3 b c p) = m (ix3 b 0 p) := by
  unfold overCh
  exact bid_b1p_bcp _ _ b c p

/-- The blend of a normalized value and the value itself under a mask value: (x - μ) / σ · γ + β where the mask is
    one, x where it is zero. -/
def blend (xv μ σ β γ M : EReal) : EReal :=
  (Ideal.div (xv - μ) σ * γ + β) * M + xv * (Ideal.ofBits .f32 0x3F800000#32 - M)

/-- The reference's result at (b, c, p). -/
theorem refOut_apply (x : FVec Ideal Cert.ReferenceIdeal.S16x256x16384 .f32) (e1 e2 : FVec Ideal Cert.ReferenceIdeal.S16x256 .f32)
    (s : IVec Cert.ReferenceIdeal.S16 32) (b : Fin 16) (c : Fin 256) (p : Fin 16384) :
    out x e1 e2 s (ix3 b c p)
      = blend (x (ix3 b c p)) (mean x (ix2 b c)) (std x (ix2 b c)) (beta x e1 (ix2 b c)) (gamma x e2 (ix2 b c))
          (FloatOps.uitofp (F := Ideal) .f32 (winBit (BitVec.ofNat 32 p.val) (s (ix1 b)))) := by
  unfold out xhat
  show (Ideal.div (x (ix3 b c p) - along (mean x) (ix3 b c p)) (along (std x) (ix3 b c p)) * along (gamma x e2) (ix3 b c p)
        + along (beta x e1) (ix3 b c p)) * overCh (mask (F := Ideal) s) (ix3 b c p)
      + x (ix3 b c p) * overCh (subf (broadcastInDim _ _ _ (constant (F := Ideal) _ .f32 0x3F800000#32)) (mask (F := Ideal) s)) (ix3 b c p) = _
  rw [along_apply, along_apply, along_apply, along_apply, overCh_apply, overCh_apply]
  show (Ideal.div (x (ix3 b c p) - mean x (ix2 b c)) (std x (ix2 b c)) * gamma x e2 (ix2 b c) + beta x e1 (ix2 b c))
        * mask (F := Ideal) s (ix3 b 0 p)
      + x (ix3 b c p) * (Ideal.ofBits .f32 0x3F800000#32 - mask (F := Ideal) s (ix3 b 0 p)) = _
  rw [refMask_apply]
  rfl

end Reference

/-! ## The kernel's payload at an index -/

section Kernel

open Cert.KernelIdeal Cert.KernelIdeal.Gen Cert.KernelIdeal.Hand

theorem andi_apply {s : Shape} {w : Nat} (a b : IVec s w) (i : s.Idx) : andi a b i = IntOp.andi (a i) (b i) := rfl
theorem addi_apply {s : Shape} {w : Nat} (a b : IVec s w) (i : s.Idx) : addi a b i = IntOp.addi (a i) (b i) := rfl
theorem cmpi_apply {s : Shape} {w : Nat} (p : CmpIPredicate) (a b : IVec s w) (i : s.Idx) :
    cmpi p a b i = IntOp.cmpi p (a i) (b i) := rfl

/-- The lane numbers 0 … 4095 along the last axis read q at (0, 0, q). -/
theorem iota_lane (h : (⟨3, ![1, 1, 4096]⟩ : Shape).Iotas .tc 32 [2]) (a b : Fin 1) (q : Fin 4096) :
    iota .tc ⟨3, ![1, 1, 4096]⟩ 32 [2] h (ix3 a b q) = BitVec.ofNat 32 q.val :=
  iota_single_apply .tc _ 32 2 h _

/-- The kernel's payload at (0, c, q): the blend of the block's value with the four columns of the parameter block,
    under the window bit of the lane word, zero-extended and read signed. -/
theorem pay_apply (i : grid1.Coords) (v0 : FVec Ideal S1x256x4096 .f32) (v1 : FVec Ideal S1x256x4 .f32) (w : BitVec 32)
    (c : Fin 256) (q : Fin 4096) :
    k1_pay1 (F := Ideal) i v0 v1 w (ix3 0 c q)
      = blend (v0 (ix3 0 c q)) (v1 (ix3 0 c 0)) (v1 (ix3 0 c 1)) (v1 (ix3 0 c 2)) (v1 (ix3 0 c 3))
          (FloatOps.sitofp (F := Ideal) .f32
            ((winBit (IntOp.addi (Scalar.muli (BitVec.ofNat 32 (i 1).val) 4096#32) (BitVec.ofNat 32 q.val)) w).setWidth 32)) := by
  unfold k1_pay1 blend winBit
  simp only [addf_apply, mulf_apply, subf_apply, divf_apply, bto_col, bto_lane, shapeCast_self, sitofp_apply, extui_apply,
    andi_apply, addi_apply, cmpi_apply, broadcast_apply, Ideal.ofBits_def]
  rw [iota_lane, slice_col 0 (by omega), slice_col 1 (by omega), slice_col 2 (by omega), slice_col 3 (by omega)]
  rfl

end Kernel

/-! ## The kernel's result array at an index -/

section Array

open Cert.KernelIdeal Cert.KernelIdeal.Gen Cert.KernelIdeal.Hand

/-- A load of the whole data block reads the block. -/
theorem ld_whole1 (X : Vec Ideal S1x256x4096 .f32) : View.ld X whole1 = X :=
  View.ld_unit_zero (Val := Elt Ideal) (e := .f32) (funext fun a => match a with | ⟨0, _⟩ => rfl | ⟨1, _⟩ => rfl | ⟨2, _⟩ => rfl) _ X

/-- A load of the whole parameter block reads the block. -/
theorem ld_whole1p (X : Vec Ideal S1x256x4 .f32) : View.ld X whole1p = X :=
  View.ld_unit_zero (Val := Elt Ideal) (e := .f32) (funext fun a => match a with | ⟨0, _⟩ => rfl | ⟨1, _⟩ => rfl | ⟨2, _⟩ => rfl) _ X

/-- The table's word at a point of batch row b is the table's entry b: the row number as a word and back is the
    row number (b < 16). -/
theorem word1_apply (tbl : pre1.Contents (Elt Ideal)) (b : Fin 16) (l : Fin 4) :
    word1 tbl (pt b l) = (tbl 0 : IVec S16 32) (ix1 b) := by
  unfold word1
  refine congrArg (tbl 0 : IVec S16 32) (funext fun a => Fin.ext ?_)
  match a with
  | ⟨0, _⟩ =>
    show (BitVec.ofNat 32 b.val).toNat + 1 * 0 = b.val
    rw [BitVec.toNat_ofNat, Nat.mod_eq_of_lt (lt_of_lt_of_le b.isLt (by norm_num))]
    omega

/-- The blended block (b, l) at (0, c, q), for the position p = 4096 l + q: the blend of x (b, c, p) with the four
    columns of the parameter array at (b, c), under the row's window bit at the position's word. -/
theorem blockOut_apply (tbl : pre1.Contents (Elt Ideal)) (x : FVec Ideal S16x256x16384 .f32) (P : FVec Ideal S16x256x4 .f32)
    (b : Fin 16) (l : Fin 4) (c : Fin 256) (q : Fin 4096) (p : Fin 16384) (hp : p.val = l.val * 4096 + q.val) :
    k1_pay1 (F := Ideal) (pt b l) (View.ld (tileBlk x b l) whole1) (View.ld (parBlk P b) whole1p) (word1 tbl (pt b l)) (ix3 0 c q)
      = blend (x (ix3 b c p)) (P (ix3 b c 0)) (P (ix3 b c 1)) (P (ix3 b c 2)) (P (ix3 b c 3))
          (FloatOps.uitofp (F := Ideal) .f32 (winBit (BitVec.ofNat 32 p.val) ((tbl 0 : IVec S16 32) (ix1 b)))) := by
  rw [ld_whole1, ld_whole1p, pay_apply, word1_apply, sitofp_extui_bit]
  have hx : tileBlk x b l (ix3 0 c q) = x (ix3 b c p) := congrArg x (congrArg (ix3 b c) (Fin.ext hp.symm))
  have hq : IntOp.addi (Scalar.muli (BitVec.ofNat 32 ((pt b l) 1).val) 4096#32) (BitVec.ofNat 32 q.val) = BitVec.ofNat 32 p.val :=
    (laneWord_eq l q).trans (congrArg (BitVec.ofNat 32) hp.symm)
  rw [hx, hq]
  rfl

/-- The kernel's result array at (b, c, p). -/
theorem outArr_apply (tbl : pre1.Contents (Elt Ideal)) (x : FVec Ideal S16x256x16384 .f32) (P : FVec Ideal S16x256x4 .f32)
    (b : Fin 16) (c : Fin 256) (p : Fin 16384) :
    outArr tbl x P (ix3 b c p)
      = blend (x (ix3 b c p)) (P (ix3 b c 0)) (P (ix3 b c 1)) (P (ix3 b c 2)) (P (ix3 b c 3))
          (FloatOps.uitofp (F := Ideal) .f32 (winBit (BitVec.ofNat 32 p.val) ((tbl 0 : IVec S16 32) (ix1 b)))) :=
  blockOut_apply tbl x P b ⟨p.val / 4096, by have := p.isLt; omega⟩ c ⟨p.val % 4096, Nat.mod_lt _ (by norm_num)⟩ p
    (Nat.div_add_mod' p.val 4096).symm

end Array

/-! ## The two results are one array -/

/-- The kernel's result array — the transform kernel run over the parameter array the host operations make of the
    statistics arrays — is the reference's result, once the statistics arrays are the reference's row means and
    row variances and the table holds the rows' start words. -/
theorem out_eq (x : FVec Ideal Cert.KernelIdeal.S16x256x16384 .f32) (e1 e2 : FVec Ideal Cert.KernelIdeal.S16x256 .f32)
    (s : IVec Cert.KernelIdeal.S16 32) (tbl : Cert.KernelIdeal.pre1.Contents (Elt Ideal)) (htbl : tbl 0 = s)
    (hμ : Cert.KernelIdeal.Hand.muK (Cert.KernelIdeal.Hand.meanArr x) = Cert.ReferenceIdeal.Hand.mean x)
    (hv : Cert.KernelIdeal.Hand.flat (Cert.KernelIdeal.Hand.varArr x) = Cert.ReferenceIdeal.Hand.var x) :
    Cert.KernelIdeal.Hand.outArr tbl x
        (Cert.KernelIdeal.Hand.paramsK (Cert.KernelIdeal.Hand.meanArr x) (Cert.KernelIdeal.Hand.varArr x) e1 e2)
      = Cert.ReferenceIdeal.Hand.out x e1 e2 s := by
  funext j
  obtain ⟨b, c, p, rfl⟩ : ∃ (b : Fin 16) (c : Fin 256) (p : Fin 16384), j = ix3 b c p := ⟨j 0, j 1, j 2, eq_ix3 j⟩
  obtain ⟨h0, h1, h2, h3⟩ := params_apply (Cert.KernelIdeal.Hand.meanArr x) (Cert.KernelIdeal.Hand.varArr x) e1 e2 b c
  rw [outArr_apply, refOut_apply, h0, h1, h2, h3, hμ, sdK_eq x hv, betaK_eq x e1 hμ, gammaK_eq x e2 hv,
    congrFun htbl (ix1 b)]

end Cert.Bridge

end
-- ==== Proof.KIValue.lean ====
/-
  What the kernel's program leaves in its result buffer, at the ideal instance: the reference's result of the same four
  arguments. The fold of buffer contents is read from the end: the transform region's output array is the blockwise
  blend of the data array and the parameter array it found, with the prefetched table's words; the data array and the
  table are the launch's (nothing writes an argument); the parameter array is the host operations' term of the two
  statistics arrays and the two noise arguments; the statistics arrays are the row statistics of the data array; and
  that composed term is the reference's, entry by entry.
-/
import proofs.«410772_j7524782702974_2_alg».proof.Proof.KIRun
import proofs.«410772_j7524782702974_2_alg».proof.Proof.KIHost
import proofs.«410772_j7524782702974_2_alg».proof.Proof.KIStatsValue
import proofs.«410772_j7524782702974_2_alg».proof.Proof.KITransformValue
import proofs.«410772_j7524782702974_2_alg».proof.Proof.BridgeStats
import proofs.«410772_j7524782702974_2_alg».proof.Proof.BridgeBlend

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ)

/-- The table region 1 is pinned at is the launch's row offsets. -/
theorem adm1_tbl : (adm1 m).1 0 = m ((core0 : Thread nD τ).loc main_arg3) := W6_arg3 m core0

/-- The kernel's result buffer at the end of the run is the reference's result of the launch's arguments. -/
theorem result_eq (c : Dev nD) :
    W7 m c (Proc.devRef .tc main_v27)
      = Cert.ReferenceIdeal.Hand.out (F := Ideal) (m ((c : Thread nD τ).loc main_arg0)) (m ((c : Thread nD τ).loc main_arg1))
          (m ((c : Thread nD τ).loc main_arg2)) (m ((c : Thread nD τ).loc main_arg3)) := by
  obtain rfl := core_eq c
  rw [W7_out m core0, arr1_2 (V6 m) (adm1 m) core0]
  rw [show V6 m core0 main_arg0 = m ((core0 : Thread nD τ).loc main_arg0) from W6_arg0 m core0,
    show V6 m core0 main_v26 = _ from W6_params m core0,
    W1_stat0 m core0, W1_stat1 m core0, arr0_1 (V0 m) core0, arr0_2 (V0 m) core0]
  exact Cert.Bridge.out_eq _ _ _ _ (adm1 m).1 (adm1_tbl m) (Cert.Bridge.mean_eq _) (Cert.Bridge.var_eq _)

end Cert.KernelIdeal.Hand

end
-- ==== Proof.RefRun.lean ====
/-
  The reference's run, by hand. @main calls three outlined functions (the row variance once, the column variance
  twice; each ends in an outlined select); a call runs the callee's body over that call's own buffers, so @main is one
  straight line of 131 operations. Listed in order, its run is the library's run of a straight line: it terminates
  with every buffer at the fold of the operations' results over the launch contents. At the result buffer that fold
  is the composed term `out` of the four arguments, and at each argument buffer it is what was there.
-/
import proofs.«410772_j7524782702974_2_alg».proof.Proof.Gen.ReferenceIdeal
import proofs.«410772_j7524782702974_2_alg».proof.Proof.RefTerms
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 131 operations in order. Operations 1–6: the row means (the sums over 16384, divided by it) and the integer `1` the first call takes; 7–28 the first
    call (the row variance: 19 operations, then the select's three, the last writing the call's result); 29–33 the
    row deviation `sqrt (· + 1e-6)` and the next call's integer `1`; 34–55 the second call (the column variance of the row
    means); 56–60 its `sqrt (· + 1e-6)` and the next call's integer `1`; 61–82 the third call (the column variance of the row
    deviations); 83–86 its `sqrt (· + 1e-6)`; 87–94 the shifted mean and deviation; 95–106 the row standardised and
    mapped to them; 107–123 the window's indicator; 124–131 the blend. Each operation of a call is stated over the
    buffers that call names, the callee's arguments being the caller's operands. -/
abbrev ops : List (HloOp τ sig (Elt F)) :=
  [ StableHlo.nullary main_cst (constant S_ .f32 0x00000000#32),
    StableHlo.binary main_arg0 main_cst main_v0 ((fun x v => Host.reduceAdd x v reducesTo_S16x256x16384_S16x256_d2 h_S_) : (⟨S16x256x16384, .f32⟩ : BufTy).Contents (Elt F) → (⟨S_, .f32⟩ : BufTy).Contents (Elt F) → (⟨S16x256, .f32⟩ : BufTy).Contents (Elt F)),
    StableHlo.nullary main_cst_0 (constant S_ .f32 0x46800000#32),
    StableHlo.unary main_cst_0 main_v1 (broadcastInDim S16x256 ![] bcast_S_S16x256 : (⟨S_, .f32⟩ : BufTy).Contents (Elt F) → (⟨S16x256, .f32⟩ : BufTy).Contents (Elt F)),
    StableHlo.binary main_v0 main_v1 main_v2 (Host.divf : (⟨S16x256, .f32⟩ : BufTy).Contents (Elt F) → (⟨S16x256, .f32⟩ : BufTy).Contents (Elt F) → (⟨S16x256, .f32⟩ : BufTy).Contents (Elt F)),
    StableHlo.nullary main_c (constantI S_ 32 1#32),
    StableHlo.TRef.nullary (.of main_call0_cst : StableHlo.TRef sig ⟨S_, .f32⟩) (constant S_ .f32 0x00000000#32),
    StableHlo.TRef.binary (.of main_arg0 : StableHlo.TRef sig ⟨S16x256x16384, .f32⟩) (.of main_call0_cst : StableHlo.TRef sig ⟨S_, .f32⟩) (.of main_call0_v0 : StableHlo.TRef sig ⟨S16x256, .f32⟩) (fun x v => Host.reduceAdd x v reducesTo_S16x256x16384_S16x256_d2 h_S_),
    StableHlo.TRef.unary (.of main_call0_v0 : StableHlo.TRef sig ⟨S16x256, .f32⟩) (.of main_call0_v1 : StableHlo.TRef sig ⟨S16x256x1, .f32⟩) (broadcastInDim S16x256x1 ![0, 1] bcast_S16x256_S16x256x1_0_1),
    StableHlo.TRef.nullary (.of main_call0_cst_0 : StableHlo.TRef sig ⟨S_, .f32⟩) (constant S_ .f32 0x46800000#32),
    StableHlo.TRef.unary (.of main_call0_cst_0 : StableHlo.TRef sig ⟨S_, .f32⟩) (.of main_call0_v2 : StableHlo.TRef sig ⟨S16x256x1, .f32⟩) (broadcastInDim S16x256x1 ![] bcast_S_S16x256x1),
    StableHlo.TRef.binary (.of main_call0_v1 : StableHlo.TRef sig ⟨S16x256x1, .f32⟩) (.of main_call0_v2 : StableHlo.TRef sig ⟨S16x256x1, .f32⟩) (.of main_call0_v3 : StableHlo.TRef sig ⟨S16x256x1, .f32⟩) Host.divf,
    StableHlo.TRef.unary (.of main_call0_v3 : StableHlo.TRef sig ⟨S16x256x1, .f32⟩) (.of main_call0_v4 : StableHlo.TRef sig ⟨S16x256x16384, .f32⟩) (broadcastInDim S16x256x16384 ![0, 1, 2] bcast_S16x256x1_S16x256x16384_0_1_2),
    StableHlo.TRef.binary (.of main_arg0 : StableHlo.TRef sig ⟨S16x256x16384, .f32⟩) (.of main_call0_v4 : StableHlo.TRef sig ⟨S16x256x16384, .f32⟩) (.of main_call0_v5 : StableHlo.TRef sig ⟨S16x256x16384, .f32⟩) subf,
    StableHlo.TRef.binary (.of main_call0_v5 : StableHlo.TRef sig ⟨S16x256x16384, .f32⟩) (.of main_call0_v5 : StableHlo.TRef sig ⟨S16x256x16384, .f32⟩) (.of main_call0_v6 : StableHlo.TRef sig ⟨S16x256x16384, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S16x256x16384, .f32⟩) (.of main_call0_cst_2 : StableHlo.TRef sig ⟨S_, .f32⟩) (.of main_call0_v9 : StableHlo.TRef sig ⟨S16x256, .f32⟩) (fun x v => Host.reduceAdd x v reducesTo_S16x256x16384_S16x256_d2 h_S_),
    StableHlo.TRef.unary (.of main_call0_v8 : StableHlo.TRef sig ⟨S_, .f32⟩) (.of main_call0_v10 : StableHlo.TRef sig ⟨S16x256, .f32⟩) (broadcastInDim S16x256 ![] bcast_S_S16x256),
    StableHlo.TRef.binary (.of main_call0_v9 : StableHlo.TRef sig ⟨S16x256, .f32⟩) (.of main_call0_v10 : StableHlo.TRef sig ⟨S16x256, .f32⟩) (.of main_call0_v11 : StableHlo.TRef sig ⟨S16x256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S16x256, .f32⟩) (broadcastInDim S16x256 ![] bcast_S_S16x256),
    StableHlo.TRef.ternary (.of main_call0_v12 : StableHlo.TRef sig ⟨S_, .i1⟩) (.of main_call0_v11 : StableHlo.TRef sig ⟨S16x256, .f32⟩) (.of main_call0_call0_v1 : StableHlo.TRef sig ⟨S16x256, .f32⟩) (.of main_v3 : StableHlo.TRef sig ⟨S16x256, .f32⟩) (fun p a b => select (broadcastInDim S16x256 ![] bcast_S_S16x256 p) a b),
    StableHlo.nullary main_cst_1 (constant S_ .f32 0x358637BD#32),
    StableHlo.unary main_cst_1 main_v4 (broadcastInDim S16x256 ![] bcast_S_S16x256 : (⟨S_, .f32⟩ : BufTy).Contents (Elt F) → (⟨S16x256, .f32⟩ : BufTy).Contents (Elt F)),
    StableHlo.binary main_v3 main_v4 main_v5 (addf : (⟨S16x256, .f32⟩ : BufTy).Contents (Elt F) → (⟨S16x256, .f32⟩ : BufTy).Contents (Elt F) → (⟨S16x256, .f32⟩ : BufTy).Contents (Elt F)),
    StableHlo.unary main_v5 main_v6 (Host.sqrt : (⟨S16x256, .f32⟩ : BufTy).Contents (Elt F) → (⟨S16x256, .f32⟩ : BufTy).Contents (Elt F)),
    StableHlo.nullary main_c_2 (constantI S_ 32 1#32),
    StableHlo.TRef.nullary (.of main_call1_cst : StableHlo.TRef sig ⟨S_, .f32⟩) (constant S_ .f32 0x00000000#32),
    StableHlo.TRef.binary (.of main_v2 : StableHlo.TRef sig ⟨S16x256, .f32⟩) (.of main_call1_cst : StableHlo.TRef sig ⟨S_, .f32⟩) (.of main_call1_v0 : StableHlo.TRef sig ⟨S256, .f32⟩) (fun x v => Host.reduceAdd x v reducesTo_S16x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x41800000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S16x256, .f32⟩) (broadcastInDim S16x256 ![0, 1] bcast_S1x256_S16x256_0_1),
    StableHlo.TRef.binary (.of main_v2 : StableHlo.TRef sig ⟨S16x256, .f32⟩) (.of main_call1_v4 : StableHlo.TRef sig ⟨S16x256, .f32⟩) (.of main_call1_v5 : StableHlo.TRef sig ⟨S16x256, .f32⟩) subf,
    StableHlo.TRef.binary (.of main_call1_v5 : StableHlo.TRef sig ⟨S16x256, .f32⟩) (.of main_call1_v5 : StableHlo.TRef sig ⟨S16x256, .f32⟩) (.of main_call1_v6 : StableHlo.TRef sig ⟨S16x256, .f32⟩) mulf,
    StableHlo.TRef.unary (.of main_c_2 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x41800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S16x256, .f32⟩) (.of main_call1_cst_2 : StableHlo.TRef sig ⟨S_, .f32⟩) (.of main_call1_v9 : StableHlo.TRef sig ⟨S256, .f32⟩) (fun x v => Host.reduceAdd x v reducesTo_S16x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v7 : StableHlo.TRef sig ⟨S256, .f32⟩) (fun p a b => select (broadcastInDim S256 ![] bcast_S_S256 p) a b),
    StableHlo.nullary main_cst_3 (constant S_ .f32 0x358637BD#32),
    StableHlo.unary main_cst_3 main_v8 (broadcastInDim S256 ![] bcast_S_S256 : (⟨S_, .f32⟩ : BufTy).Contents (Elt F) → (⟨S256, .f32⟩ : BufTy).Contents (Elt F)),
    StableHlo.binary main_v7 main_v8 main_v9 (addf : (⟨S256, .f32⟩ : BufTy).Contents (Elt F) → (⟨S256, .f32⟩ : BufTy).Contents (Elt F) → (⟨S256, .f32⟩ : BufTy).Contents (Elt F)),
    StableHlo.unary main_v9 main_v10 (Host.sqrt : (⟨S256, .f32⟩ : BufTy).Contents (Elt F) → (⟨S256, .f32⟩ : BufTy).Contents (Elt F)),
    StableHlo.nullary main_c_4 (constantI S_ 32 1#32),
    StableHlo.TRef.nullary (.of main_call2_cst : StableHlo.TRef sig ⟨S_, .f32⟩) (constant S_ .f32 0x00000000#32),
    StableHlo.TRef.binary (.of main_v6 : StableHlo.TRef sig ⟨S16x256, .f32⟩) (.of main_call2_cst : StableHlo.TRef sig ⟨S_, .f32⟩) (.of main_call2_v0 : StableHlo.TRef sig ⟨S256, .f32⟩) (fun x v => Host.reduceAdd x v reducesTo_S16x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x41800000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S16x256, .f32⟩) (broadcastInDim S16x256 ![0, 1] bcast_S1x256_S16x256_0_1),
    StableHlo.TRef.binary (.of main_v6 : StableHlo.TRef sig ⟨S16x256, .f32⟩) (.of main_call2_v4 : StableHlo.TRef sig ⟨S16x256, .f32⟩) (.of main_call2_v5 : StableHlo.TRef sig ⟨S16x256, .f32⟩) subf,
    StableHlo.TRef.binary (.of main_call2_v5 : StableHlo.TRef sig ⟨S16x256, .f32⟩) (.of main_call2_v5 : StableHlo.TRef sig ⟨S16x256, .f32⟩) (.of main_call2_v6 : StableHlo.TRef sig ⟨S16x256, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x41800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S16x256, .f32⟩) (.of main_call2_cst_2 : StableHlo.TRef sig ⟨S_, .f32⟩) (.of main_call2_v9 : StableHlo.TRef sig ⟨S256, .f32⟩) (fun x v => Host.reduceAdd x v reducesTo_S16x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v11 : StableHlo.TRef sig ⟨S256, .f32⟩) (fun p a b => select (broadcastInDim S256 ![] bcast_S_S256 p) a b),
    StableHlo.nullary main_cst_5 (constant S_ .f32 0x358637BD#32),
    StableHlo.unary main_cst_5 main_v12 (broadcastInDim S256 ![] bcast_S_S256 : (⟨S_, .f32⟩ : BufTy).Contents (Elt F) → (⟨S256, .f32⟩ : BufTy).Contents (Elt F)),
    StableHlo.binary main_v11 main_v12 main_v13 (addf : (⟨S256, .f32⟩ : BufTy).Contents (Elt F) → (⟨S256, .f32⟩ : BufTy).Contents (Elt F) → (⟨S256, .f32⟩ : BufTy).Contents (Elt F)),
    StableHlo.unary main_v13 main_v14 (Host.sqrt : (⟨S256, .f32⟩ : BufTy).Contents (Elt F) → (⟨S256, .f32⟩ : BufTy).Contents (Elt F)),
    StableHlo.unary main_v10 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S16x256 ![0, 1] bcast_S1x256_S16x256_0_1 : (⟨S1x256, .f32⟩ : BufTy).Contents (Elt F) → (⟨S16x256, .f32⟩ : BufTy).Contents (Elt F)),
    StableHlo.binary main_arg1 main_v16 main_v17 (mulf : (⟨S16x256, .f32⟩ : BufTy).Contents (Elt F) → (⟨S16x256, .f32⟩ : BufTy).Contents (Elt F) → (⟨S16x256, .f32⟩ : BufTy).Contents (Elt F)),
    StableHlo.binary main_v2 main_v17 main_v18 (addf : (⟨S16x256, .f32⟩ : BufTy).Contents (Elt F) → (⟨S16x256, .f32⟩ : BufTy).Contents (Elt F) → (⟨S16x256, .f32⟩ : BufTy).Contents (Elt F)),
    StableHlo.unary main_v14 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S16x256 ![0, 1] bcast_S1x256_S16x256_0_1 : (⟨S1x256, .f32⟩ : BufTy).Contents (Elt F) → (⟨S16x256, .f32⟩ : BufTy).Contents (Elt F)),
    StableHlo.binary main_arg2 main_v20 main_v21 (mulf : (⟨S16x256, .f32⟩ : BufTy).Contents (Elt F) → (⟨S16x256, .f32⟩ : BufTy).Contents (Elt F) → (⟨S16x256, .f32⟩ : BufTy).Contents (Elt F)),
    StableHlo.binary main_v6 main_v21 main_v22 (addf : (⟨S16x256, .f32⟩ : BufTy).Contents (Elt F) → (⟨S16x256, .f32⟩ : BufTy).Contents (Elt F) → (⟨S16x256, .f32⟩ : BufTy).Contents (Elt F)),
    StableHlo.unary main_v2 main_v23 (broadcastInDim S16x256x1 ![0, 1] bcast_S16x256_S16x256x1_0_1 : (⟨S16x256, .f32⟩ : BufTy).Contents (Elt F) → (⟨S16x256x1, .f32⟩ : BufTy).Contents (Elt F)),
    StableHlo.unary main_v23 main_v24 (broadcastInDim S16x256x16384 ![0, 1, 2] bcast_S16x256x1_S16x256x16384_0_1_2 : (⟨S16x256x1, .f32⟩ : BufTy).Contents (Elt F) → (⟨S16x256x16384, .f32⟩ : BufTy).Contents (Elt F)),
    StableHlo.binary main_arg0 main_v24 main_v25 (subf : (⟨S16x256x16384, .f32⟩ : BufTy).Contents (Elt F) → (⟨S16x256x16384, .f32⟩ : BufTy).Contents (Elt F) → (⟨S16x256x16384, .f32⟩ : BufTy).Contents (Elt F)),
    StableHlo.unary main_v6 main_v26 (broadcastInDim S16x256x1 ![0, 1] bcast_S16x256_S16x256x1_0_1 : (⟨S16x256, .f32⟩ : BufTy).Contents (Elt F) → (⟨S16x256x1, .f32⟩ : BufTy).Contents (Elt F)),
    StableHlo.unary main_v26 main_v27 (broadcastInDim S16x256x16384 ![0, 1, 2] bcast_S16x256x1_S16x256x16384_0_1_2 : (⟨S16x256x1, .f32⟩ : BufTy).Contents (Elt F) → (⟨S16x256x16384, .f32⟩ : BufTy).Contents (Elt F)),
    StableHlo.binary main_v25 main_v27 main_v28 (Host.divf : (⟨S16x256x16384, .f32⟩ : BufTy).Contents (Elt F) → (⟨S16x256x16384, .f32⟩ : BufTy).Contents (Elt F) → (⟨S16x256x16384, .f32⟩ : BufTy).Contents (Elt F)),
    StableHlo.unary main_v22 main_v29 (broadcastInDim S16x256x1 ![0, 1] bcast_S16x256_S16x256x1_0_1 : (⟨S16x256, .f32⟩ : BufTy).Contents (Elt F) → (⟨S16x256x1, .f32⟩ : BufTy).Contents (Elt F)),
    StableHlo.unary main_v29 main_v30 (broadcastInDim S16x256x16384 ![0, 1, 2] bcast_S16x256x1_S16x256x16384_0_1_2 : (⟨S16x256x1, .f32⟩ : BufTy).Contents (Elt F) → (⟨S16x256x16384, .f32⟩ : BufTy).Contents (Elt F)),
    StableHlo.binary main_v28 main_v30 main_v31 (mulf : (⟨S16x256x16384, .f32⟩ : BufTy).Contents (Elt F) → (⟨S16x256x16384, .f32⟩ : BufTy).Contents (Elt F) → (⟨S16x256x16384, .f32⟩ : BufTy).Contents (Elt F)),
    StableHlo.unary main_v18 main_v32 (broadcastInDim S16x256x1 ![0, 1] bcast_S16x256_S16x256x1_0_1 : (⟨S16x256, .f32⟩ : BufTy).Contents (Elt F) → (⟨S16x256x1, .f32⟩ : BufTy).Contents (Elt F)),
    StableHlo.unary main_v32 main_v33 (broadcastInDim S16x256x16384 ![0, 1, 2] bcast_S16x256x1_S16x256x16384_0_1_2 : (⟨S16x256x1, .f32⟩ : BufTy).Contents (Elt F) → (⟨S16x256x16384, .f32⟩ : BufTy).Contents (Elt F)),
    StableHlo.binary main_v31 main_v33 main_v34 (addf : (⟨S16x256x16384, .f32⟩ : BufTy).Contents (Elt F) → (⟨S16x256x16384, .f32⟩ : BufTy).Contents (Elt F) → (⟨S16x256x16384, .f32⟩ : BufTy).Contents (Elt F)),
    StableHlo.nullary main_v35 (iotaInDim S16384 32 0),
    StableHlo.unary main_v35 main_v36 (broadcastInDim S1x16384 ![1] bcast_S16384_S1x16384_1 : (⟨S16384, .i32⟩ : BufTy).Contents (Elt F) → (⟨S1x16384, .i32⟩ : BufTy).Contents (Elt F)),
    StableHlo.unary main_arg3 main_v37 (broadcastInDim S16x1 ![0] bcast_S16_S16x1_0 : (⟨S16, .i32⟩ : BufTy).Contents (Elt F) → (⟨S16x1, .i32⟩ : BufTy).Contents (Elt F)),
    StableHlo.unary main_v36 main_v38 (broadcastInDim S16x16384 ![0, 1] bcast_S1x16384_S16x16384_0_1 : (⟨S1x16384, .i32⟩ : BufTy).Contents (Elt F) → (⟨S16x16384, .i32⟩ : BufTy).Contents (Elt F)),
    StableHlo.unary main_v37 main_v39 (broadcastInDim S16x16384 ![0, 1] bcast_S16x1_S16x16384_0_1 : (⟨S16x1, .i32⟩ : BufTy).Contents (Elt F) → (⟨S16x16384, .i32⟩ : BufTy).Contents (Elt F)),
    StableHlo.binary main_v38 main_v39 main_v40 (cmpi .sge : (⟨S16x16384, .i32⟩ : BufTy).Contents (Elt F) → (⟨S16x16384, .i32⟩ : BufTy).Contents (Elt F) → (⟨S16x16384, .i1⟩ : BufTy).Contents (Elt F)),
    StableHlo.unary main_v35 main_v41 (broadcastInDim S1x16384 ![1] bcast_S16384_S1x16384_1 : (⟨S16384, .i32⟩ : BufTy).Contents (Elt F) → (⟨S1x16384, .i32⟩ : BufTy).Contents (Elt F)),
    StableHlo.unary main_arg3 main_v42 (broadcastInDim S16x1 ![0] bcast_S16_S16x1_0 : (⟨S16, .i32⟩ : BufTy).Contents (Elt F) → (⟨S16x1, .i32⟩ : BufTy).Contents (Elt F)),
    StableHlo.nullary main_c_6 (constantI S_ 32 12288#32),
    StableHlo.unary main_c_6 main_v43 (broadcastInDim S16x1 ![] bcast_S_S16x1 : (⟨S_, .i32⟩ : BufTy).Contents (Elt F) → (⟨S16x1, .i32⟩ : BufTy).Contents (Elt F)),
    StableHlo.binary main_v42 main_v43 main_v44 (addi : (⟨S16x1, .i32⟩ : BufTy).Contents (Elt F) → (⟨S16x1, .i32⟩ : BufTy).Contents (Elt F) → (⟨S16x1, .i32⟩ : BufTy).Contents (Elt F)),
    StableHlo.unary main_v41 main_v45 (broadcastInDim S16x16384 ![0, 1] bcast_S1x16384_S16x16384_0_1 : (⟨S1x16384, .i32⟩ : BufTy).Contents (Elt F) → (⟨S16x16384, .i32⟩ : BufTy).Contents (Elt F)),
    StableHlo.unary main_v44 main_v46 (broadcastInDim S16x16384 ![0, 1] bcast_S16x1_S16x16384_0_1 : (⟨S16x1, .i32⟩ : BufTy).Contents (Elt F) → (⟨S16x16384, .i32⟩ : BufTy).Contents (Elt F)),
    StableHlo.binary main_v45 main_v46 main_v47 (cmpi .slt : (⟨S16x16384, .i32⟩ : BufTy).Contents (Elt F) → (⟨S16x16384, .i32⟩ : BufTy).Contents (Elt F) → (⟨S16x16384, .i1⟩ : BufTy).Contents (Elt F)),
    StableHlo.binary main_v40 main_v47 main_v48 (andi : (⟨S16x16384, .i1⟩ : BufTy).Contents (Elt F) → (⟨S16x16384, .i1⟩ : BufTy).Contents (Elt F) → (⟨S16x16384, .i1⟩ : BufTy).Contents (Elt F)),
    StableHlo.unary main_v48 main_v49 (uitofp .f32 : (⟨S16x16384, .i1⟩ : BufTy).Contents (Elt F) → (⟨S16x16384, .f32⟩ : BufTy).Contents (Elt F)),
    StableHlo.unary main_v49 main_v50 (broadcastInDim S16x1x16384 ![0, 2] bcast_S16x16384_S16x1x16384_0_2 : (⟨S16x16384, .f32⟩ : BufTy).Contents (Elt F) → (⟨S16x1x16384, .f32⟩ : BufTy).Contents (Elt F)),
    StableHlo.unary main_v50 main_v51 (broadcastInDim S16x256x16384 ![0, 1, 2] bcast_S16x1x16384_S16x256x16384_0_1_2 : (⟨S16x1x16384, .f32⟩ : BufTy).Contents (Elt F) → (⟨S16x256x16384, .f32⟩ : BufTy).Contents (Elt F)),
    StableHlo.binary main_v34 main_v51 main_v52 (mulf : (⟨S16x256x16384, .f32⟩ : BufTy).Contents (Elt F) → (⟨S16x256x16384, .f32⟩ : BufTy).Contents (Elt F) → (⟨S16x256x16384, .f32⟩ : BufTy).Contents (Elt F)),
    StableHlo.nullary main_cst_7 (constant S_ .f32 0x3F800000#32),
    StableHlo.unary main_cst_7 main_v53 (broadcastInDim S16x1x16384 ![] bcast_S_S16x1x16384 : (⟨S_, .f32⟩ : BufTy).Contents (Elt F) → (⟨S16x1x16384, .f32⟩ : BufTy).Contents (Elt F)),
    StableHlo.binary main_v53 main_v50 main_v54 (subf : (⟨S16x1x16384, .f32⟩ : BufTy).Contents (Elt F) → (⟨S16x1x16384, .f32⟩ : BufTy).Contents (Elt F) → (⟨S16x1x16384, .f32⟩ : BufTy).Contents (Elt F)),
    StableHlo.unary main_v54 main_v55 (broadcastInDim S16x256x16384 ![0, 1, 2] bcast_S16x1x16384_S16x256x16384_0_1_2 : (⟨S16x1x16384, .f32⟩ : BufTy).Contents (Elt F) → (⟨S16x256x16384, .f32⟩ : BufTy).Contents (Elt F)),
    StableHlo.binary main_arg0 main_v55 main_v56 (mulf : (⟨S16x256x16384, .f32⟩ : BufTy).Contents (Elt F) → (⟨S16x256x16384, .f32⟩ : BufTy).Contents (Elt F) → (⟨S16x256x16384, .f32⟩ : BufTy).Contents (Elt F)),
    StableHlo.binary main_v52 main_v56 main_v57 (addf : (⟨S16x256x16384, .f32⟩ : BufTy).Contents (Elt F) → (⟨S16x256x16384, .f32⟩ : BufTy).Contents (Elt F) → (⟨S16x256x16384, .f32⟩ : BufTy).Contents (Elt F)) ]

set_option maxRecDepth 8192 in
/-- @main is that straight line: the callees' bodies unfold at their calls, and sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., unary_bufs_sub .., unary_bufs_sub .., nullary_bufs_sub .., unary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub ..⟩

set_option maxRecDepth 8192 in
set_option maxHeartbeats 4000000 in
/-- The fold at the result buffer is `out` of the fold's start at the argument buffers: each operation's result at
    its own buffer is its function of its operands' contents and at any other buffer what was there, which rewrites
    the fold to the operations' composed term; that term is `out` unfolded (a typed reference's transport is the
    identity at a literal reference). -/
theorem out_eq (V : Valuation τ sig (Elt F)) :
    after ops V (main_v57 : DevRef τ sig)
      = out (V (main_arg0 : DevRef τ sig)) (V (main_arg1 : DevRef τ sig)) (V (main_arg2 : DevRef τ sig))
          (V (main_arg3 : DevRef τ sig)) := by
  after_results_simp
  rfl

set_option maxRecDepth 8192 in
/-- No operation writes argument 0's buffer. -/
theorem arg0_eq (V : Valuation τ sig (Elt F)) :
    after ops V (main_arg0 : DevRef τ sig) = V (main_arg0 : DevRef τ sig) := by
  after_results_simp

set_option maxRecDepth 8192 in
/-- No operation writes argument 1's buffer. -/
theorem arg1_eq (V : Valuation τ sig (Elt F)) :
    after ops V (main_arg1 : DevRef τ sig) = V (main_arg1 : DevRef τ sig) := by
  after_results_simp

set_option maxRecDepth 8192 in
/-- No operation writes argument 2's buffer. -/
theorem arg2_eq (V : Valuation τ sig (Elt F)) :
    after ops V (main_arg2 : DevRef τ sig) = V (main_arg2 : DevRef τ sig) := by
  after_results_simp

set_option maxRecDepth 8192 in
/-- No operation writes argument 3's buffer. -/
theorem arg3_eq (V : Valuation τ sig (Elt F)) :
    after ops V (main_arg3 : DevRef τ sig) = V (main_arg3 : DevRef τ sig) := by
  after_results_simp

/-- On the device, for any float values, from any memory with zero counters: every weakly fair execution of @main
    terminates with the result at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v57) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v57).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.lean ====
/-
  The kernel normalizes each (batch row, channel) signal by its own mean and unbiased standard deviation over the 16384
  positions, re-scales it with a mean beta and a deviation gamma perturbed by the spread of those statistics over the
  batch, and blends the result with the signal under a per-row mask of 12288 consecutive positions. Its first region
  computes the row statistics strip by strip (eight strips of 2048 positions, two passes), host operations make the
  parameter array [16, 256, 4], its second region blends tile by tile (4096 positions), reading the row's offset from a
  prefetched table. The reference does the same with whole-array operations.

  The three frames: each kernel program's run from launch to return over the fold of its unscoped buffers' contents
  (no item of @main writes an argument array), the reference's run of its host operations. The idealization rewrote
  nothing, so there is nothing to preserve. At the ideal instance the two results agree entry by entry: a sum over the
  16384 positions regrouped in eight strips is the same extended real (addition there is a commutative monoid, so no
  finiteness is used), the kernel's divisor 16383 is the reference's 16384 - 1 and is positive, the float of a one-bit
  mask is the same read as a sign-extended or an unsigned word, and tile l's lane i is position 4096 l + i.
-/
import proofs.«410772_j7524782702974_2_alg».proof.Defs
import proofs.«410772_j7524782702974_2_alg».proof.Proof.Gen.Kernel
import proofs.«410772_j7524782702974_2_alg».proof.Proof.Gen.Kernel.Skeleton
import proofs.«410772_j7524782702974_2_alg».proof.Proof.Gen.Kernel.Launch
import proofs.«410772_j7524782702974_2_alg».proof.Proof.Gen.Kernel.Regions
import proofs.«410772_j7524782702974_2_alg».proof.Proof.Gen.Kernel.Points
import proofs.«410772_j7524782702974_2_alg».proof.Proof.Gen.KernelIdeal
import proofs.«410772_j7524782702974_2_alg».proof.Proof.Gen.KernelIdeal.Skeleton
import proofs.«410772_j7524782702974_2_alg».proof.Proof.Gen.KernelIdeal.Launch
import proofs.«410772_j7524782702974_2_alg».proof.Proof.Gen.KernelIdeal.Regions
import proofs.«410772_j7524782702974_2_alg».proof.Proof.Gen.KernelIdeal.Points
import proofs.«410772_j7524782702974_2_alg».proof.Proof.Gen.ReferenceIdeal
import proofs.«410772_j7524782702974_2_alg».proof.Proof.Gen.Pre_finite_inputs
import proofs.«410772_j7524782702974_2_alg».proof.Proof.KRun
import proofs.«410772_j7524782702974_2_alg».proof.Proof.KHost
import proofs.«410772_j7524782702974_2_alg».proof.Proof.KIValue
import proofs.«410772_j7524782702974_2_alg».proof.Proof.RefRun
import Idealize.ShloMosaic.Adequacy
import Idealize.ShloMosaic.Init

noncomputable section

namespace Cert.Proof

open Idealize.ShloMosaic Idealize.SL.Sem

/-- The word-level program runs to the end and leaves its arguments as launched: they are four of the unscoped buffers
    the run ends holding at the last boundary's contents, and nothing on the way writes them. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W7_arg0 m c),
     (h c _ (Cert.Kernel.Hand.mem_uc Cert.Kernel.main_arg1 (by decide))).trans (Cert.Kernel.Hand.W7_arg1 m c),
     (h c _ (Cert.Kernel.Hand.mem_uc Cert.Kernel.main_arg2 (by decide))).trans (Cert.Kernel.Hand.W7_arg2 m c),
     (h c _ (Cert.Kernel.Hand.mem_uc Cert.Kernel.main_arg3 (by decide))).trans (Cert.Kernel.Hand.W7_arg3 m c)⟩)
    (Cert.Kernel.Hand.run_all (F := Bits) m ρ)

/-- The same of the idealized program. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W7_arg0 m c),
     (h c _ (Cert.KernelIdeal.Hand.mem_uc Cert.KernelIdeal.main_arg1 (by decide))).trans (Cert.KernelIdeal.Hand.W7_arg1 m c),
     (h c _ (Cert.KernelIdeal.Hand.mem_uc Cert.KernelIdeal.main_arg2 (by decide))).trans (Cert.KernelIdeal.Hand.W7_arg2 m c),
     (h c _ (Cert.KernelIdeal.Hand.mem_uc Cert.KernelIdeal.main_arg3 (by decide))).trans (Cert.KernelIdeal.Hand.W7_arg3 m c)⟩)
    (Cert.KernelIdeal.Hand.run_all (F := Ideal) m ρ)

/-- The reference's host operations run to the end and write no argument. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- From memories agreeing on the arguments both idealized programs end with the reference's term of those arguments
    in their result buffers. -/
theorem algebraic : Cert.algebraic_KernelIdeal_ReferenceIdeal := by
  intro m ρ m' ρ' _ hagree
  refine ⟨fun c => Cert.ReferenceIdeal.Hand.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono (fun r h c =>
      ⟨(h c _ (Cert.KernelIdeal.Hand.mem_uc Cert.KernelIdeal.main_v27 (by decide))).trans (Cert.KernelIdeal.Hand.result_eq m c),
       (h c _ (Cert.KernelIdeal.Hand.mem_uc Cert.KernelIdeal.main_arg0 (by decide))).trans (Cert.KernelIdeal.Hand.W7_arg0 m c),
       (h c _ (Cert.KernelIdeal.Hand.mem_uc Cert.KernelIdeal.main_arg1 (by decide))).trans (Cert.KernelIdeal.Hand.W7_arg1 m c),
       (h c _ (Cert.KernelIdeal.Hand.mem_uc Cert.KernelIdeal.main_arg2 (by decide))).trans (Cert.KernelIdeal.Hand.W7_arg2 m c),
       (h c _ (Cert.KernelIdeal.Hand.mem_uc Cert.KernelIdeal.main_arg3 (by decide))).trans (Cert.KernelIdeal.Hand.W7_arg3 m c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Hand.run (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
